-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x512 : Shape := ⟨3, ![8, 128, 512]⟩
abbrev S100000x512 : Shape := ⟨2, ![100000, 512]⟩
abbrev S1024 : Shape := ⟨1, ![1024]⟩
abbrev S_ : Shape := ⟨0, ![]⟩

class Facts : Prop where
  bcast_S_S8x128x512 : S_.BroadcastsInDim S8x128x512 (![] : Fin 0 → Fin S8x128x512.rank)
  reducesTo_S8x128x512_S_d0_1_2 : S8x128x512.ReducesTo [0, 1, 2] S_
  h_S_ : 0 < S_.numel
  bcast_S_S100000x512 : S_.BroadcastsInDim S100000x512 (![] : Fin 0 → Fin S100000x512.rank)
  reducesTo_S100000x512_S_d0_1 : S100000x512.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8x128x512 .f32) (main_arg1 : FVec F S100000x512 .f32) (main_arg2 : IVec S1024 32) : IVec S_ 1 :=
  let main_v0 : FVec F S8x128x512 .f32 := Host.absf main_arg0
  let main_cst : FVec F S_ .f32 := constant S_ .f32 0x7F800000#32
  let main_v1 : FVec F S8x128x512 .f32 := broadcastInDim S8x128x512 ![] bcast_S_S8x128x512 main_cst
  let main_v2 : IVec S8x128x512 1 := cmpf .olt main_v0 main_v1
  let main_c : IVec S_ 1 := constantI S_ 1 1#1
  let main_v3 : IVec S_ 1 := (fun x v => Host.reduce IntOp.andi x v reducesTo_S8x128x512_S_d0_1_2 h_S_) main_v2 main_c
  let main_v4 : FVec F S100000x512 .f32 := Host.absf main_arg1
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_c_2 : IVec S_ 32 := constantI S_ 32 0#32
  let main_v9 : IVec S1024 32 := broadcastInDim S1024 ![] bcast_S_S1024 main_c_2
  let main_v10 : IVec S1024 1 := cmpi .sge main_arg2 main_v9
  let main_c_3 : IVec S_ 32 := constantI S_ 32 100000#32
  let main_v11 : IVec S1024 32 := broadcastInDim S1024 ![] bcast_S_S1024 main_c_3
  let main_v12 : IVec S1024 1 := cmpi .slt main_arg2 main_v11
  let main_v13 : IVec S1024 1 := andi main_v10 main_v12
  let main_c_4 : IVec S_ 1 := constantI S_ 1 1#1
  let main_v14 : IVec S_ 1 := (fun x v => Host.reduce IntOp.andi x v reducesTo_S1024_S_d0 h_S_) main_v13 main_c_4
  let main_v15 : IVec S_ 1 := andi main_v8 main_v14
  main_v15
-- ==== Kernel.lean ====
abbrev S8x128x512 : Shape := ⟨3, ![8, 128, 512]⟩
abbrev S100000x512 : Shape := ⟨2, ![100000, 512]⟩
abbrev S1024 : Shape := ⟨1, ![1024]⟩
abbrev S1024x512 : Shape := ⟨2, ![1024, 512]⟩
abbrev S_ : Shape := ⟨0, ![]⟩
abbrev S1024x1 : Shape := ⟨2, ![1024, 1]⟩
abbrev S2x1024x1 : Shape := ⟨3, ![2, 1024, 1]⟩
abbrev S1000x512 : Shape := ⟨2, ![1000, 512]⟩
abbrev S1x1024x1 : Shape := ⟨3, ![1, 1024, 1]⟩
abbrev S1000 : Shape := ⟨1, ![1000]⟩
abbrev S1000x1 : Shape := ⟨2, ![1000, 1]⟩
abbrev S1024x1000 : Shape := ⟨2, ![1024, 1000]⟩

abbrev nBuf : Space → Nat
  | .hbm => 86
  | .vmem => 13
  | .smem => 0
  | _ => 0

abbrev bufTy : (tb : Table) → Fin (tcTables nBuf tb) → BufTy
  | .hbm, ⟨0, _⟩ => ⟨S8x128x512, .f32⟩
  | .hbm, ⟨1, _⟩ => ⟨S100000x512, .f32⟩
  | .hbm, ⟨2, _⟩ => ⟨S1024, .i32⟩
  | .hbm, ⟨3, _⟩ => ⟨S1024x512, .f32⟩
  | .hbm, ⟨4, _⟩ => ⟨S1024x512, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S1024x512, .f32⟩
  | .hbm, ⟨13, _⟩ => ⟨S1024x512, .f32⟩
  | .hbm, ⟨14, _⟩ => ⟨S1024x512, .bf16⟩
  | .hbm, ⟨15, _⟩ => ⟨S1024x1, .i32⟩
  | .hbm, ⟨16, _⟩ => ⟨S2x1024x1, .f32⟩
  | .hbm, ⟨17, _⟩ => ⟨S2x1024x1, .f32⟩
  | .hbm, ⟨18, _⟩ => ⟨S2x1024x1, .f32⟩
  | .hbm, ⟨19, _⟩ => ⟨S1x1024x1, .f32⟩
  | .hbm, ⟨20, _⟩ => ⟨S1024, .f32⟩
  | .hbm, ⟨21, _⟩ => ⟨S1x1024x1, .f32⟩
  | .hbm, ⟨22, _⟩ => ⟨S1024, .f32⟩
  | .hbm, ⟨23, _⟩ => ⟨S1x1024x1, .f32⟩
  | .hbm, ⟨24, _⟩ => ⟨S1024, .f32⟩
  | .hbm, ⟨25, _⟩ => ⟨S1x1024x1, .f32⟩
  | .hbm, ⟨26, _⟩ => ⟨S1024, .f32⟩
  | .hbm, ⟨27, _⟩ => ⟨S1x1024x1, .f32⟩
  | .hbm, ⟨28, _⟩ => ⟨S1024, .f32⟩
  | .hbm, ⟨29, _⟩ => ⟨S1x1024x1, .f32⟩
  | .hbm, ⟨30, _⟩ => ⟨S1024, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S1024, .f32⟩
  | .hbm, ⟨35, _⟩ => ⟨S1024, .f32⟩
  | .hbm, ⟨36, _⟩ => ⟨S1024, .f32⟩
  | .hbm, ⟨37, _⟩ => ⟨S1024, .f32⟩
  | .hbm, ⟨38, _⟩ => ⟨S1024, .f32⟩
  | .hbm, ⟨39, _⟩ => ⟨S1024, .f32⟩
  | .hbm, ⟨40, _⟩ => ⟨S1024, .f32⟩
  | .hbm, ⟨41, _⟩ => ⟨S_, .f32⟩
  | .hbm, ⟨42, _⟩ => ⟨S1024, .f32⟩
  | .hbm, ⟨43, _⟩ => ⟨S1024, .f32⟩
  | .hbm, ⟨44, _⟩ => ⟨S_, .f32⟩
  | .hbm, ⟨45, _⟩ => ⟨S1024, .f32⟩
  | .hbm, ⟨46, _⟩ => ⟨S1024, .f32⟩
  | .hbm, ⟨47, _⟩ => ⟨S_, .f32⟩
  | .hbm, ⟨48, _⟩ => ⟨S1024, .f32⟩
  | .hbm, ⟨49, _⟩ => ⟨S1024, .f32⟩
  | .hbm, ⟨50, _⟩ => ⟨S1024, .f32⟩
  | .hbm, ⟨51, _⟩ => ⟨S_, .f32⟩
  | .hbm, ⟨52, _⟩ => ⟨S1024, .f32⟩
  | .hbm, ⟨53, _⟩ => ⟨S1024, .f32⟩
  | .hbm, ⟨54, _⟩ => ⟨S_, .f32⟩
  | .hbm, ⟨55, _⟩ => ⟨S1024, .f32⟩
  | .hbm, ⟨56, _⟩ => ⟨S1024, .f32⟩
  | .hbm, ⟨57, _⟩ => ⟨S1024, .f32⟩
  | .hbm, ⟨58, _⟩ => ⟨S_, .f32⟩
  | .hbm, ⟨59, _⟩ => ⟨S1024, .f32⟩
  | .hbm, ⟨60, _⟩ => ⟨S1024, .i1⟩
  | .hbm, ⟨61, _⟩ => ⟨S_, .f32⟩
  | .hbm, ⟨62, _⟩ => ⟨S1024, .f32⟩
  | .hbm, ⟨63, _⟩ => ⟨S1024, .f32⟩
  | .hbm, ⟨64, _⟩ => ⟨S1024, .f32⟩
  | .hbm, ⟨65, _⟩ => ⟨S1024, .f32⟩
  | .hbm, ⟨66, _⟩ => ⟨S_, .f32⟩
  | .hbm, ⟨67, _⟩ => ⟨S1024, .f32⟩
  | .hbm, ⟨68, _⟩ => ⟨S1024, .f32⟩
  | .hbm, ⟨69, _⟩ => ⟨S_, .f32⟩
  | .hbm, ⟨70, _⟩ => ⟨S1024, .f32⟩
  | .hbm, ⟨71, _⟩ => ⟨S1024, .f32⟩
  | .hbm, ⟨72, _⟩ => ⟨S1024, .f32⟩
  | .hbm, ⟨73, _⟩ => ⟨S1024, .f32⟩
  | .hbm, ⟨74, _⟩ => ⟨S1024, .f32⟩
  | .hbm, ⟨75, _⟩ => ⟨S1024, .f32⟩
  | .hbm, ⟨76, _⟩ => ⟨S1024, .f32⟩
  | .hbm, ⟨77, _⟩ => ⟨S1024, .f32⟩
  | .hbm, ⟨78, _⟩ => ⟨S1024, .f32⟩
  | .hbm, ⟨79, _⟩ => ⟨S1024, .f32⟩
  | .hbm, ⟨80, _⟩ => ⟨S1024, .f32⟩
  | .hbm, ⟨81, _⟩ => ⟨S1024, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .local _ .vmem, ⟨0, _⟩ => ⟨S1024x512, .bf16⟩
  | .local _ .vmem, ⟨1, _⟩ => ⟨S1000x512, .f32⟩
  | .local _ .vmem, ⟨2, _⟩ => ⟨S1000x512, .f32⟩
  | .local _ .vmem, ⟨3, _⟩ => ⟨S1024x1, .i32⟩
  | .local _ .vmem, ⟨4, _⟩ => ⟨S1x1024x1, .f32⟩
  | .local _ .vmem, ⟨5, _⟩ => ⟨S1x1024x1, .f32⟩
  | .local _ .vmem, ⟨6, _⟩ => ⟨S1x1024x1, .f32⟩
  | .local _ .vmem, ⟨7, _⟩ => ⟨S1x1024x1, .f32⟩
  | .local _ .vmem, ⟨8, _⟩ => ⟨S1x1024x1, .f32⟩
  | .local _ .vmem, ⟨9, _⟩ => ⟨S1x1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | _, _ => ⟨S8x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_1 : Ref sig .tc := ⟨.hbm, 41, rfl⟩
abbrev main_v34 : Ref sig .tc := ⟨.hbm, 42, rfl⟩
abbrev main_v35 : Ref sig .tc := ⟨.hbm, 43, rfl⟩
abbrev main_cst_2 : Ref sig .tc := ⟨.hbm, 44, rfl⟩
abbrev main_v36 : Ref sig .tc := ⟨.hbm, 45, rfl⟩
abbrev main_v37 : Ref sig .tc := ⟨.hbm, 46, rfl⟩
abbrev main_cst_3 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_4 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_6 : Ref sig .tc := ⟨.hbm, 58, rfl⟩
abbrev main_v46 : Ref sig .tc := ⟨.hbm, 59, rfl⟩
abbrev main_v47 : Ref sig .tc := ⟨.hbm, 60, rfl⟩
abbrev main_cst_7 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_v53 : Ref sig .tc := ⟨.hbm, 68, rfl⟩
abbrev main_cst_9 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_10 : Ref sig .tc := ⟨.hbm, 82, rfl⟩
abbrev main_v66 : Ref sig .tc := ⟨.hbm, 83, rfl⟩
abbrev main_cst_11 : Ref sig .tc := ⟨.hbm, 84, rfl⟩
abbrev main_v67 : Ref sig .tc := ⟨.hbm, 85, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg1 : BitVec 32 := BitVec.ofNat 32 (i 1).val
  let c49_i32 : BitVec 32 := 49#32
  let v62 : BitVec 1 := Scalar.cmpi .eq arg1 c49_i32
  let v63 : BitVec 32 := Scalar.extui v62
  let c0_i32_29 : BitVec 32 := 0#32
  let v64 : BitVec 1 := Scalar.cmpi .ne v63 c0_i32_29
  v64

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S8x128x512_S1024x512 : S8x128x512.ShapeCasts S1024x512
  reducesTo_S1024x512_S1024_d1 : S1024x512.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  bitsLt_bf16_f32 : FTy.bits .bf16 < FTy.bits .f32
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1000x512_S1000x512_0_0 : ∀ a, (![0, 0] : Fin 2 → Nat) a + S1000x512.size a ≤ S1000x512.size a
  h_S1000x512 : 0 < S1000x512.numel
  reduces_S1000x512_S1000 : S1000x512.Reduces [1] S1000
  shapeCasts_S1000_S1000x1 : S1000.ShapeCasts S1000x1
  broadcasts_S1000x1_S1000x512 : S1000x1.Broadcasts S1000x512
  iota_S1024x1000_d1_w32 : S1024x1000.Iotas .tc 32 [1]
  reduces_S1024x1000_S1024 : S1024x1000.Reduces [1] S1024
  broadcasts_S1024x1_S1024x1000 : S1024x1.Broadcasts S1024x1000
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  slices_S2x1024x1_S1x1024x1_0_0_0 : S2x1024x1.Slices ![0, 0, 0] S1x1024x1
  shapeCasts_S1x1024x1_S1024 : S1x1024x1.ShapeCasts S1024
  slices_S2x1024x1_S1x1024x1_1_0_0 : S2x1024x1.Slices ![1, 0, 0] S1x1024x1
  bcast_S_S1024 : S_.BroadcastsInDim S1024 (![] : Fin 0 → Fin S1024.rank)
  reducesTo_S1024_S_d0 : S1024.ReducesTo [0] S_
  dot_S1024x512_S1000x512_S1024x1000_1_1_0_0_n_n_wf : DotDims.WF S1024x512 S1000x512 S1024x1000 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x512.size a
  hwx0_0 : ∀ i : grid0.Coords, EltTy.bits .bf16 = 32 ∨ (Rect.block (s := S1024x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S100000x512.size a
  hwx0_1 : ∀ i : grid0.Coords, EltTy.bits .f32 = 32 ∨ (Rect.block (s := S100000x512) S1000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S1024x1.size a
  hwx0_2 : ∀ i : grid0.Coords, EltTy.bits .i32 = 32 ∨ (Rect.block (s := S1024x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1.size a ≤ S2x1024x1.size a
  hwx0_3 : ∀ i : grid0.Coords, EltTy.bits .f32 = 32 ∨ (Rect.block (s := S2x1024x1) S1x1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1.size a ≤ S2x1024x1.size a
  hwx0_4 : ∀ i : grid0.Coords, EltTy.bits .f32 = 32 ∨ (Rect.block (s := S2x1024x1) S1x1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1.size a ≤ S2x1024x1.size a
  hwx0_5 : ∀ i : grid0.Coords, EltTy.bits .f32 = 32 ∨ (Rect.block (s := S2x1024x1) S1x1024x1.size (cc0_transform_5 i) (hinb0_5 i)).WholeWords (EltTy.packing .f32)

variable [Facts₀]

def dot_S1024x512_S1000x512_S1024x1000_1_1_0_0_n_n : DotDims S1024x512 S1000x512 S1024x1000 where
  lhsContracting := [1]
  rhsContracting := [1]
  lhsNonContracting := [0]
  rhsNonContracting := [0]
  lhsBatch := []
  rhsBatch := []
  wf := dot_S1024x512_S1000x512_S1024x1000_1_1_0_0_n_n_wf

abbrev win0_0 : Pipeline.Window sig grid0 :=
  Pipeline.Window.ofSpec (Memref.whole main_v9) S1024x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1024x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11_0) S1x1024x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11_1) S1x1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11_2) S1x1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun i => !(k0_cond2 i == 1#1) | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x128x512 : Shape := ⟨3, ![8, 128, 512]⟩
abbrev S100000x512 : Shape := ⟨2, ![100000, 512]⟩
abbrev S1024 : Shape := ⟨1, ![1024]⟩
abbrev S_ : Shape := ⟨0, ![]⟩
abbrev S8x128 : Shape := ⟨2, ![8, 128]⟩
abbrev S8x128x1 : Shape := ⟨3, ![8, 128, 1]⟩
abbrev S1024x512 : Shape := ⟨2, ![1024, 512]⟩
abbrev S100000 : Shape := ⟨1, ![100000]⟩
abbrev S100000x1 : Shape := ⟨2, ![100000, 1]⟩
abbrev S1024x100000 : Shape := ⟨2, ![1024, 100000]⟩
abbrev S1024x1 : Shape := ⟨2, ![1024, 1]⟩
abbrev S1x100000 : Shape := ⟨2, ![1, 100000]⟩
abbrev S1024x1x1 : Shape := ⟨3, ![1024, 1, 1]⟩
abbrev S1 : Shape := ⟨1, ![1]⟩
abbrev S1x1x1 : Shape := ⟨3, ![1, 1, 1]⟩

abbrev nBuf : Space → Nat
  | .hbm => 115
  | .vmem => 0
  | .smem => 0
  | _ => 0

abbrev bufTy : (tb : Table) → Fin (tcTables nBuf tb) → BufTy
  | .hbm, ⟨0, _⟩ => ⟨S8x128x512, .f32⟩
  | .hbm, ⟨1, _⟩ => ⟨S100000x512, .f32⟩
  | .hbm, ⟨2, _⟩ => ⟨S1024, .i32⟩
  | .hbm, ⟨3, _⟩ => ⟨S8x128x512, .f32⟩
  | .hbm, ⟨4, _⟩ => ⟨S_, .f32⟩
  | .hbm, ⟨5, _⟩ => ⟨S8x128, .f32⟩
  | .hbm, ⟨6, _⟩ => ⟨S8x128x1, .f32⟩
  | .hbm, ⟨7, _⟩ => ⟨S8x128x1, .f32⟩
  | .hbm, ⟨8, _⟩ => ⟨S_, .f32⟩
  | .hbm, ⟨9, _⟩ => ⟨S8x128x1, .f32⟩
  | .hbm, ⟨10, _⟩ => ⟨S8x128x1, .f32⟩
  | .hbm, ⟨11, _⟩ => ⟨S8x128x512, .f32⟩
  | .hbm, ⟨12, _⟩ => ⟨S8x128x512, .f32⟩
  | .hbm, ⟨13, _⟩ => ⟨S1024x512, .f32⟩
  | .hbm, ⟨14, _⟩ => ⟨S100000x512, .f32⟩
  | .hbm, ⟨15, _⟩ => ⟨S_, .f32⟩
  | .hbm, ⟨16, _⟩ => ⟨S100000, .f32⟩
  | .hbm, ⟨17, _⟩ => ⟨S100000x1, .f32⟩
  | .hbm, ⟨18, _⟩ => ⟨S100000x1, .f32⟩
  | .hbm, ⟨19, _⟩ => ⟨S_, .f32⟩
  | .hbm, ⟨20, _⟩ => ⟨S100000x1, .f32⟩
  | .hbm, ⟨21, _⟩ => ⟨S100000x1, .f32⟩
  | .hbm, ⟨22, _⟩ => ⟨S100000x512, .f32⟩
  | .hbm, ⟨23, _⟩ => ⟨S100000x512, .f32⟩
  | .hbm, ⟨24, _⟩ => ⟨S1024x100000, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1024x100000, .f32⟩
  | .hbm, ⟨29, _⟩ => ⟨S1024x100000, .f32⟩
  | .hbm, ⟨30, _⟩ => ⟨S_, .f32⟩
  | .hbm, ⟨31, _⟩ => ⟨S1024x100000, .f32⟩
  | .hbm, ⟨32, _⟩ => ⟨S1024x100000, .f32⟩
  | .hbm, ⟨33, _⟩ => ⟨S1024x100000, .f32⟩
  | .hbm, ⟨34, _⟩ => ⟨S_, .f32⟩
  | .hbm, ⟨35, _⟩ => ⟨S1024x100000, .f32⟩
  | .hbm, ⟨36, _⟩ => ⟨S1024x100000, .f32⟩
  | .hbm, ⟨37, _⟩ => ⟨S_, .f32⟩
  | .hbm, ⟨38, _⟩ => ⟨S1024x100000, .f32⟩
  | .hbm, ⟨39, _⟩ => ⟨S1024x100000, .f32⟩
  | .hbm, ⟨40, _⟩ => ⟨S1024x100000, .f32⟩
  | .hbm, ⟨41, _⟩ => ⟨S_, .f32⟩
  | .hbm, ⟨42, _⟩ => ⟨S1024x100000, .f32⟩
  | .hbm, ⟨43, _⟩ => ⟨S1024x100000, .f32⟩
  | .hbm, ⟨44, _⟩ => ⟨S_, .f32⟩
  | .hbm, ⟨45, _⟩ => ⟨S1024x100000, .f32⟩
  | .hbm, ⟨46, _⟩ => ⟨S1024x100000, .f32⟩
  | .hbm, ⟨47, _⟩ => ⟨S1024x100000, .f32⟩
  | .hbm, ⟨48, _⟩ => ⟨S_, .f32⟩
  | .hbm, ⟨49, _⟩ => ⟨S1024x100000, .f32⟩
  | .hbm, ⟨50, _⟩ => ⟨S1024x100000, .i1⟩
  | .hbm, ⟨51, _⟩ => ⟨S_, .f32⟩
  | .hbm, ⟨52, _⟩ => ⟨S1024x100000, .f32⟩
  | .hbm, ⟨53, _⟩ => ⟨S1024x100000, .f32⟩
  | .hbm, ⟨54, _⟩ => ⟨S1024x100000, .f32⟩
  | .hbm, ⟨55, _⟩ => ⟨S1024x100000, .f32⟩
  | .hbm, ⟨56, _⟩ => ⟨S1024x1, .i32⟩
  | .hbm, ⟨57, _⟩ => ⟨S1x100000, .i32⟩
  | .hbm, ⟨58, _⟩ => ⟨S1024x100000, .i32⟩
  | .hbm, ⟨59, _⟩ => ⟨S1024x100000, .i32⟩
  | .hbm, ⟨60, _⟩ => ⟨S1024x100000, .i1⟩
  | .hbm, ⟨61, _⟩ => ⟨S1024x100000, .f32⟩
  | .hbm, ⟨62, _⟩ => ⟨S1024x100000, .f32⟩
  | .hbm, ⟨63, _⟩ => ⟨S_, .f32⟩
  | .hbm, ⟨64, _⟩ => ⟨S1024x100000, .f32⟩
  | .hbm, ⟨65, _⟩ => ⟨S1024x100000, .f32⟩
  | .hbm, ⟨66, _⟩ => ⟨S1024x100000, .f32⟩
  | .hbm, ⟨67, _⟩ => ⟨S1024x100000, .f32⟩
  | .hbm, ⟨68, _⟩ => ⟨S_, .f32⟩
  | .hbm, ⟨69, _⟩ => ⟨S1024x100000, .f32⟩
  | .hbm, ⟨70, _⟩ => ⟨S1024x100000, .f32⟩
  | .hbm, ⟨71, _⟩ => ⟨S_, .f32⟩
  | .hbm, ⟨72, _⟩ => ⟨S1024, .f32⟩
  | .hbm, ⟨73, _⟩ => ⟨S_, .f32⟩
  | .hbm, ⟨74, _⟩ => ⟨S1024, .f32⟩
  | .hbm, ⟨75, _⟩ => ⟨S1024, .f32⟩
  | .hbm, ⟨76, _⟩ => ⟨S1024x1, .f32⟩
  | .hbm, ⟨77, _⟩ => ⟨S1024x100000, .f32⟩
  | .hbm, ⟨78, _⟩ => ⟨S1024x100000, .f32⟩
  | .hbm, ⟨79, _⟩ => ⟨S1024x100000, .f32⟩
  | .hbm, ⟨80, _⟩ => ⟨S_, .f32⟩
  | .hbm, ⟨81, _⟩ => ⟨S1024, .f32⟩
  | .hbm, ⟨82, _⟩ => ⟨S1024x1, .f32⟩
  | .hbm, ⟨83, _⟩ => ⟨S1024x1, .f32⟩
  | .hbm, ⟨84, _⟩ => ⟨S1024x100000, .f32⟩
  | .hbm, ⟨85, _⟩ => ⟨S1024x100000, .f32⟩
  | .hbm, ⟨86, _⟩ => ⟨S1024x1, .i32⟩
  | .hbm, ⟨87, _⟩ => ⟨S_, .i32⟩
  | .hbm, ⟨88, _⟩ => ⟨S1024x1, .i32⟩
  | .hbm, ⟨89, _⟩ => ⟨S1024x1, .i1⟩
  | .hbm, ⟨90, _⟩ => ⟨S_, .i32⟩
  | .hbm, ⟨91, _⟩ => ⟨S1024x1, .i32⟩
  | .hbm, ⟨92, _⟩ => ⟨S1024x1, .i32⟩
  | .hbm, ⟨93, _⟩ => ⟨S1024x1, .i32⟩
  | .hbm, ⟨94, _⟩ => ⟨S1024x1x1, .i32⟩
  | .hbm, ⟨95, _⟩ => ⟨S1, .i32⟩
  | .hbm, ⟨96, _⟩ => ⟨S_, .i32⟩
  | .hbm, ⟨97, _⟩ => ⟨S1024x1x1, .i32⟩
  | .hbm, ⟨98, _⟩ => ⟨S1024x1x1, .i1⟩
  | .hbm, ⟨99, _⟩ => ⟨S1x1x1, .i32⟩
  | .hbm, ⟨100, _⟩ => ⟨S1024x1x1, .i32⟩
  | .hbm, ⟨101, _⟩ => ⟨S1024x1x1, .i1⟩
  | .hbm, ⟨102, _⟩ => ⟨S1024x1x1, .i1⟩
  | .hbm, ⟨103, _⟩ => ⟨S_, .i1⟩
  | .hbm, ⟨104, _⟩ => ⟨S1024x1, .i1⟩
  | .hbm, ⟨105, _⟩ => ⟨S1024x1, .f32⟩
  | .hbm, ⟨106, _⟩ => ⟨S_, .f32⟩
  | .hbm, ⟨107, _⟩ => ⟨S1024x1, .f32⟩
  | .hbm, ⟨108, _⟩ => ⟨S1024x1, .f32⟩
  | .hbm, ⟨109, _⟩ => ⟨S1024, .f32⟩
  | .hbm, ⟨110, _⟩ => ⟨S1024, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | _, _ => ⟨S8x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_9 : Ref sig .tc := ⟨.hbm, 48, rfl⟩
abbrev main_v30 : Ref sig .tc := ⟨.hbm, 49, rfl⟩
abbrev main_v31 : Ref sig .tc := ⟨.hbm, 50, rfl⟩
abbrev main_cst_10 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_v36 : Ref sig .tc := ⟨.hbm, 61, rfl⟩
abbrev main_v37 : Ref sig .tc := ⟨.hbm, 62, rfl⟩
abbrev main_cst_11 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_12 : Ref sig .tc := ⟨.hbm, 68, rfl⟩
abbrev main_v42 : Ref sig .tc := ⟨.hbm, 69, rfl⟩
abbrev main_v43 : Ref sig .tc := ⟨.hbm, 70, rfl⟩
abbrev main_call3_cst : Ref sig .tc := ⟨.hbm, 71, rfl⟩
abbrev main_call3_v0 : Ref sig .tc := ⟨.hbm, 72, rfl⟩
abbrev main_call3_cst_0 : Ref sig .tc := ⟨.hbm, 73, rfl⟩
abbrev main_call3_v1 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_call3_v5 : Ref sig .tc := ⟨.hbm, 78, rfl⟩
abbrev main_call3_v6 : Ref sig .tc := ⟨.hbm, 79, rfl⟩
abbrev main_call3_cst_1 : Ref sig .tc := ⟨.hbm, 80, rfl⟩
abbrev main_call3_v7 : Ref sig .tc := ⟨.hbm, 81, rfl⟩
abbrev main_call3_v8 : Ref sig .tc := ⟨.hbm, 82, rfl⟩
abbrev main_call3_v9 : Ref sig .tc := ⟨.hbm, 83, rfl⟩
abbrev main_call3_v10 : Ref sig .tc := ⟨.hbm, 84, rfl⟩
abbrev main_v44 : Ref sig .tc := ⟨.hbm, 85, rfl⟩
abbrev main_v45 : Ref sig .tc := ⟨.hbm, 86, rfl⟩
abbrev main_call4_c : Ref sig .tc := ⟨.hbm, 87, rfl⟩
abbrev main_call4_v0 : Ref sig .tc := ⟨.hbm, 88, rfl⟩
abbrev main_call4_v1 : Ref sig .tc := ⟨.hbm, 89, rfl⟩
abbrev main_call4_c_0 : Ref sig .tc := ⟨.hbm, 90, rfl⟩
abbrev main_call4_v2 : Ref sig .tc := ⟨.hbm, 91, rfl⟩
abbrev main_call4_v3 : Ref sig .tc := ⟨.hbm, 92, rfl⟩
abbrev main_call4_v4 : Ref sig .tc := ⟨.hbm, 93, rfl⟩
abbrev main_call4_v5 : Ref sig .tc := ⟨.hbm, 94, rfl⟩
abbrev main_call4_c_1 : Ref sig .tc := ⟨.hbm, 95, rfl⟩
abbrev main_call4_c_2 : Ref sig .tc := ⟨.hbm, 96, rfl⟩
abbrev main_call4_v6 : Ref sig .tc := ⟨.hbm, 97, rfl⟩
abbrev main_call4_v7 : Ref sig .tc := ⟨.hbm, 98, rfl⟩
abbrev main_call4_v8 : Ref sig .tc := ⟨.hbm, 99, rfl⟩
abbrev main_call4_v9 : Ref sig .tc := ⟨.hbm, 100, rfl⟩
abbrev main_call4_v10 : Ref sig .tc := ⟨.hbm, 101, rfl⟩
abbrev main_call4_v11 : Ref sig .tc := ⟨.hbm, 102, rfl⟩
abbrev main_call4_c_3 : Ref sig .tc := ⟨.hbm, 103, rfl⟩
abbrev main_call4_v12 : Ref sig .tc := ⟨.hbm, 104, rfl⟩
abbrev main_call4_v13 : Ref sig .tc := ⟨.hbm, 105, rfl⟩
abbrev main_call4_cst : Ref sig .tc := ⟨.hbm, 106, rfl⟩
abbrev main_call4_v14 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_cst_13 : Ref sig .tc := ⟨.hbm, 111, rfl⟩
abbrev main_v49 : Ref sig .tc := ⟨.hbm, 112, rfl⟩
abbrev main_cst_14 : Ref sig .tc := ⟨.hbm, 113, rfl⟩
abbrev main_v50 : Ref sig .tc := ⟨.hbm, 114, rfl⟩

abbrev nD : Nat := 1
abbrev τ : Topo := Topo.v7x

variable {F : FTy → Type} [FloatOps F]

class Facts₀ : Prop where
  reducesTo_S8x128x512_S8x128_d2 : S8x128x512.ReducesTo [2] S8x128
  h_S_ : 0 < S_.numel
  bcast_S8x128_S8x128x1_0_1 : S8x128.BroadcastsInDim S8x128x1 (![0, 1] : Fin 2 → Fin S8x128x1.rank)
  bcast_S_S8x128x1 : S_.BroadcastsInDim S8x128x1 (![] : Fin 0 → Fin S8x128x1.rank)
  bcast_S8x128x1_S8x128x512_0_1_2 : S8x128x1.BroadcastsInDim S8x128x512 (![0, 1, 2] : Fin 3 → Fin S8x128x512.rank)
  shapeCasts_S8x128x512_S1024x512 : S8x128x512.ShapeCasts S1024x512
  reducesTo_S100000x512_S100000_d1 : S100000x512.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x512_0_1 : S100000x1.BroadcastsInDim S100000x512 (![0, 1] : Fin 2 → Fin S100000x512.rank)
  bcast_S_S1024x100000 : S_.BroadcastsInDim S1024x100000 (![] : Fin 0 → Fin S1024x100000.rank)
  bcast_S1024_S1024x1_0 : S1024.BroadcastsInDim S1024x1 (![0] : Fin 1 → Fin S1024x1.rank)
  bcast_S1024x1_S1024x100000_0_1 : S1024x1.BroadcastsInDim S1024x100000 (![0, 1] : Fin 2 → Fin S1024x100000.rank)
  bcast_S1x100000_S1024x100000_0_1 : S1x100000.BroadcastsInDim S1024x100000 (![0, 1] : Fin 2 → Fin S1024x100000.rank)
  reducesTo_S1024x100000_S1024_d1 : S1024x100000.ReducesTo [1] S1024
  bcast_S_S1024 : S_.BroadcastsInDim S1024 (![] : Fin 0 → Fin S1024.rank)
  bcast_S_S1024x1 : S_.BroadcastsInDim S1024x1 (![] : Fin 0 → Fin S1024x1.rank)
  shapeCasts_S1024x1_S1024x1x1 : S1024x1.ShapeCasts S1024x1x1
  bcast_S_S1024x1x1 : S_.BroadcastsInDim S1024x1x1 (![] : Fin 0 → Fin S1024x1x1.rank)
  bcast_S1_S1x1x1_2 : S1.BroadcastsInDim S1x1x1 (![2] : Fin 1 → Fin S1x1x1.rank)
  bcast_S1x1x1_S1024x1x1_0_1_2 : S1x1x1.BroadcastsInDim S1024x1x1 (![0, 1, 2] : Fin 3 → Fin S1024x1x1.rank)
  reducesTo_S1024x1x1_S1024x1_d2 : S1024x1x1.ReducesTo [2] S1024x1
  shapeCasts_S1024x1_S1024 : S1024x1.ShapeCasts S1024
  reducesTo_S1024_S_d0 : S1024.ReducesTo [0] S_
  dot_S1024x512_S100000x512_S1024x100000_1_1_0_0_n_n_wf : DotDims.WF S1024x512 S100000x512 S1024x100000 [1] [1] [0] [0] [] []
  gather_S1024x100000_S1024x1x1_S1024x1_n_1_0_0_1_2_11_wf : GatherDims.WF S1024x100000 S1024x1x1 S1024x1 [] [1] [0] [1] [0] 2 ![1, 1]

variable [Facts₀]

def dot_S1024x512_S100000x512_S1024x100000_1_1_0_0_n_n : DotDims S1024x512 S100000x512 S1024x100000 where
  lhsContracting := [1]
  rhsContracting := [1]
  lhsNonContracting := [0]
  rhsNonContracting := [0]
  lhsBatch := []
  rhsBatch := []
  wf := dot_S1024x512_S100000x512_S1024x100000_1_1_0_0_n_n_wf
def gather_S1024x100000_S1024x1x1_S1024x1_n_1_0_0_1_2_11 : GatherDims S1024x100000 S1024x1x1 S1024x1 where
  offsetDims := []
  collapsedSliceDims := [1]
  operandBatchingDims := [0]
  startIndicesBatchingDims := [0]
  startIndexMap := [1]
  indexVectorDim := 2
  sliceSizes := ![1, 1]
  wf := gather_S1024x100000_S1024x1x1_S1024x1_n_1_0_0_1_2_11_wf

class Facts : Prop extends Facts₀ where

variable [Facts]
-- ==== Proof.K.Base.lean ====
/-
  What the frame proof of this program shares: @main as host operations, the region, host operations; the buffer
  contents when the region is entered; what the later host operations may touch; each window's block; the two
  conditions the kernel body branches on, in closed form over the 100 grid points (the first column tile of a half:
  point ≡ 0 mod 50; the last: point ≡ 49 mod 50); where the three output windows are idle; the memrefs the body is
  called with; and the region's scratch invariant spelt memref by memref.
-/
import proofs.«431442_j45981919871044_3_alg».proof.Proof.Gen.Kernel.Launch
import proofs.«431442_j45981919871044_3_alg».proof.Proof.Gen.Kernel.Skeleton
import proofs.«431442_j45981919871044_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core c's buffer contents when the region is entered: after the thirteen host operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

set_option maxHeartbeats 8000000 in
/-- @main reduces to the region continued by the later host operations, at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0] [hostOps1, hostOps1_1, hostOps1_2] (by simp only [List.Forall]; exact hostOps0_sub)
    (by simp only [List.Forall]; exact hostOps0_fresh) main_chain

/-- The later host operations touch unscoped buffers only. -/
theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

set_option maxHeartbeats 1600000 in
/-- And each writes only its own result buffer, which is no array of the pipeline. -/
theorem sfx_keeps : ∀ ops ∈ ([hostOps1, hostOps1_1, hostOps1_2] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_2, List.mem_cons, List.mem_nil_iff, or_false] at hop
    rcases hop with rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data
    whose array is the region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first column tile of its half": the body resets its three running vectors. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 50 = 0 :=
  (by decide +kernel : ∀ t : Fin grid0.N, cond0_0 (grid0.coords t) ↔ t.val % 50 = 0)

/-- "This is the last column tile of its half": the body copies the three running vectors to its outputs. -/
abbrev cond0_1 (i : grid0.Coords) : Prop := k0_cond2 i = 1#1
theorem hcond0_1 : ∀ t : Fin cfg0.N, cond0_1 (grid0.coords t) ↔ t.val % 50 = 49 :=
  (by decide +kernel : ∀ t : Fin grid0.N, cond0_1 (grid0.coords t) ↔ t.val % 50 = 49)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from a half's last tile the three outputs are idle and not written back. -/
theorem idleAt0_3 : ∀ t : Fin cfg0.N, ¬cond0_1 (grid0.coords t) → cfg0.idle 3 (grid0.coords t) = true := by decide +kernel
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem noFlush0_3 : ∀ t : Fin cfg0.N, ¬cond0_1 (grid0.coords t) → (cfg0.win 3).flush t = false := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
/-- At a half's last tile they are live. -/
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The memrefs the body is called with -/

abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1000x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x1 .f32 := win0_5.stage (cfg0.slots t 5)
abbrev hs0_5 (t : Fin cfg0.N) : (ms0_5 t).IsWhole := hstage0_5 ((cfg0.slots t 5).cast nbuf0_5)
/-- The three scratch vectors (running maximum, running sum, target cosine): whole scoped buffers of the kernel's own. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2
/-- Views through which a scratch vector's and an output block's contents are stated. -/
abbrev VS0_0 : View sig .tc .vmem S1024x1 .f32 := scM0_0.view
abbrev VS0_1 : View sig .tc .vmem S1024x1 .f32 := scM0_1.view
abbrev VS0_2 : View sig .tc .vmem S1024x1 .f32 := scM0_2.view
abbrev VO0_3 : View sig .tc .vmem S1x1024x1 .f32 := (Memref.whole cc0_stg3_0 : Memref sig .tc .vmem S1x1024x1 .f32).view
abbrev VO0_4 : View sig .tc .vmem S1x1024x1 .f32 := (Memref.whole cc0_stg4_0 : Memref sig .tc .vmem S1x1024x1 .f32).view
abbrev VO0_5 : View sig .tc .vmem S1x1024x1 .f32 := (Memref.whole cc0_stg5_0 : Memref sig .tc .vmem S1x1024x1 .f32).view

/-- The region's class invariant with the three scratch vectors as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Fr

end
-- ==== Proof.K.RunA.lean ====
/-
  The kernel body at the first column tile of a half (the reset branch taken, the copy-out branch not): on whole
  memrefs holding the three input blocks, the three idle output buffers at any contents (handed back untouched) and
  the three scratch vectors at any contents, the body runs to its end leaving the inputs and the idle outputs as they
  were and each scratch vector written by the pieces named here, last first.
-/
import proofs.«431442_j45981919871044_3_alg».proof.Proof.K.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords)
    (arg2 : Memref sig .tc .vmem S1024x512 .bf16) (harg2 : arg2.IsWhole) (arg3 : Memref sig .tc .vmem S1000x512 .f32) (harg3 : arg3.IsWhole)
    (arg4 : Memref sig .tc .vmem S1024x1 .i32) (harg4 : arg4.IsWhole) (arg5 : Memref sig .tc .vmem S1x1024x1 .f32) (harg5 : arg5.IsWhole)
    (arg6 : Memref sig .tc .vmem S1x1024x1 .f32) (harg6 : arg6.IsWhole) (arg7 : Memref sig .tc .vmem S1x1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : cond0_0 i) (hc1 : ¬cond0_1 i) (x0 : Vec F S1024x512 .bf16) (x1 : Vec F S1000x512 .f32) (x2 : Vec F S1024x1 .i32) :
    Σ' (LS0 : List (View.Piece (Elt F) S1024x1 .f32)) (LS1 : List (View.Piece (Elt F) S1024x1 .f32)), { LS2 : List (View.Piece (Elt F) S1024x1 .f32) //
      ∀ (xi3 xi4 xi5 : Vec F S1x1024x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ owns (c : Thread nD τ) arg6 fullShare xi4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__arcface_kernel i arg2 harg2 arg3 harg3 arg4 harg4 arg5 harg5 arg6 harg6 arg7 harg7 arg8 harg8 arg9 harg9 arg10 harg10) K } := by
  refine ⟨?_, ?_, ?_, fun xi3 xi4 xi5 E K => ?run⟩
  case run =>
    simp only [cc0__arcface_kernel_eq_skeleton]; unfold cc0__arcface_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Fr

end
-- ==== Proof.K.RunB.lean ====
/-
  The kernel body at a column tile that is neither the first nor the last of its half (neither branch taken): the
  three scratch vectors come in at the contents xs0, xs1, xs2 the tile before left, and go out written by the pieces
  named here; inputs and idle outputs are handed back untouched.
-/
import proofs.«431442_j45981919871044_3_alg».proof.Proof.K.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords)
    (arg2 : Memref sig .tc .vmem S1024x512 .bf16) (harg2 : arg2.IsWhole) (arg3 : Memref sig .tc .vmem S1000x512 .f32) (harg3 : arg3.IsWhole)
    (arg4 : Memref sig .tc .vmem S1024x1 .i32) (harg4 : arg4.IsWhole) (arg5 : Memref sig .tc .vmem S1x1024x1 .f32) (harg5 : arg5.IsWhole)
    (arg6 : Memref sig .tc .vmem S1x1024x1 .f32) (harg6 : arg6.IsWhole) (arg7 : Memref sig .tc .vmem S1x1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : ¬cond0_1 i) (x0 : Vec F S1024x512 .bf16) (x1 : Vec F S1000x512 .f32) (x2 : Vec F S1024x1 .i32)
    (xs0 xs1 xs2 : Vec F S1024x1 .f32) :
    Σ' (LS0 : List (View.Piece (Elt F) S1024x1 .f32)) (LS1 : List (View.Piece (Elt F) S1024x1 .f32)), { LS2 : List (View.Piece (Elt F) S1024x1 .f32) //
      ∀ (xi3 xi4 xi5 : Vec F S1x1024x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4 ∗ owns (c : Thread nD τ) arg7 fullShare xi5
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ owns (c : Thread nD τ) arg6 fullShare xi4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__arcface_kernel i arg2 harg2 arg3 harg3 arg4 harg4 arg5 harg5 arg6 harg6 arg7 harg7 arg8 harg8 arg9 harg9 arg10 harg10) K } := by
  refine ⟨?_, ?_, ?_, fun xi3 xi4 xi5 E K => ?run⟩
  case run =>
    simp only [cc0__arcface_kernel_eq_skeleton]; unfold cc0__arcface_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Fr

end
-- ==== Proof.K.RunC.lean ====
/-
  The kernel body at the last column tile of a half (the copy-out branch taken, the reset branch not): the scratch
  vectors come in at xs0, xs1, xs2 and go out written by the pieces LS0, LS1, LS2; the three output buffers come in at
  any contents and go out written by the pieces L3, L4, L5 (each one store of the whole block).
-/
import proofs.«431442_j45981919871044_3_alg».proof.Proof.K.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords)
    (arg2 : Memref sig .tc .vmem S1024x512 .bf16) (harg2 : arg2.IsWhole) (arg3 : Memref sig .tc .vmem S1000x512 .f32) (harg3 : arg3.IsWhole)
    (arg4 : Memref sig .tc .vmem S1024x1 .i32) (harg4 : arg4.IsWhole) (arg5 : Memref sig .tc .vmem S1x1024x1 .f32) (harg5 : arg5.IsWhole)
    (arg6 : Memref sig .tc .vmem S1x1024x1 .f32) (harg6 : arg6.IsWhole) (arg7 : Memref sig .tc .vmem S1x1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : cond0_1 i) (x0 : Vec F S1024x512 .bf16) (x1 : Vec F S1000x512 .f32) (x2 : Vec F S1024x1 .i32)
    (xs0 xs1 xs2 : Vec F S1024x1 .f32) :
    Σ' (L3 : List (View.Piece (Elt F) S1x1024x1 .f32)) (L4 : List (View.Piece (Elt F) S1x1024x1 .f32)) (L5 : List (View.Piece (Elt F) S1x1024x1 .f32)) (LS0 : List (View.Piece (Elt F) S1024x1 .f32)) (LS1 : List (View.Piece (Elt F) S1024x1 .f32)), { LS2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__arcface_kernel i arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__arcface_kernel_eq_skeleton]; unfold cc0__arcface_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [HS0]; · iexists _; iexact HS0
    isplitl [HS1]; · iexists _; iexact HS1
    iexists _; iexact HS2

end Cert.Kernel.Fr

end
-- ==== Proof.K.Frame.lean ====
/-
  The frame run of the program: what each of the three control cases of the kernel body (the first column tile of a
  half: the running vectors are reset; a middle tile; the last tile: the running vectors are copied out) leaves in the
  three running vectors and in the three output blocks; these contents point by point along the 100 grid points, by
  recursion on the point; the region invariant that carries the running vectors from point to point; the body
  obligation at every point; the run of the whole program; and the frame claim: the three argument arrays end as they
  were launched.
-/
import proofs.«431442_j45981919871044_3_alg».proof.Proof.K.RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a case leaves in each buffer -/

/-- Away from a half's last tile nothing is stored into an output block: a placeholder (no piece read back over
    unnamed contents) that nothing consults, the window being neither written back nor read at such a point. -/
def out0_idle_3 : Vec F S1x1024x1 .f32 := VO0_3.read (Elt F) (VO0_3.writes (Elt F) VO0_3.junk [])
def out0_idle_4 : Vec F S1x1024x1 .f32 := VO0_4.read (Elt F) (VO0_4.writes (Elt F) VO0_4.junk [])
def out0_idle_5 : Vec F S1x1024x1 .f32 := VO0_5.read (Elt F) (VO0_5.writes (Elt F) VO0_5.junk [])

section CaseA
variable (c : Dev nD) (i : grid0.Coords)
  (arg2 : Memref sig .tc .vmem S1024x512 .bf16) (harg2 : arg2.IsWhole) (arg3 : Memref sig .tc .vmem S1000x512 .f32) (harg3 : arg3.IsWhole)
  (arg4 : Memref sig .tc .vmem S1024x1 .i32) (harg4 : arg4.IsWhole) (arg5 : Memref sig .tc .vmem S1x1024x1 .f32) (harg5 : arg5.IsWhole)
  (arg6 : Memref sig .tc .vmem S1x1024x1 .f32) (harg6 : arg6.IsWhole) (arg7 : Memref sig .tc .vmem S1x1024x1 .f32) (harg7 : arg7.IsWhole)
  (arg8 : Memref sig .tc .vmem S1024x1 .f32) (harg8 : arg8.IsWhole) (arg9 : Memref sig .tc .vmem S1024x1 .f32) (harg9 : arg9.IsWhole)
  (arg10 : Memref sig .tc .vmem S1024x1 .f32) (harg10 : arg10.IsWhole)
  (hc0 : cond0_0 i) (hc1 : ¬cond0_1 i) (x0 : Vec F S1024x512 .bf16) (x1 : Vec F S1000x512 .f32) (x2 : Vec F S1024x1 .i32)

local notation "RA" => kernelRun0_A c i arg2 harg2 arg3 harg3 arg4 harg4 arg5 harg5 arg6 harg6 arg7 harg7 arg8 harg8 arg9 harg9 arg10 harg10 hc0 hc1 x0 x1 x2

/-- The reset case's pieces for each running vector cover it: every store writes the whole vector. -/
theorem scover0_A_0 (y : S1024x1.Idx) : ∃ pc ∈ (RA).1, y ∈ pc.1.set :=
  View.cover_of_tiledL (RA).1 S1024x1.size (by sl_kernel_rfl) y
theorem scover0_A_1 (y : S1024x1.Idx) : ∃ pc ∈ (RA).2.1, y ∈ pc.1.set :=
  View.cover_of_tiledL (RA).2.1 S1024x1.size (by sl_kernel_rfl) y
theorem scover0_A_2 (y : S1024x1.Idx) : ∃ pc ∈ (RA).2.2.1, y ∈ pc.1.set :=
  View.cover_of_tiledL (RA).2.2.1 S1024x1.size (by sl_kernel_rfl) y

/-- What the reset case leaves in each running vector: its pieces read back (over contents that do not matter). -/
def sout0_A_0 : Vec F S1024x1 .f32 := VS0_0.read (Elt F) (VS0_0.writes (Elt F) VS0_0.junk (RA).1)
def sout0_A_1 : Vec F S1024x1 .f32 := VS0_1.read (Elt F) (VS0_1.writes (Elt F) VS0_1.junk (RA).2.1)
def sout0_A_2 : Vec F S1024x1 .f32 := VS0_2.read (Elt F) (VS0_2.writes (Elt F) VS0_2.junk (RA).2.2.1)

end CaseA

section CaseB
variable (c : Dev nD) (i : grid0.Coords)
  (arg2 : Memref sig .tc .vmem S1024x512 .bf16) (harg2 : arg2.IsWhole) (arg3 : Memref sig .tc .vmem S1000x512 .f32) (harg3 : arg3.IsWhole)
  (arg4 : Memref sig .tc .vmem S1024x1 .i32) (harg4 : arg4.IsWhole) (arg5 : Memref sig .tc .vmem S1x1024x1 .f32) (harg5 : arg5.IsWhole)
  (arg6 : Memref sig .tc .vmem S1x1024x1 .f32) (harg6 : arg6.IsWhole) (arg7 : Memref sig .tc .vmem S1x1024x1 .f32) (harg7 : arg7.IsWhole)
  (arg8 : Memref sig .tc .vmem S1024x1 .f32) (harg8 : arg8.IsWhole) (arg9 : Memref sig .tc .vmem S1024x1 .f32) (harg9 : arg9.IsWhole)
  (arg10 : Memref sig .tc .vmem S1024x1 .f32) (harg10 : arg10.IsWhole)
  (hc0 : ¬cond0_0 i) (hc1 : ¬cond0_1 i) (x0 : Vec F S1024x512 .bf16) (x1 : Vec F S1000x512 .f32) (x2 : Vec F S1024x1 .i32)
  (xs0 xs1 xs2 : Vec F S1024x1 .f32)

local notation "RB" => kernelRun0_B c i arg2 harg2 arg3 harg3 arg4 harg4 arg5 harg5 arg6 harg6 arg7 harg7 arg8 harg8 arg9 harg9 arg10 harg10 hc0 hc1 x0 x1 x2 xs0 xs1 xs2

/-- A middle tile's pieces for each running vector cover it. -/
theorem scover0_B_0 (y : S1024x1.Idx) : ∃ pc ∈ (RB).1, y ∈ pc.1.set :=
  View.cover_of_tiledL (RB).1 S1024x1.size (by sl_kernel_rfl) y
theorem scover0_B_1 (y : S1024x1.Idx) : ∃ pc ∈ (RB).2.1, y ∈ pc.1.set :=
  View.cover_of_tiledL (RB).2.1 S1024x1.size (by sl_kernel_rfl) y
theorem scover0_B_2 (y : S1024x1.Idx) : ∃ pc ∈ (RB).2.2.1, y ∈ pc.1.set :=
  View.cover_of_tiledL (RB).2.2.1 S1024x1.size (by sl_kernel_rfl) y

/-- What a middle tile leaves in each running vector, from what the point before left (xs0, xs1, xs2). -/
def sout0_B_0 : Vec F S1024x1 .f32 := VS0_0.read (Elt F) (VS0_0.writes (Elt F) VS0_0.junk (RB).1)
def sout0_B_1 : Vec F S1024x1 .f32 := VS0_1.read (Elt F) (VS0_1.writes (Elt F) VS0_1.junk (RB).2.1)
def sout0_B_2 : Vec F S1024x1 .f32 := VS0_2.read (Elt F) (VS0_2.writes (Elt F) VS0_2.junk (RB).2.2.1)

end CaseB

section CaseC
variable (c : Dev nD) (i : grid0.Coords)
  (arg2 : Memref sig .tc .vmem S1024x512 .bf16) (harg2 : arg2.IsWhole) (arg3 : Memref sig .tc .vmem S1000x512 .f32) (harg3 : arg3.IsWhole)
  (arg4 : Memref sig .tc .vmem S1024x1 .i32) (harg4 : arg4.IsWhole) (arg5 : Memref sig .tc .vmem S1x1024x1 .f32) (harg5 : arg5.IsWhole)
  (arg6 : Memref sig .tc .vmem S1x1024x1 .f32) (harg6 : arg6.IsWhole) (arg7 : Memref sig .tc .vmem S1x1024x1 .f32) (harg7 : arg7.IsWhole)
  (arg8 : Memref sig .tc .vmem S1024x1 .f32) (harg8 : arg8.IsWhole) (arg9 : Memref sig .tc .vmem S1024x1 .f32) (harg9 : arg9.IsWhole)
  (arg10 : Memref sig .tc .vmem S1024x1 .f32) (harg10 : arg10.IsWhole)
  (hc0 : ¬cond0_0 i) (hc1 : cond0_1 i) (x0 : Vec F S1024x512 .bf16) (x1 : Vec F S1000x512 .f32) (x2 : Vec F S1024x1 .i32)
  (xs0 xs1 xs2 : Vec F S1024x1 .f32)

local notation "RC" => kernelRun0_C c i arg2 harg2 arg3 harg3 arg4 harg4 arg5 harg5 arg6 harg6 arg7 harg7 arg8 harg8 arg9 harg9 arg10 harg10 hc0 hc1 x0 x1 x2 xs0 xs1 xs2

/-- The last tile's pieces for each output block cover it (one store of the whole block each), -/
theorem cover0_C_3 (y : S1x1024x1.Idx) : ∃ pc ∈ (RC).1, y ∈ pc.1.set :=
  View.cover_of_tiledL (RC).1 S1x1024x1.size (by sl_kernel_rfl) y
theorem cover0_C_4 (y : S1x1024x1.Idx) : ∃ pc ∈ (RC).2.1, y ∈ pc.1.set :=
  View.cover_of_tiledL (RC).2.1 S1x1024x1.size (by sl_kernel_rfl) y
theorem cover0_C_5 (y : S1x1024x1.Idx) : ∃ pc ∈ (RC).2.2.1, y ∈ pc.1.set :=
  View.cover_of_tiledL (RC).2.2.1 S1x1024x1.size (by sl_kernel_rfl) y
/-- and its pieces for each running vector cover it. -/
theorem scover0_C_0 (y : S1024x1.Idx) : ∃ pc ∈ (RC).2.2.2.1, y ∈ pc.1.set :=
  View.cover_of_tiledL (RC).2.2.2.1 S1024x1.size (by sl_kernel_rfl) y
theorem scover0_C_1 (y : S1024x1.Idx) : ∃ pc ∈ (RC).2.2.2.2.1, y ∈ pc.1.set :=
  View.cover_of_tiledL (RC).2.2.2.2.1 S1024x1.size (by sl_kernel_rfl) y
theorem scover0_C_2 (y : S1024x1.Idx) : ∃ pc ∈ (RC).2.2.2.2.2.1, y ∈ pc.1.set :=
  View.cover_of_tiledL (RC).2.2.2.2.2.1 S1024x1.size (by sl_kernel_rfl) y

/-- What the last tile leaves in each output block: its pieces read back. -/
def out0_C_3 : Vec F S1x1024x1 .f32 := VO0_3.read (Elt F) (VO0_3.writes (Elt F) VO0_3.junk (RC).1)
def out0_C_4 : Vec F S1x1024x1 .f32 := VO0_4.read (Elt F) (VO0_4.writes (Elt F) VO0_4.junk (RC).2.1)
def out0_C_5 : Vec F S1x1024x1 .f32 := VO0_5.read (Elt F) (VO0_5.writes (Elt F) VO0_5.junk (RC).2.2.1)
/-- What it leaves in each running vector. -/
def sout0_C_0 : Vec F S1024x1 .f32 := VS0_0.read (Elt F) (VS0_0.writes (Elt F) VS0_0.junk (RC).2.2.2.1)
def sout0_C_1 : Vec F S1024x1 .f32 := VS0_1.read (Elt F) (VS0_1.writes (Elt F) VS0_1.junk (RC).2.2.2.2.1)
def sout0_C_2 : Vec F S1024x1 .f32 := VS0_2.read (Elt F) (VS0_2.writes (Elt F) VS0_2.junk (RC).2.2.2.2.2.1)

end CaseC

/-! ## What the buffers hold after each point -/

section Points
variable (c : Dev nD) (t : Fin cfg0.N)

/-- The three output blocks and the three running vectors after a point of the reset case: the outputs are not
    stored (placeholders), the running vectors are what the case leaves, whatever they held. -/
def ptA (h0 : t.val % 50 = 0) (h1 : ¬t.val % 50 = 49) : Vec F S1x1024x1 .f32 × Vec F S1x1024x1 .f32 × Vec F S1x1024x1 .f32 × Vec F S1024x1 .f32 × Vec F S1024x1 .f32 × Vec F S1024x1 .f32 :=
  (out0_idle_3, out0_idle_4, out0_idle_5,
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t),
    sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t),
    sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t))

/-- After a middle tile, the running vectors having come in at xs0, xs1, xs2. -/
def ptB (h0 : ¬t.val % 50 = 0) (h1 : ¬t.val % 50 = 49) (xs0 xs1 xs2 : Vec F S1024x1 .f32) : Vec F S1x1024x1 .f32 × Vec F S1x1024x1 .f32 × Vec F S1x1024x1 .f32 × Vec F S1024x1 .f32 × Vec F S1024x1 .f32 × Vec F S1024x1 .f32 :=
  (out0_idle_3, out0_idle_4, out0_idle_5,
    sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) xs0 xs1 xs2,
    sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) xs0 xs1 xs2,
    sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) xs0 xs1 xs2)

/-- After the last tile of a half, the running vectors having come in at xs0, xs1, xs2: the outputs now hold what
    the copy-out stores. -/
def ptC (h0 : ¬t.val % 50 = 0) (h1 : t.val % 50 = 49) (xs0 xs1 xs2 : Vec F S1024x1 .f32) : Vec F S1x1024x1 .f32 × Vec F S1x1024x1 .f32 × Vec F S1x1024x1 .f32 × Vec F S1024x1 .f32 × Vec F S1024x1 .f32 × Vec F S1024x1 .f32 :=
  (out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) xs0 xs1 xs2,
    out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) xs0 xs1 xs2,
    out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) xs0 xs1 xs2,
    sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) xs0 xs1 xs2,
    sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) xs0 xs1 xs2,
    sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) xs0 xs1 xs2)

end Points

/-- THE ACCUMULATION. What the three output blocks' staging buffers and the three running vectors hold after the
    body at point n (outputs 3, 4, 5, then the running maximum, the running sum, the target cosine): the case the
    point's column tile selects — tile 0 of a half: reset, whatever the point before left; tile 49: copy-out; any
    other: a middle tile —, the last two over what the point before left in the running vectors. -/
def outsAt0 (c : Dev nD) : (n : ℕ) → n < cfg0.N → Vec F S1x1024x1 .f32 × Vec F S1x1024x1 .f32 × Vec F S1x1024x1 .f32 × Vec F S1024x1 .f32 × Vec F S1024x1 .f32 × Vec F S1024x1 .f32
  | 0, hn => ptA m c ⟨0, hn⟩ (Nat.zero_mod _) (by decide : ¬(0 : ℕ) % 50 = 49)
  | n + 1, hn =>
    if h0 : (n + 1) % 50 = 0 then ptA m c ⟨n + 1, hn⟩ h0 (by omega : ¬(n + 1) % 50 = 49)
    else if h1 : (n + 1) % 50 = 49 then
      ptC m c ⟨n + 1, hn⟩ h0 h1 (outsAt0 c n (Nat.lt_of_succ_lt hn)).2.2.2.1 (outsAt0 c n (Nat.lt_of_succ_lt hn)).2.2.2.2.1 (outsAt0 c n (Nat.lt_of_succ_lt hn)).2.2.2.2.2
    else
      ptB m c ⟨n + 1, hn⟩ h0 h1 (outsAt0 c n (Nat.lt_of_succ_lt hn)).2.2.2.1 (outsAt0 c n (Nat.lt_of_succ_lt hn)).2.2.2.2.1 (outsAt0 c n (Nat.lt_of_succ_lt hn)).2.2.2.2.2

/-- At a point of the reset case. -/
theorem outsAt0_A (c : Dev nD) (t : Fin cfg0.N) (h0 : t.val % 50 = 0) (h1 : ¬t.val % 50 = 49) :
    outsAt0 m c t.val t.isLt = ptA m c t h0 h1 := by
  obtain ⟨n, hn⟩ := t
  cases n with
  | zero => rfl
  | succ n => exact (dif_pos h0).trans rfl

/-- At a middle tile: over what the point before left in the running vectors. -/
theorem outsAt0_B (c : Dev nD) (t : Fin cfg0.N) (h0 : ¬t.val % 50 = 0) (h1 : ¬t.val % 50 = 49) :
    outsAt0 m c t.val t.isLt = ptB m c t h0 h1
      (outsAt0 m c (t.val - 1) (Nat.lt_of_le_of_lt (Nat.sub_le _ _) t.isLt)).2.2.2.1
      (outsAt0 m c (t.val - 1) (Nat.lt_of_le_of_lt (Nat.sub_le _ _) t.isLt)).2.2.2.2.1
      (outsAt0 m c (t.val - 1) (Nat.lt_of_le_of_lt (Nat.sub_le _ _) t.isLt)).2.2.2.2.2 := by
  obtain ⟨n, hn⟩ := t
  cases n with
  | zero => exact absurd (Nat.zero_mod _) h0
  | succ n => exact (dif_neg h0).trans ((dif_neg h1).trans rfl)

/-- At the last tile of a half: the same, and the outputs stored. -/
theorem outsAt0_C (c : Dev nD) (t : Fin cfg0.N) (h0 : ¬t.val % 50 = 0) (h1 : t.val % 50 = 49) :
    outsAt0 m c t.val t.isLt = ptC m c t h0 h1
      (outsAt0 m c (t.val - 1) (Nat.lt_of_le_of_lt (Nat.sub_le _ _) t.isLt)).2.2.2.1
      (outsAt0 m c (t.val - 1) (Nat.lt_of_le_of_lt (Nat.sub_le _ _) t.isLt)).2.2.2.2.1
      (outsAt0 m c (t.val - 1) (Nat.lt_of_le_of_lt (Nat.sub_le _ _) t.isLt)).2.2.2.2.2 := by
  obtain ⟨n, hn⟩ := t
  cases n with
  | zero => exact absurd (Nat.zero_mod _) h0
  | succ n => exact (dif_neg h0).trans ((dif_pos h1).trans rfl)

/-! ## The region invariant -/

/-- Before point n: before the first point the class invariant (every scratch at anything); afterwards the three
    running vectors owned at what the point before left in them, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2.1) ∗ owns (c : Thread nD τ) scM0_2 fullShare ((outsAt0 m c (n - 1) (by omega)).2.2.2.2.2)) ∗ (∃ r, prngReg c r)) := by
  cases n with
  | zero => exact absurd rfl hz
  | succ n => rfl

/-- At any point the invariant gives the class invariant back: the running vectors' named contents are forgotten. -/
theorem PhiS_any (c : Dev nD) (n : ℕ) (h : n ≤ cfg0.N) : PhiS m c n h ⊢ Pipeline.ΦA spec0 c := by
  by_cases hz : n = 0
  · rw [PhiS_zero m c n h hz]
  · rw [PhiS_pos m c n h hz, PhiA0_eq]
    iintro ⟨⟨HS0, HS1, HS2⟩, Hg⟩
    isplitl [HS0 HS1 HS2]
    · isplitl [HS0]; · iexists _; iexact HS0
      isplitl [HS1]; · iexists _; iexact HS1
      iexists _; iexact HS2
    iexact Hg

/-! ## The pipeline's proof data -/

/-- The proof data on core c: the arrays as the region finds them; after the body at point t each input's buffer
    at its block and the outputs' at what the accumulation says; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2.1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- Before any point the invariant yields the three running vectors at some contents and the generator register. -/
theorem Phi_scratch (c : Dev nD) (t : Fin cfg0.N) :
    (dats m 0 c).Φ t.castSucc ⊢ (iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) : sProp 𝕄) := by
  rw [PhiS_castSucc m c t, ← PhiA0_eq]
  exact PhiS_any m c _ _

set_option maxHeartbeats 8000000 in
/-- The body at a point of the reset case (the first column tile of a half, the first point of the grid or point
    50): the invariant's running vectors are handed over at whatever they hold, the outputs' buffers come back
    untouched, and the running vectors come back at the case's contents. -/
theorem sound_body_A (c : Dev nD) (t : Fin cfg0.N) (h0 : t.val % 50 = 0) (h1 : ¬t.val % 50 = 49) :
    bodyPre m c t ⊢ wp frame (wpE (defs₀ (F := F)) Variants.none c none) Set.univ (bodyAt0 t) (fun _ => bodyPost m c t) := by
  have hc0 : cond0_0 (grid0.coords t) := (hcond0_0 t).mpr h0
  have hc1 : ¬cond0_1 (grid0.coords t) := fun h => h1 ((hcond0_1 t).mp h)
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [Dat.leavesExact_idle (dats m 0 c) 3 t (idleAt0_3 t hc1) (noFlush0_3 t hc1)]
  rw [Dat.leavesExact_idle (dats m 0 c) 4 t (idleAt0_4 t hc1) (noFlush0_4 t hc1)]
  rw [Dat.leavesExact_idle (dats m 0 c) 5 t (idleAt0_5 t hc1) (noFlush0_5 t hc1)]
  rw [outsAt0_A m c t h0 h1]
  unfold ptA sout0_A_0 sout0_A_1 sout0_A_2; (try dsimp only)
  iintro ⟨HΦ, Ho, ⟨%d0, H0⟩, ⟨%d1, H1⟩, ⟨%d2, H2⟩, ⟨%d3, H3⟩, ⟨%d4, H4⟩, ⟨%d5, H5⟩⟩
  ihave ⟨⟨HS0, HS1, HS2⟩, Hg⟩ := (Phi_scratch m c t) $$ HΦ
  iapply ((kernelRun0_A c (grid0.coords t) _ _ _ _ _ _ _ _ _ _ _ _ _ _ _ _ _ _ hc0 hc1 (iblk m c 0 t) (iblk m c 1 t) (iblk m c 2 t)).2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, ⟨%es0, HS0⟩, ⟨%es1, HS1⟩, ⟨%es2, HS2⟩⟩
  isplitl [HS0 HS1 HS2 Hg]
  · isplitl [HS0 HS1 HS2]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_A_1 c _ _ _ _ _ _ _ _ _ _ _ _ _ _ _ _ _ _ _ _ _ _ _ _)
      · unfold owns; iexists _; isplitr
        swap; · iexact HS2
        ipureintro; exact View.read_writes_of_cover _ _ _ _ _ (scover0_A_2 c _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexists _; iexact H3
  isplitl [H4]; · iexists _; iexact H4
  iexists _; iexact H5

set_option maxHeartbeats 8000000 in
/-- The body at a middle tile: the running vectors go in at what the point before left and come back at the case's
    contents over them; the outputs' buffers come back untouched. -/
theorem sound_body_B (c : Dev nD) (t : Fin cfg0.N) (h0 : ¬t.val % 50 = 0) (h1 : ¬t.val % 50 = 49) :
    bodyPre m c t ⊢ wp frame (wpE (defs₀ (F := F)) Variants.none c none) Set.univ (bodyAt0 t) (fun _ => bodyPost m c t) := by
  have hc0 : ¬cond0_0 (grid0.coords t) := fun h => h0 ((hcond0_0 t).mp h)
  have hc1 : ¬cond0_1 (grid0.coords t) := fun h => h1 ((hcond0_1 t).mp h)
  have hz : t.val ≠ 0 := fun e => h0 (by rw [e])
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [Dat.leavesExact_idle (dats m 0 c) 3 t (idleAt0_3 t hc1) (noFlush0_3 t hc1)]
  rw [Dat.leavesExact_idle (dats m 0 c) 4 t (idleAt0_4 t hc1) (noFlush0_4 t hc1)]
  rw [Dat.leavesExact_idle (dats m 0 c) 5 t (idleAt0_5 t hc1) (noFlush0_5 t hc1)]
  rw [outsAt0_B m c t h0 h1]
  unfold ptB sout0_B_0 sout0_B_1 sout0_B_2; (try dsimp only)
  rw [PhiS_castSucc m c t, PhiS_pos m c _ _ hz]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
  iapply ((kernelRun0_B c (grid0.coords t) _ _ _ _ _ _ _ _ _ _ _ _ _ _ _ _ _ _ hc0 hc1 (iblk m c 0 t) (iblk m c 1 t) (iblk m c 2 t) _ _ _).2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, ⟨%es0, HS0⟩, ⟨%es1, HS1⟩, ⟨%es2, HS2⟩⟩
  isplitl [HS0 HS1 HS2 Hg]
  · isplitl [HS0 HS1 HS2]
    · isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_B_1 c _ _ _ _ _ _ _ _ _ _ _ _ _ _ _ _ _ _ _ _ _ _ _ _ _ _ _)
      · unfold owns; iexists _; isplitr
        swap; · iexact HS2
        ipureintro; exact View.read_writes_of_cover _ _ _ _ _ (scover0_B_2 c _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexists _; iexact H3
  isplitl [H4]; · iexists _; iexact H4
  iexists _; iexact H5

set_option maxHeartbeats 8000000 in
/-- The body at the last tile of a half: as at a middle tile, and the three output buffers, handed over at whatever
    they hold, come back at what the copy-out stores. -/
theorem sound_body_C (c : Dev nD) (t : Fin cfg0.N) (h0 : ¬t.val % 50 = 0) (h1 : t.val % 50 = 49) :
    bodyPre m c t ⊢ wp frame (wpE (defs₀ (F := F)) Variants.none c none) Set.univ (bodyAt0 t) (fun _ => bodyPost m c t) := by
  have hc0 : ¬cond0_0 (grid0.coords t) := fun h => h0 ((hcond0_0 t).mp h)
  have hc1 : cond0_1 (grid0.coords t) := (hcond0_1 t).mpr h1
  have hz : t.val ≠ 0 := fun e => h0 (by rw [e])
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t hc1], after0_3]
  rw [show (dats m 0 c).leavesExact 4 t = owns (c : Thread nD τ) (ms0_4 t) fullShare ((dats m 0 c).after 4 t) from by
    unfold Dat.leavesExact; rw [liveAt0_4 t hc1], after0_4]
  rw [show (dats m 0 c).leavesExact 5 t = owns (c : Thread nD τ) (ms0_5 t) fullShare ((dats m 0 c).after 5 t) from by
    unfold Dat.leavesExact; rw [liveAt0_5 t hc1], after0_5]
  rw [outsAt0_C m c t h0 h1]
  unfold ptC out0_C_3 out0_C_4 out0_C_5 sout0_C_0 sout0_C_1 sout0_C_2; (try dsimp only)
  rw [PhiS_castSucc m c t, PhiS_pos m c _ _ hz]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
  iapply ((kernelRun0_C c (grid0.coords t) _ _ _ _ _ _ _ _ _ _ _ _ _ _ _ _ _ _ hc0 hc1 (iblk m c 0 t) (iblk m c 1 t) (iblk m c 2 t) _ _ _).2.2.2.2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  isplitl [HS1]; · iexact HS1
  isplitl [HS2]; · iexact HS2
  iintro ⟨H0, H1, H2, ⟨%e3, H3⟩, ⟨%e4, H4⟩, ⟨%e5, H5⟩, ⟨%es0, HS0⟩, ⟨%es1, HS1⟩, ⟨%es2, HS2⟩⟩
  isplitl [HS0 HS1 HS2 Hg]
  · isplitl [HS0 HS1 HS2]
    · isplitl [HS0]
      · unfold owns; iexists _; isplitr
        swap; · iexact HS0
        ipureintro; exact View.read_writes_of_cover _ _ _ _ _ (scover0_C_0 c _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_C_1 c _ _ _ _ _ _ _ _ _ _ _ _ _ _ _ _ _ _ _ _ _ _ _ _ _ _ _)
      · unfold owns; iexists _; isplitr
        swap; · iexact HS2
        ipureintro; exact View.read_writes_of_cover _ _ _ _ _ (scover0_C_2 c _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_C_3 c _ _ _ _ _ _ _ _ _ _ _ _ _ _ _ _ _ _ _ _ _ _ _ _ _ _ _)
  isplitl [H4]
  · unfold owns; iexists _; isplitr
    swap; · iexact H4
    ipureintro; exact View.read_writes_of_cover _ _ _ _ _ (cover0_C_4 c _ _ _ _ _ _ _ _ _ _ _ _ _ _ _ _ _ _ _ _ _ _ _ _ _ _ _)
  · unfold owns; iexists _; isplitr
    swap; · iexact H5
    ipureintro; exact View.read_writes_of_cover _ _ _ _ _ (cover0_C_5 c _ _ _ _ _ _ _ _ _ _ _ _ _ _ _ _ _ _ _ _ _ _ _ _ _ _ _)

/-- The body at any point: the point's column tile says which of the three cases it is in. -/
theorem sound_body (c : Dev nD) (t : Fin cfg0.N) :
    bodyPre m c t ⊢ wp frame (wpE (defs₀ (F := F)) Variants.none c none) Set.univ (bodyAt0 t) (fun _ => bodyPost m c t) := by
  by_cases h0 : t.val % 50 = 0
  · exact sound_body_A m c t h0 (by omega)
  · by_cases h1 : t.val % 50 = 49
    · exact sound_body_C m c t h0 h1
    · exact sound_body_B m c t h0 h1

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class invariant back. -/
theorem Phi_any (c : Dev nD) (t : Fin (cfg0.N + 1)) : (dats m 0 c).Φ t ⊢ Pipeline.ΦA spec0 c := by
  rw [show (dats m 0 c).Φ t = PhiS m c t.val (Nat.le_of_lt_succ t.isLt) from rfl]
  exact PhiS_any m c _ _
theorem hout (c : Dev nD) : (dats m 0 c).Φ (Fin.last cfg0.N) ⊢ Pipeline.ΦA spec0 c := Phi_any m c _

/-! ## The run and the frame -/

set_option maxHeartbeats 4000000 in
set_option backward.isDefEq.respectTransparency.types false in
/-- From any memory with zero counters, for any values: every weakly fair execution of the program on the
    TensorCores terminates, every final state having each array of the pipeline at what the proof data compute and
    every other unscoped buffer as the host operations after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hin := hin m) (hout := hout m)

set_option maxHeartbeats 4000000 in
/-- No host operation after the region writes the features argument, and it is no window's array: it ends as launched. -/
theorem W_main_arg0 (dats' : (p : Fin 1) → (c : Dev nD) → Dat τ (Elt F) Unit ℕ (UR sig nD τ) ℕ (cfgs p) c) (c : Dev nD) :
    Pipeline.afterTail₀ cfgs dats' 0 (V0 m) [hostOps1, hostOps1_1, hostOps1_2] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 4000000 in
/-- The same of the labels argument. -/
theorem W_main_arg2 (dats' : (p : Fin 1) → (c : Dev nD) → Dat τ (Elt F) Unit ℕ (UR sig nD τ) ℕ (cfgs p) c) (c : Dev nD) :
    Pipeline.afterTail₀ cfgs dats' 0 (V0 m) [hostOps1, hostOps1_1, hostOps1_2] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- THE FRAME: the three argument arrays end as launched — the class weights, a staged input, by the run's first
    clause (an input array keeps its entry contents); the features and the labels, which bypass the region, by its
    second clause and the two lemmas above. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩) (run_main m ρ)

end Cert.Kernel.Fr

end
-- ==== Proof.KI.Base.lean ====
/-
  What the frame proof of this program shares: @main as host operations, the region, host operations; the buffer
  contents when the region is entered; what the later host operations may touch; each window's block; the two
  conditions the kernel body branches on, in closed form over the 100 grid points (the first column tile of a half:
  point ≡ 0 mod 50; the last: point ≡ 49 mod 50); where the three output windows are idle; the memrefs the body is
  called with; and the region's scratch invariant spelt memref by memref.
-/
import proofs.«431442_j45981919871044_3_alg».proof.Proof.Gen.KernelIdeal.Launch
import proofs.«431442_j45981919871044_3_alg».proof.Proof.Gen.KernelIdeal.Skeleton
import proofs.«431442_j45981919871044_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core c's buffer contents when the region is entered: after the thirteen host operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

set_option maxHeartbeats 8000000 in
/-- @main reduces to the region continued by the later host operations, at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0] [hostOps1, hostOps1_1, hostOps1_2] (by simp only [List.Forall]; exact hostOps0_sub)
    (by simp only [List.Forall]; exact hostOps0_fresh) main_chain

/-- The later host operations touch unscoped buffers only. -/
theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

set_option maxHeartbeats 1600000 in
/-- And each writes only its own result buffer, which is no array of the pipeline. -/
theorem sfx_keeps : ∀ ops ∈ ([hostOps1, hostOps1_1, hostOps1_2] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_2, List.mem_cons, List.mem_nil_iff, or_false] at hop
    rcases hop with rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data
    whose array is the region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first column tile of its half": the body resets its three running vectors. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 50 = 0 :=
  (by decide +kernel : ∀ t : Fin grid0.N, cond0_0 (grid0.coords t) ↔ t.val % 50 = 0)

/-- "This is the last column tile of its half": the body copies the three running vectors to its outputs. -/
abbrev cond0_1 (i : grid0.Coords) : Prop := k0_cond2 i = 1#1
theorem hcond0_1 : ∀ t : Fin cfg0.N, cond0_1 (grid0.coords t) ↔ t.val % 50 = 49 :=
  (by decide +kernel : ∀ t : Fin grid0.N, cond0_1 (grid0.coords t) ↔ t.val % 50 = 49)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from a half's last tile the three outputs are idle and not written back. -/
theorem idleAt0_3 : ∀ t : Fin cfg0.N, ¬cond0_1 (grid0.coords t) → cfg0.idle 3 (grid0.coords t) = true := by decide +kernel
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem noFlush0_3 : ∀ t : Fin cfg0.N, ¬cond0_1 (grid0.coords t) → (cfg0.win 3).flush t = false := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
/-- At a half's last tile they are live. -/
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The memrefs the body is called with -/

abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1000x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x1 .f32 := win0_5.stage (cfg0.slots t 5)
abbrev hs0_5 (t : Fin cfg0.N) : (ms0_5 t).IsWhole := hstage0_5 ((cfg0.slots t 5).cast nbuf0_5)
/-- The three scratch vectors (running maximum, running sum, target cosine): whole scoped buffers of the kernel's own. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2
/-- Views through which a scratch vector's and an output block's contents are stated. -/
abbrev VS0_0 : View sig .tc .vmem S1024x1 .f32 := scM0_0.view
abbrev VS0_1 : View sig .tc .vmem S1024x1 .f32 := scM0_1.view
abbrev VS0_2 : View sig .tc .vmem S1024x1 .f32 := scM0_2.view
abbrev VO0_3 : View sig .tc .vmem S1x1024x1 .f32 := (Memref.whole cc0_stg3_0 : Memref sig .tc .vmem S1x1024x1 .f32).view
abbrev VO0_4 : View sig .tc .vmem S1x1024x1 .f32 := (Memref.whole cc0_stg4_0 : Memref sig .tc .vmem S1x1024x1 .f32).view
abbrev VO0_5 : View sig .tc .vmem S1x1024x1 .f32 := (Memref.whole cc0_stg5_0 : Memref sig .tc .vmem S1x1024x1 .f32).view

/-- The region's class invariant with the three scratch vectors as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Fr

end
-- ==== Proof.KI.RunA.lean ====
/-
  The kernel body at the first column tile of a half (the reset branch taken, the copy-out branch not): on whole
  memrefs holding the three input blocks, the three idle output buffers at any contents (handed back untouched) and
  the three scratch vectors at any contents, the body runs to its end leaving the inputs and the idle outputs as they
  were and each scratch vector written by the pieces named here, last first.
-/
import proofs.«431442_j45981919871044_3_alg».proof.Proof.KI.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords)
    (arg2 : Memref sig .tc .vmem S1024x512 .bf16) (harg2 : arg2.IsWhole) (arg3 : Memref sig .tc .vmem S1000x512 .f32) (harg3 : arg3.IsWhole)
    (arg4 : Memref sig .tc .vmem S1024x1 .i32) (harg4 : arg4.IsWhole) (arg5 : Memref sig .tc .vmem S1x1024x1 .f32) (harg5 : arg5.IsWhole)
    (arg6 : Memref sig .tc .vmem S1x1024x1 .f32) (harg6 : arg6.IsWhole) (arg7 : Memref sig .tc .vmem S1x1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : cond0_0 i) (hc1 : ¬cond0_1 i) (x0 : Vec F S1024x512 .bf16) (x1 : Vec F S1000x512 .f32) (x2 : Vec F S1024x1 .i32) :
    Σ' (LS0 : List (View.Piece (Elt F) S1024x1 .f32)) (LS1 : List (View.Piece (Elt F) S1024x1 .f32)), { LS2 : List (View.Piece (Elt F) S1024x1 .f32) //
      ∀ (xi3 xi4 xi5 : Vec F S1x1024x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ owns (c : Thread nD τ) arg6 fullShare xi4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__arcface_kernel i arg2 harg2 arg3 harg3 arg4 harg4 arg5 harg5 arg6 harg6 arg7 harg7 arg8 harg8 arg9 harg9 arg10 harg10) K } := by
  refine ⟨?_, ?_, ?_, fun xi3 xi4 xi5 E K => ?run⟩
  case run =>
    simp only [cc0__arcface_kernel_eq_skeleton]; unfold cc0__arcface_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Fr

end
-- ==== Proof.KI.RunB.lean ====
/-
  The kernel body at a column tile that is neither the first nor the last of its half (neither branch taken): the
  three scratch vectors come in at the contents xs0, xs1, xs2 the tile before left, and go out written by the pieces
  named here; inputs and idle outputs are handed back untouched.
-/
import proofs.«431442_j45981919871044_3_alg».proof.Proof.KI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords)
    (arg2 : Memref sig .tc .vmem S1024x512 .bf16) (harg2 : arg2.IsWhole) (arg3 : Memref sig .tc .vmem S1000x512 .f32) (harg3 : arg3.IsWhole)
    (arg4 : Memref sig .tc .vmem S1024x1 .i32) (harg4 : arg4.IsWhole) (arg5 : Memref sig .tc .vmem S1x1024x1 .f32) (harg5 : arg5.IsWhole)
    (arg6 : Memref sig .tc .vmem S1x1024x1 .f32) (harg6 : arg6.IsWhole) (arg7 : Memref sig .tc .vmem S1x1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : ¬cond0_1 i) (x0 : Vec F S1024x512 .bf16) (x1 : Vec F S1000x512 .f32) (x2 : Vec F S1024x1 .i32)
    (xs0 xs1 xs2 : Vec F S1024x1 .f32) :
    Σ' (LS0 : List (View.Piece (Elt F) S1024x1 .f32)) (LS1 : List (View.Piece (Elt F) S1024x1 .f32)), { LS2 : List (View.Piece (Elt F) S1024x1 .f32) //
      ∀ (xi3 xi4 xi5 : Vec F S1x1024x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4 ∗ owns (c : Thread nD τ) arg7 fullShare xi5
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ owns (c : Thread nD τ) arg6 fullShare xi4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__arcface_kernel i arg2 harg2 arg3 harg3 arg4 harg4 arg5 harg5 arg6 harg6 arg7 harg7 arg8 harg8 arg9 harg9 arg10 harg10) K } := by
  refine ⟨?_, ?_, ?_, fun xi3 xi4 xi5 E K => ?run⟩
  case run =>
    simp only [cc0__arcface_kernel_eq_skeleton]; unfold cc0__arcface_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Fr

end
-- ==== Proof.KI.RunC.lean ====
/-
  The kernel body at the last column tile of a half (the copy-out branch taken, the reset branch not): the scratch
  vectors come in at xs0, xs1, xs2 and go out written by the pieces LS0, LS1, LS2; the three output buffers come in at
  any contents and go out written by the pieces L3, L4, L5 (each one store of the whole block).
-/
import proofs.«431442_j45981919871044_3_alg».proof.Proof.KI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords)
    (arg2 : Memref sig .tc .vmem S1024x512 .bf16) (harg2 : arg2.IsWhole) (arg3 : Memref sig .tc .vmem S1000x512 .f32) (harg3 : arg3.IsWhole)
    (arg4 : Memref sig .tc .vmem S1024x1 .i32) (harg4 : arg4.IsWhole) (arg5 : Memref sig .tc .vmem S1x1024x1 .f32) (harg5 : arg5.IsWhole)
    (arg6 : Memref sig .tc .vmem S1x1024x1 .f32) (harg6 : arg6.IsWhole) (arg7 : Memref sig .tc .vmem S1x1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : cond0_1 i) (x0 : Vec F S1024x512 .bf16) (x1 : Vec F S1000x512 .f32) (x2 : Vec F S1024x1 .i32)
    (xs0 xs1 xs2 : Vec F S1024x1 .f32) :
    Σ' (L3 : List (View.Piece (Elt F) S1x1024x1 .f32)) (L4 : List (View.Piece (Elt F) S1x1024x1 .f32)) (L5 : List (View.Piece (Elt F) S1x1024x1 .f32)) (LS0 : List (View.Piece (Elt F) S1024x1 .f32)) (LS1 : List (View.Piece (Elt F) S1024x1 .f32)), { LS2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__arcface_kernel i arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__arcface_kernel_eq_skeleton]; unfold cc0__arcface_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [HS0]; · iexists _; iexact HS0
    isplitl [HS1]; · iexists _; iexact HS1
    iexists _; iexact HS2

end Cert.KernelIdeal.Fr

end
-- ==== Proof.KI.Frame.lean ====
/-
  The frame run of the program: what each of the three control cases of the kernel body (the first column tile of a
  half: the running vectors are reset; a middle tile; the last tile: the running vectors are copied out) leaves in the
  three running vectors and in the three output blocks; these contents point by point along the 100 grid points, by
  recursion on the point; the region invariant that carries the running vectors from point to point; the body
  obligation at every point; the run of the whole program; and the frame claim: the three argument arrays end as they
  were launched.
-/
import proofs.«431442_j45981919871044_3_alg».proof.Proof.KI.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a case leaves in each buffer -/

/-- Away from a half's last tile nothing is stored into an output block: a placeholder (no piece read back over
    unnamed contents) that nothing consults, the window being neither written back nor read at such a point. -/
def out0_idle_3 : Vec F S1x1024x1 .f32 := VO0_3.read (Elt F) (VO0_3.writes (Elt F) VO0_3.junk [])
def out0_idle_4 : Vec F S1x1024x1 .f32 := VO0_4.read (Elt F) (VO0_4.writes (Elt F) VO0_4.junk [])
def out0_idle_5 : Vec F S1x1024x1 .f32 := VO0_5.read (Elt F) (VO0_5.writes (Elt F) VO0_5.junk [])

section CaseA
variable (c : Dev nD) (i : grid0.Coords)
  (arg2 : Memref sig .tc .vmem S1024x512 .bf16) (harg2 : arg2.IsWhole) (arg3 : Memref sig .tc .vmem S1000x512 .f32) (harg3 : arg3.IsWhole)
  (arg4 : Memref sig .tc .vmem S1024x1 .i32) (harg4 : arg4.IsWhole) (arg5 : Memref sig .tc .vmem S1x1024x1 .f32) (harg5 : arg5.IsWhole)
  (arg6 : Memref sig .tc .vmem S1x1024x1 .f32) (harg6 : arg6.IsWhole) (arg7 : Memref sig .tc .vmem S1x1024x1 .f32) (harg7 : arg7.IsWhole)
  (arg8 : Memref sig .tc .vmem S1024x1 .f32) (harg8 : arg8.IsWhole) (arg9 : Memref sig .tc .vmem S1024x1 .f32) (harg9 : arg9.IsWhole)
  (arg10 : Memref sig .tc .vmem S1024x1 .f32) (harg10 : arg10.IsWhole)
  (hc0 : cond0_0 i) (hc1 : ¬cond0_1 i) (x0 : Vec F S1024x512 .bf16) (x1 : Vec F S1000x512 .f32) (x2 : Vec F S1024x1 .i32)

local notation "RA" => kernelRun0_A c i arg2 harg2 arg3 harg3 arg4 harg4 arg5 harg5 arg6 harg6 arg7 harg7 arg8 harg8 arg9 harg9 arg10 harg10 hc0 hc1 x0 x1 x2

/-- The reset case's pieces for each running vector cover it: every store writes the whole vector. -/
theorem scover0_A_0 (y : S1024x1.Idx) : ∃ pc ∈ (RA).1, y ∈ pc.1.set :=
  View.cover_of_tiledL (RA).1 S1024x1.size (by sl_kernel_rfl) y
theorem scover0_A_1 (y : S1024x1.Idx) : ∃ pc ∈ (RA).2.1, y ∈ pc.1.set :=
  View.cover_of_tiledL (RA).2.1 S1024x1.size (by sl_kernel_rfl) y
theorem scover0_A_2 (y : S1024x1.Idx) : ∃ pc ∈ (RA).2.2.1, y ∈ pc.1.set :=
  View.cover_of_tiledL (RA).2.2.1 S1024x1.size (by sl_kernel_rfl) y

/-- What the reset case leaves in each running vector: its pieces read back (over contents that do not matter). -/
def sout0_A_0 : Vec F S1024x1 .f32 := VS0_0.read (Elt F) (VS0_0.writes (Elt F) VS0_0.junk (RA).1)
def sout0_A_1 : Vec F S1024x1 .f32 := VS0_1.read (Elt F) (VS0_1.writes (Elt F) VS0_1.junk (RA).2.1)
def sout0_A_2 : Vec F S1024x1 .f32 := VS0_2.read (Elt F) (VS0_2.writes (Elt F) VS0_2.junk (RA).2.2.1)

end CaseA

section CaseB
variable (c : Dev nD) (i : grid0.Coords)
  (arg2 : Memref sig .tc .vmem S1024x512 .bf16) (harg2 : arg2.IsWhole) (arg3 : Memref sig .tc .vmem S1000x512 .f32) (harg3 : arg3.IsWhole)
  (arg4 : Memref sig .tc .vmem S1024x1 .i32) (harg4 : arg4.IsWhole) (arg5 : Memref sig .tc .vmem S1x1024x1 .f32) (harg5 : arg5.IsWhole)
  (arg6 : Memref sig .tc .vmem S1x1024x1 .f32) (harg6 : arg6.IsWhole) (arg7 : Memref sig .tc .vmem S1x1024x1 .f32) (harg7 : arg7.IsWhole)
  (arg8 : Memref sig .tc .vmem S1024x1 .f32) (harg8 : arg8.IsWhole) (arg9 : Memref sig .tc .vmem S1024x1 .f32) (harg9 : arg9.IsWhole)
  (arg10 : Memref sig .tc .vmem S1024x1 .f32) (harg10 : arg10.IsWhole)
  (hc0 : ¬cond0_0 i) (hc1 : ¬cond0_1 i) (x0 : Vec F S1024x512 .bf16) (x1 : Vec F S1000x512 .f32) (x2 : Vec F S1024x1 .i32)
  (xs0 xs1 xs2 : Vec F S1024x1 .f32)

local notation "RB" => kernelRun0_B c i arg2 harg2 arg3 harg3 arg4 harg4 arg5 harg5 arg6 harg6 arg7 harg7 arg8 harg8 arg9 harg9 arg10 harg10 hc0 hc1 x0 x1 x2 xs0 xs1 xs2

/-- A middle tile's pieces for each running vector cover it. -/
theorem scover0_B_0 (y : S1024x1.Idx) : ∃ pc ∈ (RB).1, y ∈ pc.1.set :=
  View.cover_of_tiledL (RB).1 S1024x1.size (by sl_kernel_rfl) y
theorem scover0_B_1 (y : S1024x1.Idx) : ∃ pc ∈ (RB).2.1, y ∈ pc.1.set :=
  View.cover_of_tiledL (RB).2.1 S1024x1.size (by sl_kernel_rfl) y
theorem scover0_B_2 (y : S1024x1.Idx) : ∃ pc ∈ (RB).2.2.1, y ∈ pc.1.set :=
  View.cover_of_tiledL (RB).2.2.1 S1024x1.size (by sl_kernel_rfl) y

/-- What a middle tile leaves in each running vector, from what the point before left (xs0, xs1, xs2). -/
def sout0_B_0 : Vec F S1024x1 .f32 := VS0_0.read (Elt F) (VS0_0.writes (Elt F) VS0_0.junk (RB).1)
def sout0_B_1 : Vec F S1024x1 .f32 := VS0_1.read (Elt F) (VS0_1.writes (Elt F) VS0_1.junk (RB).2.1)
def sout0_B_2 : Vec F S1024x1 .f32 := VS0_2.read (Elt F) (VS0_2.writes (Elt F) VS0_2.junk (RB).2.2.1)

end CaseB

section CaseC
variable (c : Dev nD) (i : grid0.Coords)
  (arg2 : Memref sig .tc .vmem S1024x512 .bf16) (harg2 : arg2.IsWhole) (arg3 : Memref sig .tc .vmem S1000x512 .f32) (harg3 : arg3.IsWhole)
  (arg4 : Memref sig .tc .vmem S1024x1 .i32) (harg4 : arg4.IsWhole) (arg5 : Memref sig .tc .vmem S1x1024x1 .f32) (harg5 : arg5.IsWhole)
  (arg6 : Memref sig .tc .vmem S1x1024x1 .f32) (harg6 : arg6.IsWhole) (arg7 : Memref sig .tc .vmem S1x1024x1 .f32) (harg7 : arg7.IsWhole)
  (arg8 : Memref sig .tc .vmem S1024x1 .f32) (harg8 : arg8.IsWhole) (arg9 : Memref sig .tc .vmem S1024x1 .f32) (harg9 : arg9.IsWhole)
  (arg10 : Memref sig .tc .vmem S1024x1 .f32) (harg10 : arg10.IsWhole)
  (hc0 : ¬cond0_0 i) (hc1 : cond0_1 i) (x0 : Vec F S1024x512 .bf16) (x1 : Vec F S1000x512 .f32) (x2 : Vec F S1024x1 .i32)
  (xs0 xs1 xs2 : Vec F S1024x1 .f32)

local notation "RC" => kernelRun0_C c i arg2 harg2 arg3 harg3 arg4 harg4 arg5 harg5 arg6 harg6 arg7 harg7 arg8 harg8 arg9 harg9 arg10 harg10 hc0 hc1 x0 x1 x2 xs0 xs1 xs2

/-- The last tile's pieces for each output block cover it (one store of the whole block each), -/
theorem cover0_C_3 (y : S1x1024x1.Idx) : ∃ pc ∈ (RC).1, y ∈ pc.1.set :=
  View.cover_of_tiledL (RC).1 S1x1024x1.size (by sl_kernel_rfl) y
theorem cover0_C_4 (y : S1x1024x1.Idx) : ∃ pc ∈ (RC).2.1, y ∈ pc.1.set :=
  View.cover_of_tiledL (RC).2.1 S1x1024x1.size (by sl_kernel_rfl) y
theorem cover0_C_5 (y : S1x1024x1.Idx) : ∃ pc ∈ (RC).2.2.1, y ∈ pc.1.set :=
  View.cover_of_tiledL (RC).2.2.1 S1x1024x1.size (by sl_kernel_rfl) y
/-- and its pieces for each running vector cover it. -/
theorem scover0_C_0 (y : S1024x1.Idx) : ∃ pc ∈ (RC).2.2.2.1, y ∈ pc.1.set :=
  View.cover_of_tiledL (RC).2.2.2.1 S1024x1.size (by sl_kernel_rfl) y
theorem scover0_C_1 (y : S1024x1.Idx) : ∃ pc ∈ (RC).2.2.2.2.1, y ∈ pc.1.set :=
  View.cover_of_tiledL (RC).2.2.2.2.1 S1024x1.size (by sl_kernel_rfl) y
theorem scover0_C_2 (y : S1024x1.Idx) : ∃ pc ∈ (RC).2.2.2.2.2.1, y ∈ pc.1.set :=
  View.cover_of_tiledL (RC).2.2.2.2.2.1 S1024x1.size (by sl_kernel_rfl) y

/-- What the last tile leaves in each output block: its pieces read back. -/
def out0_C_3 : Vec F S1x1024x1 .f32 := VO0_3.read (Elt F) (VO0_3.writes (Elt F) VO0_3.junk (RC).1)
def out0_C_4 : Vec F S1x1024x1 .f32 := VO0_4.read (Elt F) (VO0_4.writes (Elt F) VO0_4.junk (RC).2.1)
def out0_C_5 : Vec F S1x1024x1 .f32 := VO0_5.read (Elt F) (VO0_5.writes (Elt F) VO0_5.junk (RC).2.2.1)
/-- What it leaves in each running vector. -/
def sout0_C_0 : Vec F S1024x1 .f32 := VS0_0.read (Elt F) (VS0_0.writes (Elt F) VS0_0.junk (RC).2.2.2.1)
def sout0_C_1 : Vec F S1024x1 .f32 := VS0_1.read (Elt F) (VS0_1.writes (Elt F) VS0_1.junk (RC).2.2.2.2.1)
def sout0_C_2 : Vec F S1024x1 .f32 := VS0_2.read (Elt F) (VS0_2.writes (Elt F) VS0_2.junk (RC).2.2.2.2.2.1)

end CaseC

/-! ## What the buffers hold after each point -/

section Points
variable (c : Dev nD) (t : Fin cfg0.N)

/-- The three output blocks and the three running vectors after a point of the reset case: the outputs are not
    stored (placeholders), the running vectors are what the case leaves, whatever they held. -/
def ptA (h0 : t.val % 50 = 0) (h1 : ¬t.val % 50 = 49) : Vec F S1x1024x1 .f32 × Vec F S1x1024x1 .f32 × Vec F S1x1024x1 .f32 × Vec F S1024x1 .f32 × Vec F S1024x1 .f32 × Vec F S1024x1 .f32 :=
  (out0_idle_3, out0_idle_4, out0_idle_5,
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t),
    sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t),
    sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t))

/-- After a middle tile, the running vectors having come in at xs0, xs1, xs2. -/
def ptB (h0 : ¬t.val % 50 = 0) (h1 : ¬t.val % 50 = 49) (xs0 xs1 xs2 : Vec F S1024x1 .f32) : Vec F S1x1024x1 .f32 × Vec F S1x1024x1 .f32 × Vec F S1x1024x1 .f32 × Vec F S1024x1 .f32 × Vec F S1024x1 .f32 × Vec F S1024x1 .f32 :=
  (out0_idle_3, out0_idle_4, out0_idle_5,
    sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) xs0 xs1 xs2,
    sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) xs0 xs1 xs2,
    sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) xs0 xs1 xs2)

/-- After the last tile of a half, the running vectors having come in at xs0, xs1, xs2: the outputs now hold what
    the copy-out stores. -/
def ptC (h0 : ¬t.val % 50 = 0) (h1 : t.val % 50 = 49) (xs0 xs1 xs2 : Vec F S1024x1 .f32) : Vec F S1x1024x1 .f32 × Vec F S1x1024x1 .f32 × Vec F S1x1024x1 .f32 × Vec F S1024x1 .f32 × Vec F S1024x1 .f32 × Vec F S1024x1 .f32 :=
  (out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) xs0 xs1 xs2,
    out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) xs0 xs1 xs2,
    out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) xs0 xs1 xs2,
    sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) xs0 xs1 xs2,
    sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) xs0 xs1 xs2,
    sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) xs0 xs1 xs2)

end Points

/-- THE ACCUMULATION. What the three output blocks' staging buffers and the three running vectors hold after the
    body at point n (outputs 3, 4, 5, then the running maximum, the running sum, the target cosine): the case the
    point's column tile selects — tile 0 of a half: reset, whatever the point before left; tile 49: copy-out; any
    other: a middle tile —, the last two over what the point before left in the running vectors. -/
def outsAt0 (c : Dev nD) : (n : ℕ) → n < cfg0.N → Vec F S1x1024x1 .f32 × Vec F S1x1024x1 .f32 × Vec F S1x1024x1 .f32 × Vec F S1024x1 .f32 × Vec F S1024x1 .f32 × Vec F S1024x1 .f32
  | 0, hn => ptA m c ⟨0, hn⟩ (Nat.zero_mod _) (by decide : ¬(0 : ℕ) % 50 = 49)
  | n + 1, hn =>
    if h0 : (n + 1) % 50 = 0 then ptA m c ⟨n + 1, hn⟩ h0 (by omega : ¬(n + 1) % 50 = 49)
    else if h1 : (n + 1) % 50 = 49 then
      ptC m c ⟨n + 1, hn⟩ h0 h1 (outsAt0 c n (Nat.lt_of_succ_lt hn)).2.2.2.1 (outsAt0 c n (Nat.lt_of_succ_lt hn)).2.2.2.2.1 (outsAt0 c n (Nat.lt_of_succ_lt hn)).2.2.2.2.2
    else
      ptB m c ⟨n + 1, hn⟩ h0 h1 (outsAt0 c n (Nat.lt_of_succ_lt hn)).2.2.2.1 (outsAt0 c n (Nat.lt_of_succ_lt hn)).2.2.2.2.1 (outsAt0 c n (Nat.lt_of_succ_lt hn)).2.2.2.2.2

/-- At a point of the reset case. -/
theorem outsAt0_A (c : Dev nD) (t : Fin cfg0.N) (h0 : t.val % 50 = 0) (h1 : ¬t.val % 50 = 49) :
    outsAt0 m c t.val t.isLt = ptA m c t h0 h1 := by
  obtain ⟨n, hn⟩ := t
  cases n with
  | zero => rfl
  | succ n => exact (dif_pos h0).trans rfl

/-- At a middle tile: over what the point before left in the running vectors. -/
theorem outsAt0_B (c : Dev nD) (t : Fin cfg0.N) (h0 : ¬t.val % 50 = 0) (h1 : ¬t.val % 50 = 49) :
    outsAt0 m c t.val t.isLt = ptB m c t h0 h1
      (outsAt0 m c (t.val - 1) (Nat.lt_of_le_of_lt (Nat.sub_le _ _) t.isLt)).2.2.2.1
      (outsAt0 m c (t.val - 1) (Nat.lt_of_le_of_lt (Nat.sub_le _ _) t.isLt)).2.2.2.2.1
      (outsAt0 m c (t.val - 1) (Nat.lt_of_le_of_lt (Nat.sub_le _ _) t.isLt)).2.2.2.2.2 := by
  obtain ⟨n, hn⟩ := t
  cases n with
  | zero => exact absurd (Nat.zero_mod _) h0
  | succ n => exact (dif_neg h0).trans ((dif_neg h1).trans rfl)

/-- At the last tile of a half: the same, and the outputs stored. -/
theorem outsAt0_C (c : Dev nD) (t : Fin cfg0.N) (h0 : ¬t.val % 50 = 0) (h1 : t.val % 50 = 49) :
    outsAt0 m c t.val t.isLt = ptC m c t h0 h1
      (outsAt0 m c (t.val - 1) (Nat.lt_of_le_of_lt (Nat.sub_le _ _) t.isLt)).2.2.2.1
      (outsAt0 m c (t.val - 1) (Nat.lt_of_le_of_lt (Nat.sub_le _ _) t.isLt)).2.2.2.2.1
      (outsAt0 m c (t.val - 1) (Nat.lt_of_le_of_lt (Nat.sub_le _ _) t.isLt)).2.2.2.2.2 := by
  obtain ⟨n, hn⟩ := t
  cases n with
  | zero => exact absurd (Nat.zero_mod _) h0
  | succ n => exact (dif_neg h0).trans ((dif_pos h1).trans rfl)

/-! ## The region invariant -/

/-- Before point n: before the first point the class invariant (every scratch at anything); afterwards the three
    running vectors owned at what the point before left in them, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2.1) ∗ owns (c : Thread nD τ) scM0_2 fullShare ((outsAt0 m c (n - 1) (by omega)).2.2.2.2.2)) ∗ (∃ r, prngReg c r)) := by
  cases n with
  | zero => exact absurd rfl hz
  | succ n => rfl

/-- At any point the invariant gives the class invariant back: the running vectors' named contents are forgotten. -/
theorem PhiS_any (c : Dev nD) (n : ℕ) (h : n ≤ cfg0.N) : PhiS m c n h ⊢ Pipeline.ΦA spec0 c := by
  by_cases hz : n = 0
  · rw [PhiS_zero m c n h hz]
  · rw [PhiS_pos m c n h hz, PhiA0_eq]
    iintro ⟨⟨HS0, HS1, HS2⟩, Hg⟩
    isplitl [HS0 HS1 HS2]
    · isplitl [HS0]; · iexists _; iexact HS0
      isplitl [HS1]; · iexists _; iexact HS1
      iexists _; iexact HS2
    iexact Hg

/-! ## The pipeline's proof data -/

/-- The proof data on core c: the arrays as the region finds them; after the body at point t each input's buffer
    at its block and the outputs' at what the accumulation says; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2.1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- Before any point the invariant yields the three running vectors at some contents and the generator register. -/
theorem Phi_scratch (c : Dev nD) (t : Fin cfg0.N) :
    (dats m 0 c).Φ t.castSucc ⊢ (iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) : sProp 𝕄) := by
  rw [PhiS_castSucc m c t, ← PhiA0_eq]
  exact PhiS_any m c _ _

set_option maxHeartbeats 8000000 in
/-- The body at a point of the reset case (the first column tile of a half, the first point of the grid or point
    50): the invariant's running vectors are handed over at whatever they hold, the outputs' buffers come back
    untouched, and the running vectors come back at the case's contents. -/
theorem sound_body_A (c : Dev nD) (t : Fin cfg0.N) (h0 : t.val % 50 = 0) (h1 : ¬t.val % 50 = 49) :
    bodyPre m c t ⊢ wp frame (wpE (defs₀ (F := F)) Variants.none c none) Set.univ (bodyAt0 t) (fun _ => bodyPost m c t) := by
  have hc0 : cond0_0 (grid0.coords t) := (hcond0_0 t).mpr h0
  have hc1 : ¬cond0_1 (grid0.coords t) := fun h => h1 ((hcond0_1 t).mp h)
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [Dat.leavesExact_idle (dats m 0 c) 3 t (idleAt0_3 t hc1) (noFlush0_3 t hc1)]
  rw [Dat.leavesExact_idle (dats m 0 c) 4 t (idleAt0_4 t hc1) (noFlush0_4 t hc1)]
  rw [Dat.leavesExact_idle (dats m 0 c) 5 t (idleAt0_5 t hc1) (noFlush0_5 t hc1)]
  rw [outsAt0_A m c t h0 h1]
  unfold ptA sout0_A_0 sout0_A_1 sout0_A_2; (try dsimp only)
  iintro ⟨HΦ, Ho, ⟨%d0, H0⟩, ⟨%d1, H1⟩, ⟨%d2, H2⟩, ⟨%d3, H3⟩, ⟨%d4, H4⟩, ⟨%d5, H5⟩⟩
  ihave ⟨⟨HS0, HS1, HS2⟩, Hg⟩ := (Phi_scratch m c t) $$ HΦ
  iapply ((kernelRun0_A c (grid0.coords t) _ _ _ _ _ _ _ _ _ _ _ _ _ _ _ _ _ _ hc0 hc1 (iblk m c 0 t) (iblk m c 1 t) (iblk m c 2 t)).2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, ⟨%es0, HS0⟩, ⟨%es1, HS1⟩, ⟨%es2, HS2⟩⟩
  isplitl [HS0 HS1 HS2 Hg]
  · isplitl [HS0 HS1 HS2]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_A_1 c _ _ _ _ _ _ _ _ _ _ _ _ _ _ _ _ _ _ _ _ _ _ _ _)
      · unfold owns; iexists _; isplitr
        swap; · iexact HS2
        ipureintro; exact View.read_writes_of_cover _ _ _ _ _ (scover0_A_2 c _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexists _; iexact H3
  isplitl [H4]; · iexists _; iexact H4
  iexists _; iexact H5

set_option maxHeartbeats 8000000 in
/-- The body at a middle tile: the running vectors go in at what the point before left and come back at the case's
    contents over them; the outputs' buffers come back untouched. -/
theorem sound_body_B (c : Dev nD) (t : Fin cfg0.N) (h0 : ¬t.val % 50 = 0) (h1 : ¬t.val % 50 = 49) :
    bodyPre m c t ⊢ wp frame (wpE (defs₀ (F := F)) Variants.none c none) Set.univ (bodyAt0 t) (fun _ => bodyPost m c t) := by
  have hc0 : ¬cond0_0 (grid0.coords t) := fun h => h0 ((hcond0_0 t).mp h)
  have hc1 : ¬cond0_1 (grid0.coords t) := fun h => h1 ((hcond0_1 t).mp h)
  have hz : t.val ≠ 0 := fun e => h0 (by rw [e])
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [Dat.leavesExact_idle (dats m 0 c) 3 t (idleAt0_3 t hc1) (noFlush0_3 t hc1)]
  rw [Dat.leavesExact_idle (dats m 0 c) 4 t (idleAt0_4 t hc1) (noFlush0_4 t hc1)]
  rw [Dat.leavesExact_idle (dats m 0 c) 5 t (idleAt0_5 t hc1) (noFlush0_5 t hc1)]
  rw [outsAt0_B m c t h0 h1]
  unfold ptB sout0_B_0 sout0_B_1 sout0_B_2; (try dsimp only)
  rw [PhiS_castSucc m c t, PhiS_pos m c _ _ hz]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
  iapply ((kernelRun0_B c (grid0.coords t) _ _ _ _ _ _ _ _ _ _ _ _ _ _ _ _ _ _ hc0 hc1 (iblk m c 0 t) (iblk m c 1 t) (iblk m c 2 t) _ _ _).2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, ⟨%es0, HS0⟩, ⟨%es1, HS1⟩, ⟨%es2, HS2⟩⟩
  isplitl [HS0 HS1 HS2 Hg]
  · isplitl [HS0 HS1 HS2]
    · isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_B_1 c _ _ _ _ _ _ _ _ _ _ _ _ _ _ _ _ _ _ _ _ _ _ _ _ _ _ _)
      · unfold owns; iexists _; isplitr
        swap; · iexact HS2
        ipureintro; exact View.read_writes_of_cover _ _ _ _ _ (scover0_B_2 c _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexists _; iexact H3
  isplitl [H4]; · iexists _; iexact H4
  iexists _; iexact H5

set_option maxHeartbeats 8000000 in
/-- The body at the last tile of a half: as at a middle tile, and the three output buffers, handed over at whatever
    they hold, come back at what the copy-out stores. -/
theorem sound_body_C (c : Dev nD) (t : Fin cfg0.N) (h0 : ¬t.val % 50 = 0) (h1 : t.val % 50 = 49) :
    bodyPre m c t ⊢ wp frame (wpE (defs₀ (F := F)) Variants.none c none) Set.univ (bodyAt0 t) (fun _ => bodyPost m c t) := by
  have hc0 : ¬cond0_0 (grid0.coords t) := fun h => h0 ((hcond0_0 t).mp h)
  have hc1 : cond0_1 (grid0.coords t) := (hcond0_1 t).mpr h1
  have hz : t.val ≠ 0 := fun e => h0 (by rw [e])
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t hc1], after0_3]
  rw [show (dats m 0 c).leavesExact 4 t = owns (c : Thread nD τ) (ms0_4 t) fullShare ((dats m 0 c).after 4 t) from by
    unfold Dat.leavesExact; rw [liveAt0_4 t hc1], after0_4]
  rw [show (dats m 0 c).leavesExact 5 t = owns (c : Thread nD τ) (ms0_5 t) fullShare ((dats m 0 c).after 5 t) from by
    unfold Dat.leavesExact; rw [liveAt0_5 t hc1], after0_5]
  rw [outsAt0_C m c t h0 h1]
  unfold ptC out0_C_3 out0_C_4 out0_C_5 sout0_C_0 sout0_C_1 sout0_C_2; (try dsimp only)
  rw [PhiS_castSucc m c t, PhiS_pos m c _ _ hz]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
  iapply ((kernelRun0_C c (grid0.coords t) _ _ _ _ _ _ _ _ _ _ _ _ _ _ _ _ _ _ hc0 hc1 (iblk m c 0 t) (iblk m c 1 t) (iblk m c 2 t) _ _ _).2.2.2.2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  isplitl [HS1]; · iexact HS1
  isplitl [HS2]; · iexact HS2
  iintro ⟨H0, H1, H2, ⟨%e3, H3⟩, ⟨%e4, H4⟩, ⟨%e5, H5⟩, ⟨%es0, HS0⟩, ⟨%es1, HS1⟩, ⟨%es2, HS2⟩⟩
  isplitl [HS0 HS1 HS2 Hg]
  · isplitl [HS0 HS1 HS2]
    · isplitl [HS0]
      · unfold owns; iexists _; isplitr
        swap; · iexact HS0
        ipureintro; exact View.read_writes_of_cover _ _ _ _ _ (scover0_C_0 c _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover0_C_1 c _ _ _ _ _ _ _ _ _ _ _ _ _ _ _ _ _ _ _ _ _ _ _ _ _ _ _)
      · unfold owns; iexists _; isplitr
        swap; · iexact HS2
        ipureintro; exact View.read_writes_of_cover _ _ _ _ _ (scover0_C_2 c _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_C_3 c _ _ _ _ _ _ _ _ _ _ _ _ _ _ _ _ _ _ _ _ _ _ _ _ _ _ _)
  isplitl [H4]
  · unfold owns; iexists _; isplitr
    swap; · iexact H4
    ipureintro; exact View.read_writes_of_cover _ _ _ _ _ (cover0_C_4 c _ _ _ _ _ _ _ _ _ _ _ _ _ _ _ _ _ _ _ _ _ _ _ _ _ _ _)
  · unfold owns; iexists _; isplitr
    swap; · iexact H5
    ipureintro; exact View.read_writes_of_cover _ _ _ _ _ (cover0_C_5 c _ _ _ _ _ _ _ _ _ _ _ _ _ _ _ _ _ _ _ _ _ _ _ _ _ _ _)

/-- The body at any point: the point's column tile says which of the three cases it is in. -/
theorem sound_body (c : Dev nD) (t : Fin cfg0.N) :
    bodyPre m c t ⊢ wp frame (wpE (defs₀ (F := F)) Variants.none c none) Set.univ (bodyAt0 t) (fun _ => bodyPost m c t) := by
  by_cases h0 : t.val % 50 = 0
  · exact sound_body_A m c t h0 (by omega)
  · by_cases h1 : t.val % 50 = 49
    · exact sound_body_C m c t h0 h1
    · exact sound_body_B m c t h0 h1

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class invariant back. -/
theorem Phi_any (c : Dev nD) (t : Fin (cfg0.N + 1)) : (dats m 0 c).Φ t ⊢ Pipeline.ΦA spec0 c := by
  rw [show (dats m 0 c).Φ t = PhiS m c t.val (Nat.le_of_lt_succ t.isLt) from rfl]
  exact PhiS_any m c _ _
theorem hout (c : Dev nD) : (dats m 0 c).Φ (Fin.last cfg0.N) ⊢ Pipeline.ΦA spec0 c := Phi_any m c _

/-! ## The run and the frame -/

set_option maxHeartbeats 4000000 in
set_option backward.isDefEq.respectTransparency.types false in
/-- From any memory with zero counters, for any values: every weakly fair execution of the program on the
    TensorCores terminates, every final state having each array of the pipeline at what the proof data compute and
    every other unscoped buffer as the host operations after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hin := hin m) (hout := hout m)

set_option maxHeartbeats 4000000 in
/-- No host operation after the region writes the features argument, and it is no window's array: it ends as launched. -/
theorem W_main_arg0 (dats' : (p : Fin 1) → (c : Dev nD) → Dat τ (Elt F) Unit ℕ (UR sig nD τ) ℕ (cfgs p) c) (c : Dev nD) :
    Pipeline.afterTail₀ cfgs dats' 0 (V0 m) [hostOps1, hostOps1_1, hostOps1_2] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 4000000 in
/-- The same of the labels argument. -/
theorem W_main_arg2 (dats' : (p : Fin 1) → (c : Dev nD) → Dat τ (Elt F) Unit ℕ (UR sig nD τ) ℕ (cfgs p) c) (c : Dev nD) :
    Pipeline.afterTail₀ cfgs dats' 0 (V0 m) [hostOps1, hostOps1_1, hostOps1_2] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- THE FRAME: the three argument arrays end as launched — the class weights, a staged input, by the run's first
    clause (an input array keeps its entry contents); the features and the labels, which bypass the region, by its
    second clause and the two lemmas above. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩) (run_main m ρ)

end Cert.KernelIdeal.Fr

end
-- ==== Proof.KI.Pieces.lean ====
/-
  What the three control cases of the kernel body (first tile of a half, a middle tile, last tile of a half) leave in
  each buffer they store into, in closed form: one payload of the body applied to the three input blocks and to the
  contents the running vectors came in with (at the first tile, the reset values).
-/
import proofs.«431442_j45981919871044_3_alg».proof.Proof.KI.Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a rank-2 (rank-3) rectangle, as the constant function. -/
theorem zeros2 : (![0, 0] : Fin 2 → ℕ) = fun _ => 0 := funext fun a => match a with | ⟨0, _⟩ => rfl | ⟨1, _⟩ => rfl
theorem zeros3 : (![0, 0, 0] : Fin 3 → ℕ) = fun _ => 0 := funext fun a => match a with | ⟨0, _⟩ => rfl | ⟨1, _⟩ => rfl | ⟨2, _⟩ => rfl

/-! ## The first tile of a half -/

/-- What the running maximum vector holds after the first tile of a half. -/
theorem sread0_A_0 (c : Dev nD) (i : grid0.Coords)
    (arg2 : Memref sig .tc .vmem S1024x512 .bf16) (harg2 : arg2.IsWhole) (arg3 : Memref sig .tc .vmem S1000x512 .f32) (harg3 : arg3.IsWhole)
    (arg4 : Memref sig .tc .vmem S1024x1 .i32) (harg4 : arg4.IsWhole) (arg5 : Memref sig .tc .vmem S1x1024x1 .f32) (harg5 : arg5.IsWhole)
    (arg6 : Memref sig .tc .vmem S1x1024x1 .f32) (harg6 : arg6.IsWhole) (arg7 : Memref sig .tc .vmem S1x1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : cond0_0 i) (hc1 : ¬cond0_1 i) (x0 : Vec F S1024x512 .bf16) (x1 : Vec F S1000x512 .f32) (x2 : Vec F S1024x1 .i32) :
    sout0_A_0 c i arg2 harg2 arg3 harg3 arg4 harg4 arg5 harg5 arg6 harg6 arg7 harg7 arg8 harg8 arg9 harg9 arg10 harg10 hc0 hc1 x0 x1 x2 = k0_pay2 (k0_pay13 x0 x1 k0_pay7) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2)]
  unfold kernelRun0_A; dsimp only; sl_unfold_words
  rw [View.canon_cons_unit_zero (S := S1024x1) zeros2]
  simp only [View.readAt_eq_ld, harg2.read_unread, harg3.read_unread, harg4.read_unread, harg8.read_unread, harg9.read_unread, harg10.read_unread,
    View.ld_unit_zero (S := S1024x512) zeros2, View.ld_unit_zero (S := S1000x512) zeros2, View.ld_unit_zero (S := S1024x1) zeros2,
    View.readCov_unit_zero (S := S1024x1) _ zeros2]

/-- What the running sum vector holds after the first tile of a half. -/
theorem sread0_A_1 (c : Dev nD) (i : grid0.Coords)
    (arg2 : Memref sig .tc .vmem S1024x512 .bf16) (harg2 : arg2.IsWhole) (arg3 : Memref sig .tc .vmem S1000x512 .f32) (harg3 : arg3.IsWhole)
    (arg4 : Memref sig .tc .vmem S1024x1 .i32) (harg4 : arg4.IsWhole) (arg5 : Memref sig .tc .vmem S1x1024x1 .f32) (harg5 : arg5.IsWhole)
    (arg6 : Memref sig .tc .vmem S1x1024x1 .f32) (harg6 : arg6.IsWhole) (arg7 : Memref sig .tc .vmem S1x1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : cond0_0 i) (hc1 : ¬cond0_1 i) (x0 : Vec F S1024x512 .bf16) (x1 : Vec F S1000x512 .f32) (x2 : Vec F S1024x1 .i32) :
    sout0_A_1 c i arg2 harg2 arg3 harg3 arg4 harg4 arg5 harg5 arg6 harg6 arg7 harg7 arg8 harg8 arg9 harg9 arg10 harg10 hc0 hc1 x0 x1 x2 = k0_pay1 (k0_pay14 x0 x1 k0_pay7 k0_pay7) (k0_pay15 x0 x1 k0_pay7) k0_pay8 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2)]
  unfold kernelRun0_A; dsimp only; sl_unfold_words
  rw [View.canon_cons_unit_zero (S := S1024x1) zeros2]
  simp only [View.readAt_eq_ld, harg2.read_unread, harg3.read_unread, harg4.read_unread, harg8.read_unread, harg9.read_unread, harg10.read_unread,
    View.ld_unit_zero (S := S1024x512) zeros2, View.ld_unit_zero (S := S1000x512) zeros2, View.ld_unit_zero (S := S1024x1) zeros2,
    View.readCov_unit_zero (S := S1024x1) _ zeros2]

/-- What the target cosine vector holds after the first tile of a half. -/
theorem sread0_A_2 (c : Dev nD) (i : grid0.Coords)
    (arg2 : Memref sig .tc .vmem S1024x512 .bf16) (harg2 : arg2.IsWhole) (arg3 : Memref sig .tc .vmem S1000x512 .f32) (harg3 : arg3.IsWhole)
    (arg4 : Memref sig .tc .vmem S1024x1 .i32) (harg4 : arg4.IsWhole) (arg5 : Memref sig .tc .vmem S1x1024x1 .f32) (harg5 : arg5.IsWhole)
    (arg6 : Memref sig .tc .vmem S1x1024x1 .f32) (harg6 : arg6.IsWhole) (arg7 : Memref sig .tc .vmem S1x1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : cond0_0 i) (hc1 : ¬cond0_1 i) (x0 : Vec F S1024x512 .bf16) (x1 : Vec F S1000x512 .f32) (x2 : Vec F S1024x1 .i32) :
    sout0_A_2 c i arg2 harg2 arg3 harg3 arg4 harg4 arg5 harg5 arg6 harg6 arg7 harg7 arg8 harg8 arg9 harg9 arg10 harg10 hc0 hc1 x0 x1 x2 = k0_pay3 (k0_pay10 x0 x1) (k0_pay12 i) x2 k0_pay9 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2)]
  unfold kernelRun0_A; dsimp only; sl_unfold_words
  rw [View.canon_cons_unit_zero (S := S1024x1) zeros2]
  simp only [View.readAt_eq_ld, harg2.read_unread, harg3.read_unread, harg4.read_unread, harg8.read_unread, harg9.read_unread, harg10.read_unread,
    View.ld_unit_zero (S := S1024x512) zeros2, View.ld_unit_zero (S := S1000x512) zeros2, View.ld_unit_zero (S := S1024x1) zeros2,
    View.readCov_unit_zero (S := S1024x1) _ zeros2]

/-! ## A middle tile -/

/-- What the running maximum vector holds after a middle tile. -/
theorem sread0_B_0 (c : Dev nD) (i : grid0.Coords)
    (arg2 : Memref sig .tc .vmem S1024x512 .bf16) (harg2 : arg2.IsWhole) (arg3 : Memref sig .tc .vmem S1000x512 .f32) (harg3 : arg3.IsWhole)
    (arg4 : Memref sig .tc .vmem S1024x1 .i32) (harg4 : arg4.IsWhole) (arg5 : Memref sig .tc .vmem S1x1024x1 .f32) (harg5 : arg5.IsWhole)
    (arg6 : Memref sig .tc .vmem S1x1024x1 .f32) (harg6 : arg6.IsWhole) (arg7 : Memref sig .tc .vmem S1x1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : ¬cond0_1 i) (x0 : Vec F S1024x512 .bf16) (x1 : Vec F S1000x512 .f32) (x2 : Vec F S1024x1 .i32)
    (xs0 xs1 xs2 : Vec F S1024x1 .f32) :
    sout0_B_0 c i arg2 harg2 arg3 harg3 arg4 harg4 arg5 harg5 arg6 harg6 arg7 harg7 arg8 harg8 arg9 harg9 arg10 harg10 hc0 hc1 x0 x1 x2 xs0 xs1 xs2 = k0_pay2 (k0_pay13 x0 x1 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 xs0 xs1 xs2)]
  unfold kernelRun0_B; dsimp only; sl_unfold_words
  rw [View.canon_cons_unit_zero (S := S1024x1) zeros2]
  simp only [View.readAt_eq_ld, harg2.read_unread, harg3.read_unread, harg4.read_unread, harg8.read_unread, harg9.read_unread, harg10.read_unread,
    View.ld_unit_zero (S := S1024x512) zeros2, View.ld_unit_zero (S := S1000x512) zeros2, View.ld_unit_zero (S := S1024x1) zeros2,
    View.readCov_unit_zero (S := S1024x1) _ zeros2]

/-- What the running sum vector holds after a middle tile. -/
theorem sread0_B_1 (c : Dev nD) (i : grid0.Coords)
    (arg2 : Memref sig .tc .vmem S1024x512 .bf16) (harg2 : arg2.IsWhole) (arg3 : Memref sig .tc .vmem S1000x512 .f32) (harg3 : arg3.IsWhole)
    (arg4 : Memref sig .tc .vmem S1024x1 .i32) (harg4 : arg4.IsWhole) (arg5 : Memref sig .tc .vmem S1x1024x1 .f32) (harg5 : arg5.IsWhole)
    (arg6 : Memref sig .tc .vmem S1x1024x1 .f32) (harg6 : arg6.IsWhole) (arg7 : Memref sig .tc .vmem S1x1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : ¬cond0_1 i) (x0 : Vec F S1024x512 .bf16) (x1 : Vec F S1000x512 .f32) (x2 : Vec F S1024x1 .i32)
    (xs0 xs1 xs2 : Vec F S1024x1 .f32) :
    sout0_B_1 c i arg2 harg2 arg3 harg3 arg4 harg4 arg5 harg5 arg6 harg6 arg7 harg7 arg8 harg8 arg9 harg9 arg10 harg10 hc0 hc1 x0 x1 x2 xs0 xs1 xs2 = k0_pay1 (k0_pay14 x0 x1 xs0 xs0) (k0_pay15 x0 x1 xs0) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 xs0 xs1 xs2)]
  unfold kernelRun0_B; dsimp only; sl_unfold_words
  rw [View.canon_cons_unit_zero (S := S1024x1) zeros2]
  simp only [View.readAt_eq_ld, harg2.read_unread, harg3.read_unread, harg4.read_unread, harg8.read_unread, harg9.read_unread, harg10.read_unread,
    View.ld_unit_zero (S := S1024x512) zeros2, View.ld_unit_zero (S := S1000x512) zeros2, View.ld_unit_zero (S := S1024x1) zeros2,
    View.readCov_unit_zero (S := S1024x1) _ zeros2]

/-- What the target cosine vector holds after a middle tile. -/
theorem sread0_B_2 (c : Dev nD) (i : grid0.Coords)
    (arg2 : Memref sig .tc .vmem S1024x512 .bf16) (harg2 : arg2.IsWhole) (arg3 : Memref sig .tc .vmem S1000x512 .f32) (harg3 : arg3.IsWhole)
    (arg4 : Memref sig .tc .vmem S1024x1 .i32) (harg4 : arg4.IsWhole) (arg5 : Memref sig .tc .vmem S1x1024x1 .f32) (harg5 : arg5.IsWhole)
    (arg6 : Memref sig .tc .vmem S1x1024x1 .f32) (harg6 : arg6.IsWhole) (arg7 : Memref sig .tc .vmem S1x1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : ¬cond0_1 i) (x0 : Vec F S1024x512 .bf16) (x1 : Vec F S1000x512 .f32) (x2 : Vec F S1024x1 .i32)
    (xs0 xs1 xs2 : Vec F S1024x1 .f32) :
    sout0_B_2 c i arg2 harg2 arg3 harg3 arg4 harg4 arg5 harg5 arg6 harg6 arg7 harg7 arg8 harg8 arg9 harg9 arg10 harg10 hc0 hc1 x0 x1 x2 xs0 xs1 xs2 = k0_pay3 (k0_pay10 x0 x1) (k0_pay12 i) x2 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 xs0 xs1 xs2)]
  unfold kernelRun0_B; dsimp only; sl_unfold_words
  rw [View.canon_cons_unit_zero (S := S1024x1) zeros2]
  simp only [View.readAt_eq_ld, harg2.read_unread, harg3.read_unread, harg4.read_unread, harg8.read_unread, harg9.read_unread, harg10.read_unread,
    View.ld_unit_zero (S := S1024x512) zeros2, View.ld_unit_zero (S := S1000x512) zeros2, View.ld_unit_zero (S := S1024x1) zeros2,
    View.readCov_unit_zero (S := S1024x1) _ zeros2]

/-! ## The last tile of a half -/

/-- What the running maximum vector holds after the last tile of a half. -/
theorem sread0_C_0 (c : Dev nD) (i : grid0.Coords)
    (arg2 : Memref sig .tc .vmem S1024x512 .bf16) (harg2 : arg2.IsWhole) (arg3 : Memref sig .tc .vmem S1000x512 .f32) (harg3 : arg3.IsWhole)
    (arg4 : Memref sig .tc .vmem S1024x1 .i32) (harg4 : arg4.IsWhole) (arg5 : Memref sig .tc .vmem S1x1024x1 .f32) (harg5 : arg5.IsWhole)
    (arg6 : Memref sig .tc .vmem S1x1024x1 .f32) (harg6 : arg6.IsWhole) (arg7 : Memref sig .tc .vmem S1x1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : cond0_1 i) (x0 : Vec F S1024x512 .bf16) (x1 : Vec F S1000x512 .f32) (x2 : Vec F S1024x1 .i32)
    (xs0 xs1 xs2 : Vec F S1024x1 .f32) :
    sout0_C_0 c i arg2 harg2 arg3 harg3 arg4 harg4 arg5 harg5 arg6 harg6 arg7 harg7 arg8 harg8 arg9 harg9 arg10 harg10 hc0 hc1 x0 x1 x2 xs0 xs1 xs2 = k0_pay2 (k0_pay13 x0 x1 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 xs0 xs1 xs2)]
  unfold kernelRun0_C; dsimp only; sl_unfold_words
  rw [View.canon_cons_unit_zero (S := S1024x1) zeros2]
  simp only [View.readAt_eq_ld, harg2.read_unread, harg3.read_unread, harg4.read_unread, harg8.read_unread, harg9.read_unread, harg10.read_unread,
    View.ld_unit_zero (S := S1024x512) zeros2, View.ld_unit_zero (S := S1000x512) zeros2, View.ld_unit_zero (S := S1024x1) zeros2,
    View.readCov_unit_zero (S := S1024x1) _ zeros2]

/-- What the running sum vector holds after the last tile of a half. -/
theorem sread0_C_1 (c : Dev nD) (i : grid0.Coords)
    (arg2 : Memref sig .tc .vmem S1024x512 .bf16) (harg2 : arg2.IsWhole) (arg3 : Memref sig .tc .vmem S1000x512 .f32) (harg3 : arg3.IsWhole)
    (arg4 : Memref sig .tc .vmem S1024x1 .i32) (harg4 : arg4.IsWhole) (arg5 : Memref sig .tc .vmem S1x1024x1 .f32) (harg5 : arg5.IsWhole)
    (arg6 : Memref sig .tc .vmem S1x1024x1 .f32) (harg6 : arg6.IsWhole) (arg7 : Memref sig .tc .vmem S1x1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : cond0_1 i) (x0 : Vec F S1024x512 .bf16) (x1 : Vec F S1000x512 .f32) (x2 : Vec F S1024x1 .i32)
    (xs0 xs1 xs2 : Vec F S1024x1 .f32) :
    sout0_C_1 c i arg2 harg2 arg3 harg3 arg4 harg4 arg5 harg5 arg6 harg6 arg7 harg7 arg8 harg8 arg9 harg9 arg10 harg10 hc0 hc1 x0 x1 x2 xs0 xs1 xs2 = k0_pay1 (k0_pay14 x0 x1 xs0 xs0) (k0_pay15 x0 x1 xs0) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 xs0 xs1 xs2)]
  unfold kernelRun0_C; dsimp only; sl_unfold_words
  rw [View.canon_cons_unit_zero (S := S1024x1) zeros2]
  simp only [View.readAt_eq_ld, harg2.read_unread, harg3.read_unread, harg4.read_unread, harg8.read_unread, harg9.read_unread, harg10.read_unread,
    View.ld_unit_zero (S := S1024x512) zeros2, View.ld_unit_zero (S := S1000x512) zeros2, View.ld_unit_zero (S := S1024x1) zeros2,
    View.readCov_unit_zero (S := S1024x1) _ zeros2]

/-- What the target cosine vector holds after the last tile of a half. -/
theorem sread0_C_2 (c : Dev nD) (i : grid0.Coords)
    (arg2 : Memref sig .tc .vmem S1024x512 .bf16) (harg2 : arg2.IsWhole) (arg3 : Memref sig .tc .vmem S1000x512 .f32) (harg3 : arg3.IsWhole)
    (arg4 : Memref sig .tc .vmem S1024x1 .i32) (harg4 : arg4.IsWhole) (arg5 : Memref sig .tc .vmem S1x1024x1 .f32) (harg5 : arg5.IsWhole)
    (arg6 : Memref sig .tc .vmem S1x1024x1 .f32) (harg6 : arg6.IsWhole) (arg7 : Memref sig .tc .vmem S1x1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : cond0_1 i) (x0 : Vec F S1024x512 .bf16) (x1 : Vec F S1000x512 .f32) (x2 : Vec F S1024x1 .i32)
    (xs0 xs1 xs2 : Vec F S1024x1 .f32) :
    sout0_C_2 c i arg2 harg2 arg3 harg3 arg4 harg4 arg5 harg5 arg6 harg6 arg7 harg7 arg8 harg8 arg9 harg9 arg10 harg10 hc0 hc1 x0 x1 x2 xs0 xs1 xs2 = k0_pay3 (k0_pay10 x0 x1) (k0_pay12 i) x2 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 xs0 xs1 xs2)]
  unfold kernelRun0_C; dsimp only; sl_unfold_words
  rw [View.canon_cons_unit_zero (S := S1024x1) zeros2]
  simp only [View.readAt_eq_ld, harg2.read_unread, harg3.read_unread, harg4.read_unread, harg8.read_unread, harg9.read_unread, harg10.read_unread,
    View.ld_unit_zero (S := S1024x512) zeros2, View.ld_unit_zero (S := S1000x512) zeros2, View.ld_unit_zero (S := S1024x1) zeros2,
    View.readCov_unit_zero (S := S1024x1) _ zeros2]

/-- What output 0's block holds after the last tile of a half: the running maximum vector just written, reshaped. -/
theorem oread0_C_3 (c : Dev nD) (i : grid0.Coords)
    (arg2 : Memref sig .tc .vmem S1024x512 .bf16) (harg2 : arg2.IsWhole) (arg3 : Memref sig .tc .vmem S1000x512 .f32) (harg3 : arg3.IsWhole)
    (arg4 : Memref sig .tc .vmem S1024x1 .i32) (harg4 : arg4.IsWhole) (arg5 : Memref sig .tc .vmem S1x1024x1 .f32) (harg5 : arg5.IsWhole)
    (arg6 : Memref sig .tc .vmem S1x1024x1 .f32) (harg6 : arg6.IsWhole) (arg7 : Memref sig .tc .vmem S1x1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : cond0_1 i) (x0 : Vec F S1024x512 .bf16) (x1 : Vec F S1000x512 .f32) (x2 : Vec F S1024x1 .i32)
    (xs0 xs1 xs2 : Vec F S1024x1 .f32) :
    out0_C_3 c i arg2 harg2 arg3 harg3 arg4 harg4 arg5 harg5 arg6 harg6 arg7 harg7 arg8 harg8 arg9 harg9 arg10 harg10 hc0 hc1 x0 x1 x2 xs0 xs1 xs2 = k0_pay4 (k0_pay2 (k0_pay13 x0 x1 xs0)) := by
  unfold out0_C_3
  rw [View.read_writes_eq_canon _ _ _ (cover0_C_3 c i arg2 harg2 arg3 harg3 arg4 harg4 arg5 harg5 arg6 harg6 arg7 harg7 arg8 harg8 arg9 harg9 arg10 harg10 hc0 hc1 x0 x1 x2 xs0 xs1 xs2)]
  unfold kernelRun0_C; dsimp only; sl_unfold_words
  rw [View.canon_cons_unit_zero (S := S1x1024x1) zeros3]
  simp only [View.readAt_eq_ld, harg2.read_unread, harg3.read_unread, harg4.read_unread, harg8.read_unread, harg9.read_unread, harg10.read_unread,
    View.ld_unit_zero (S := S1024x512) zeros2, View.ld_unit_zero (S := S1000x512) zeros2, View.ld_unit_zero (S := S1024x1) zeros2,
    View.readCov_unit_zero (S := S1024x1) _ zeros2]

/-- What output 1's block holds after the last tile of a half: the running sum vector just written, reshaped. -/
theorem oread0_C_4 (c : Dev nD) (i : grid0.Coords)
    (arg2 : Memref sig .tc .vmem S1024x512 .bf16) (harg2 : arg2.IsWhole) (arg3 : Memref sig .tc .vmem S1000x512 .f32) (harg3 : arg3.IsWhole)
    (arg4 : Memref sig .tc .vmem S1024x1 .i32) (harg4 : arg4.IsWhole) (arg5 : Memref sig .tc .vmem S1x1024x1 .f32) (harg5 : arg5.IsWhole)
    (arg6 : Memref sig .tc .vmem S1x1024x1 .f32) (harg6 : arg6.IsWhole) (arg7 : Memref sig .tc .vmem S1x1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : cond0_1 i) (x0 : Vec F S1024x512 .bf16) (x1 : Vec F S1000x512 .f32) (x2 : Vec F S1024x1 .i32)
    (xs0 xs1 xs2 : Vec F S1024x1 .f32) :
    out0_C_4 c i arg2 harg2 arg3 harg3 arg4 harg4 arg5 harg5 arg6 harg6 arg7 harg7 arg8 harg8 arg9 harg9 arg10 harg10 hc0 hc1 x0 x1 x2 xs0 xs1 xs2 = k0_pay5 (k0_pay1 (k0_pay14 x0 x1 xs0 xs0) (k0_pay15 x0 x1 xs0) xs1) := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 xs0 xs1 xs2)]
  unfold kernelRun0_C; dsimp only; sl_unfold_words
  rw [View.canon_cons_unit_zero (S := S1x1024x1) zeros3]
  simp only [View.readAt_eq_ld, harg2.read_unread, harg3.read_unread, harg4.read_unread, harg8.read_unread, harg9.read_unread, harg10.read_unread,
    View.ld_unit_zero (S := S1024x512) zeros2, View.ld_unit_zero (S := S1000x512) zeros2, View.ld_unit_zero (S := S1024x1) zeros2,
    View.readCov_unit_zero (S := S1024x1) _ zeros2]

/-- What output 2's block holds after the last tile of a half: the target cosine vector just written, reshaped. -/
theorem oread0_C_5 (c : Dev nD) (i : grid0.Coords)
    (arg2 : Memref sig .tc .vmem S1024x512 .bf16) (harg2 : arg2.IsWhole) (arg3 : Memref sig .tc .vmem S1000x512 .f32) (harg3 : arg3.IsWhole)
    (arg4 : Memref sig .tc .vmem S1024x1 .i32) (harg4 : arg4.IsWhole) (arg5 : Memref sig .tc .vmem S1x1024x1 .f32) (harg5 : arg5.IsWhole)
    (arg6 : Memref sig .tc .vmem S1x1024x1 .f32) (harg6 : arg6.IsWhole) (arg7 : Memref sig .tc .vmem S1x1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole)
    (hc0 : ¬cond0_0 i) (hc1 : cond0_1 i) (x0 : Vec F S1024x512 .bf16) (x1 : Vec F S1000x512 .f32) (x2 : Vec F S1024x1 .i32)
    (xs0 xs1 xs2 : Vec F S1024x1 .f32) :
    out0_C_5 c i arg2 harg2 arg3 harg3 arg4 harg4 arg5 harg5 arg6 harg6 arg7 harg7 arg8 harg8 arg9 harg9 arg10 harg10 hc0 hc1 x0 x1 x2 xs0 xs1 xs2 = k0_pay6 (k0_pay3 (k0_pay10 x0 x1) (k0_pay12 i) x2 xs2) := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 xs0 xs1 xs2)]
  unfold kernelRun0_C; dsimp only; sl_unfold_words
  rw [View.canon_cons_unit_zero (S := S1x1024x1) zeros3]
  simp only [View.readAt_eq_ld, harg2.read_unread, harg3.read_unread, harg4.read_unread, harg8.read_unread, harg9.read_unread, harg10.read_unread,
    View.ld_unit_zero (S := S1024x512) zeros2, View.ld_unit_zero (S := S1000x512) zeros2, View.ld_unit_zero (S := S1024x1) zeros2,
    View.readCov_unit_zero (S := S1024x1) _ zeros2]

end Cert.KernelIdeal.Fr

end
-- ==== Proof.Spec.lean ====
/-
  The two formulas this certificate joins, over plain index types and the extended reals.

  Rows n < 1024 are samples, columns c < 100000 classes, d < 512 features. Both programs divide each row of
  the features X and of the weights W by the larger of its Euclidean norm and a small constant, take the inner
  products of the normalised rows, and clip them to [-1, 1]: the cosines `cosv X W n c`.

  The reference (`Rform`) replaces, in row n, the cosine at the label column y n by its margin form, scales by
  64, takes the log-softmax of the row (shifted by the row maximum), reads it at the label column, negates it
  and averages over the rows.

  The kernel (`Kform`) walks each half of the columns in 50 tiles of 1000, keeping per row a running maximum m
  of the scaled cosines, the sum l of exp (scaled cosine - m) rescaled whenever m grows, and the sum t of the
  cosines at columns equal to the label (`tileStep`, `halfState`). Afterwards (`epi`) it merges the two
  halves, takes the margin form of the one cosine the label selected, exchanges that column's term in the
  exponential sum, and forms the same negated log-probability, averaged over the rows.
-/
import Idealize.ShloMosaic.PureOps.Ideal

noncomputable section

open scoped BigOperators

namespace Cert.ArcSpec

open Idealize.ShloMosaic

/-- A 32-bit float word read as an extended real. -/
abbrev lit (b : BitVec 32) : EReal := Ideal.ofBits .f32 b

/-- A row divided by the larger of its Euclidean norm and the constant 0x2B8CBCCC (about 1e-12). -/
def unit {R : Type} (X : R → Fin 512 → EReal) (r : R) (d : Fin 512) : EReal :=
  Ideal.div (X r d) (max (Ideal.sqrt (∑ k : Fin 512, X r k * X r k)) (lit 0x2B8CBCCC#32))

/-- The clipped cosine of sample n and class c. -/
def cosv (X : Fin 1024 → Fin 512 → EReal) (W : Fin 100000 → Fin 512 → EReal) (n : Fin 1024) (c : Fin 100000) : EReal :=
  min (lit 0x3F800000#32) (max (lit 0xBF800000#32) (∑ d : Fin 512, unit X n d * unit W c d))

/-- The margin form of a cosine x given its sine s: x cos(1/2) - s sin(1/2) where x exceeds -cos(1/2), else
    x - s/2 (the constants are the programs' words). -/
def marg (s x : EReal) : EReal :=
  if Ideal.cmp .ogt x (lit 0xBF60A940#32) = 1#1 then x * lit 0x3F60A940#32 - s * lit 0x3EF57744#32
  else x - s * lit 0x3F000000#32

/-- The reference's sine: sqrt (1 - x² + 1e-5). -/
def sinR (x : EReal) : EReal := Ideal.sqrt (lit 0x3F800000#32 - x * x + lit 0x3727C5AC#32)

/-- The kernel's sine: sqrt (max (1 - x²) 0 + 1e-5). -/
def sinK (x : EReal) : EReal := Ideal.sqrt (max (lit 0x3F800000#32 - x * x) (lit 0x00000000#32) + lit 0x3727C5AC#32)

/-! ## The reference -/

section
variable (X : Fin 1024 → Fin 512 → EReal) (W : Fin 100000 → Fin 512 → EReal) (y : Fin 1024 → Fin 100000)

/-- One at the label column of row n, zero elsewhere. -/
def onehot (n : Fin 1024) (c : Fin 100000) : EReal := if c = y n then 1 else 0

/-- The reference's scaled logits: the margin form at the label column, the cosine elsewhere, times 64. -/
def logitsR (n : Fin 1024) (c : Fin 100000) : EReal :=
  (onehot y n c * marg (sinR (cosv X W n c)) (cosv X W n c)
    + (lit 0x3F800000#32 - onehot y n c) * cosv X W n c) * lit 0x42800000#32

/-- The row maximum the log-softmax shifts by (taken from -inf). -/
def rowMaxR (n : Fin 1024) : EReal :=
  max (lit 0xFF800000#32) (Finset.univ.sup fun c : Fin 100000 => logitsR X W y n c)

/-- The shifted logits. -/
def shiftedR (n : Fin 1024) (c : Fin 100000) : EReal := logitsR X W y n c - rowMaxR X W y n

/-- Minus the log-softmax of row n at its label column. -/
def nllR (n : Fin 1024) : EReal :=
  -(shiftedR X W y n (y n) - Ideal.log (∑ c : Fin 100000, Ideal.exp (shiftedR X W y n c)))

/-- The reference's result: the mean over the 1024 rows. -/
def Rform : EReal := Ideal.div (∑ n : Fin 1024, nllR X W y n) (lit 0x44800000#32)

end

/-! ## The kernel -/

/-- The class that lane k of tile j of half h looks at. -/
def col (h : Fin 2) (j : Fin 50) (k : Fin 1000) : Fin 100000 :=
  ⟨50000 * h.val + 1000 * j.val + k.val, by have := h.isLt; have := j.isLt; have := k.isLt; omega⟩

/-- One tile's update of a row's state (m, l, t) from the tile's 1000 cosines `cs` and the lanes `hit` whose class
    is the row's label. -/
def tileStep (cs : Fin 1000 → EReal) (hit : Fin 1000 → Prop) [DecidablePred hit] (s : EReal × EReal × EReal) :
    EReal × EReal × EReal :=
  (max s.1 (Finset.univ.sup fun k : Fin 1000 => cs k * lit 0x42800000#32),
   Ideal.exp (s.1 - max s.1 (Finset.univ.sup fun k : Fin 1000 => cs k * lit 0x42800000#32)) * s.2.1
     + ∑ k : Fin 1000, Ideal.exp (cs k * lit 0x42800000#32 - max s.1 (Finset.univ.sup fun k : Fin 1000 => cs k * lit 0x42800000#32)),
   s.2.2 + ∑ k : Fin 1000, if hit k then cs k else lit 0x00000000#32)

section
variable (X : Fin 1024 → Fin 512 → EReal) (W : Fin 100000 → Fin 512 → EReal) (y : Fin 1024 → Fin 100000)

/-- Row n's state in half h after the first j tiles (from (-inf, 0, 0); tiles beyond the 50th change nothing). -/
def halfState (h : Fin 2) (n : Fin 1024) : ℕ → EReal × EReal × EReal
  | 0 => (lit 0xFF800000#32, lit 0x00000000#32, lit 0x00000000#32)
  | j + 1 =>
    if hj : j < 50 then
      tileStep (fun k => cosv X W n (col h ⟨j, hj⟩ k)) (fun k => col h ⟨j, hj⟩ k = y n) (halfState h n j)
    else halfState h n j

/-- The epilogue on one row: the two halves' states merged, the label's cosine t0 + t1 given its margin, that
    column's term exchanged in the exponential sum, and minus the log-probability formed. -/
def epi (s0 s1 : EReal × EReal × EReal) : EReal :=
  let mm := max s0.1 s1.1
  let l := s0.2.1 * Ideal.exp (s0.1 - mm) + s1.2.1 * Ideal.exp (s1.1 - mm)
  let ct := s0.2.2 + s1.2.2
  let tl := marg (sinK ct) ct
  let raw := ct * lit 0x42800000#32
  let cor := tl * lit 0x42800000#32
  let lf := l - Ideal.exp (raw - mm) + Ideal.exp (cor - mm);
  -(cor - (mm + Ideal.log lf))

/-- The kernel's result: the mean over the rows of the epilogue at the two halves' final states. -/
def Kform : EReal :=
  Ideal.div (∑ n : Fin 1024, epi (halfState X W y 0 n 50) (halfState X W y 1 n 50)) (lit 0x44800000#32)

end

end Cert.ArcSpec

end
-- ==== Proof.KI.TileVal.lean ====
/-
  One grid point's arithmetic, read at a row. At the extended reals the kernel body's payload terms, read at row n
  of the three per-row scratch vectors, are exactly `tileStep` of the row's 1000 clipped cosines against the tile's
  weight rows: the new maximum, the rescaled exponential sum plus the tile's exponentials, and the label sum plus the
  cosines at the lanes whose class word equals the row's label word.
-/
import proofs.«431442_j45981919871044_3_alg».proof.Proof.Gen.KernelIdeal.Skeleton
import proofs.«431442_j45981919871044_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Val

open Cert.KernelIdeal Cert.KernelIdeal.Gen Cert.ArcSpec Idealize.ShloMosaic Idealize.ShloMosaic.ValueIdx

/-! ## Layout operations at explicit coordinates -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The lane reductions -/

/-- The sum over the 1000 lanes of a row. -/
theorem laneSum_apply (src : FVec Ideal S1024x1000 .f32) (hφ : FKind.Formats .f32)
    (hacc : (0x00000000#32 : BitVec 32) = 0x00000000#32) (n : Fin 1024) :
    multiReduction (F := Ideal) .add [1] S1024 src 0x00000000#32 reduces_S1024x1000_S1024 hφ hacc (ix1 n)
      = ∑ k : Fin 1000, src (ix2 n k) :=
  (Ideal.multiReduction_add_single src 0x00000000#32 reduces_S1024x1000_S1024 hφ hacc (ix1 n)).trans
    (Finset.sum_congr rfl fun k _ => congrArg src (funext fun a => Fin.ext (by
      match a with
      | ⟨0, _⟩ => rfl
      | ⟨1, _⟩ => rfl)))

/-- The sum over the 512 features of a weight row. -/
theorem featSum_apply (src : FVec Ideal S1000x512 .f32) (hφ : FKind.Formats .f32)
    (hacc : (0x00000000#32 : BitVec 32) = 0x00000000#32) (r : Fin 1000) :
    multiReduction (F := Ideal) .add [1] S1000 src 0x00000000#32 reduces_S1000x512_S1000 hφ hacc (ix1 r)
      = ∑ e : Fin 512, src (ix2 r e) :=
  (Ideal.multiReduction_add_single src 0x00000000#32 reduces_S1000x512_S1000 hφ hacc (ix1 r)).trans
    (Finset.sum_congr rfl fun k _ => congrArg src (funext fun a => Fin.ext (by
      match a with
      | ⟨0, _⟩ => rfl
      | ⟨1, _⟩ => rfl)))

/-- The maximum over the 1000 lanes of a row, taken from -inf, is the supremum of the lanes. -/
theorem laneMax_apply (src : FVec Ideal S1024x1000 .f32) (hφ : FKind.Formats .f32)
    (hacc : (0xFF800000#32 : BitVec 32) = 0xFF800000#32) (n : Fin 1024) :
    multiReduction (F := Ideal) .maximumf [1] S1024 src 0xFF800000#32 reduces_S1024x1000_S1024 hφ hacc (ix1 n)
      = Finset.univ.sup fun k : Fin 1000 => src (ix2 n k) := by
  refine (Ideal.multiReduction_maximumf_single src 0xFF800000#32 reduces_S1024x1000_S1024 hφ hacc (ix1 n)).trans ?_
  have hb : (FloatOps.ofBits (F := Ideal) .f32 0xFF800000#32) = (⊥ : EReal) := by
    show Ideal.ofBits .f32 0xFF800000#32 = ⊥
    simp [Ideal.ofBits, Ideal.ieee]
  rw [hb]
  have hf : (src ∘ reduces_S1024x1000_S1024.lift (ix1 n)) = fun k : Fin 1000 => src (ix2 n k) :=
    funext fun k => congrArg src (funext fun a => Fin.ext (by
      match a with
      | ⟨0, _⟩ => rfl
      | ⟨1, _⟩ => rfl))
  rw [hf]
  rfl

/-! ## The matrix product into a zero accumulator -/

theorem lhs_mm_0 (i : S1024x1000.Idx) (q : dot_S1024x512_S1000x512_S1024x1000_1_1_0_0_n_n.contr.Idx) :
    (dot_S1024x512_S1000x512_S1024x1000_1_1_0_0_n_n.lhsIdx i q 0).val = (i 0).val := by
  unfold DotDims.lhsIdx
  rw [dif_neg (show ¬(0 : Fin S1024x512.rank) ∈ dot_S1024x512_S1000x512_S1024x1000_1_1_0_0_n_n.lhsBatch by decide), dif_pos (show (0 : Fin S1024x512.rank) ∈ dot_S1024x512_S1000x512_S1024x1000_1_1_0_0_n_n.lhsNonContracting by decide)]
  rfl
theorem lhs_mm_1 (i : S1024x1000.Idx) (q : dot_S1024x512_S1000x512_S1024x1000_1_1_0_0_n_n.contr.Idx) :
    (dot_S1024x512_S1000x512_S1024x1000_1_1_0_0_n_n.lhsIdx i q 1).val = (q ⟨0, by decide⟩).val :=
  dot_S1024x512_S1000x512_S1024x1000_1_1_0_0_n_n.lhsIdx_val_of_single rfl i q
theorem rhs_mm_0 (i : S1024x1000.Idx) (q : dot_S1024x512_S1000x512_S1024x1000_1_1_0_0_n_n.contr.Idx) :
    (dot_S1024x512_S1000x512_S1024x1000_1_1_0_0_n_n.rhsIdx i q 0).val = (i 1).val := by
  unfold DotDims.rhsIdx
  rw [dif_neg (show ¬(0 : Fin S1000x512.rank) ∈ dot_S1024x512_S1000x512_S1024x1000_1_1_0_0_n_n.rhsBatch by decide), dif_pos (show (0 : Fin S1000x512.rank) ∈ dot_S1024x512_S1000x512_S1024x1000_1_1_0_0_n_n.rhsNonContracting by decide)]
  rfl
theorem rhs_mm_1 (i : S1024x1000.Idx) (q : dot_S1024x512_S1000x512_S1024x1000_1_1_0_0_n_n.contr.Idx) :
    (dot_S1024x512_S1000x512_S1024x1000_1_1_0_0_n_n.rhsIdx i q 1).val = (q ⟨0, by decide⟩).val :=
  dot_S1024x512_S1000x512_S1024x1000_1_1_0_0_n_n.rhsIdx_val_of_single rfl i q

/-- Entry (n, k) of the product of the feature block with the transposed weight block is the inner product of feature
    row n and weight row k. -/
theorem matmul_entry (lhs : FVec Ideal S1024x512 .bf16) (rhs : FVec Ideal S1000x512 .bf16) (n : Fin 1024) (k : Fin 1000) :
    matmul dot_S1024x512_S1000x512_S1024x1000_1_1_0_0_n_n none lhs rhs (constant (F := Ideal) S1024x1000 .f32 0x00000000#32) (ix2 n k)
      = ∑ d : Fin 512, lhs (ix2 n d) * rhs (ix2 k d) := by
  simp only [matmul]
  rw [Ideal.matmul_constant_zero_apply, ← Equiv.sum_comp (contrEquiv1 dot_S1024x512_S1000x512_S1024x1000_1_1_0_0_n_n 512 rfl rfl).symm]
  refine Finset.sum_congr rfl fun d _ => ?_
  have hk := contrEquiv1_symm_val dot_S1024x512_S1000x512_S1024x1000_1_1_0_0_n_n 512 rfl rfl d
  have el : dot_S1024x512_S1000x512_S1024x1000_1_1_0_0_n_n.lhsIdx (ix2 n k) ((contrEquiv1 dot_S1024x512_S1000x512_S1024x1000_1_1_0_0_n_n 512 rfl rfl).symm d) = ix2 n d := funext fun a => Fin.ext (by
    match a with
    | ⟨0, _⟩ => exact lhs_mm_0 _ _
    | ⟨1, _⟩ => exact (lhs_mm_1 _ _).trans hk)
  have er : dot_S1024x512_S1000x512_S1024x1000_1_1_0_0_n_n.rhsIdx (ix2 n k) ((contrEquiv1 dot_S1024x512_S1000x512_S1024x1000_1_1_0_0_n_n 512 rfl rfl).symm d) = ix2 k d := funext fun a => Fin.ext (by
    match a with
    | ⟨0, _⟩ => exact rhs_mm_0 _ _
    | ⟨1, _⟩ => exact (rhs_mm_1 _ _).trans hk)
  rw [el, er]

/-! ## Pointwise operations at an index -/

section Pointwise
variable {s : Shape} {φ : FTy}
theorem sqrt_apply (a : FVec Ideal s φ) (i : s.Idx) : sqrt a i = Ideal.sqrt (a i) := rfl
theorem exp_apply (a : FVec Ideal s φ) (i : s.Idx) : exp a i = Ideal.exp (a i) := rfl
theorem cmpi_apply {w : ℕ} (p : CmpIPredicate) (a b : IVec s w) (i : s.Idx) : cmpi p a b i = IntOp.cmpi p (a i) (b i) := rfl
theorem addi_apply {w : ℕ} (a b : IVec s w) (i : s.Idx) : addi a b i = a i + b i := rfl
theorem ofBits_ideal (b : BitVec φ.bits) : Scalar.ofBits (F := Ideal) φ b = Ideal.ofBits φ b := rfl
end Pointwise

/-! ## The cosines -/

/-- Row n's clipped cosines against the tile's rows: the host-normalised feature row times each weight row divided by
    its clamped norm. -/
def tileCos (x0 : Vec Ideal S1024x512 .bf16) (x1 : Vec Ideal S1000x512 .f32) (n : Fin 1024) (k : Fin 1000) : EReal :=
  min (lit 0x3F800000#32) (max (lit 0xBF800000#32)
    (∑ d : Fin 512, x0 (ix2 n d) * unit (fun (r : Fin 1000) (e : Fin 512) => x1 (ix2 r e)) k d))

theorem pay10_apply (x0 : Vec Ideal S1024x512 .bf16) (x1 : Vec Ideal S1000x512 .f32) (n : Fin 1024) (k : Fin 1000) :
    k0_pay10 (F := Ideal) x0 x1 (ix2 n k) = tileCos x0 x1 n k := by
  unfold k0_pay10 tileCos Cert.ArcSpec.unit
  simp only [minimumf_apply, maximumf_apply, broadcast_apply, shapeCast_self, matmul_entry, truncf_apply, divf_apply,
    broadcastTo_a1_ab_apply, sqrt_apply, shapeCast_a_a1_apply, ofBits_ideal]
  rw [featSum_apply]
  rfl

/-- The scaled cosines. -/
theorem pay11_apply (x0 : Vec Ideal S1024x512 .bf16) (x1 : Vec Ideal S1000x512 .f32) (n : Fin 1024) (k : Fin 1000) :
    k0_pay11 (F := Ideal) x0 x1 (ix2 n k) = tileCos x0 x1 n k * lit 0x42800000#32 := by
  unfold k0_pay11
  simp only [mulf_apply, broadcast_apply, pay10_apply, ofBits_ideal]

/-- The new running maximum of row n. -/
theorem pay13_apply (x0 : Vec Ideal S1024x512 .bf16) (x1 : Vec Ideal S1000x512 .f32) (ms : Vec Ideal S1024x1 .f32)
    (n : Fin 1024) (u : Fin 1) :
    k0_pay13 (F := Ideal) x0 x1 ms (ix2 n u)
      = max (ms (ix2 n u)) (Finset.univ.sup fun k : Fin 1000 => tileCos x0 x1 n k * lit 0x42800000#32) := by
  unfold k0_pay13
  show max (ms (ix2 n u)) _ = _
  rw [shapeCast_a_a1_apply, laneMax_apply]
  exact congrArg (max (ms (ix2 n u))) (congrArg Finset.univ.sup (funext fun k => pay11_apply x0 x1 n k))

/-- The factor that rescales row n's old exponential sum. -/
theorem pay14_apply (x0 : Vec Ideal S1024x512 .bf16) (x1 : Vec Ideal S1000x512 .f32) (ms ms' : Vec Ideal S1024x1 .f32)
    (n : Fin 1024) (u : Fin 1) :
    k0_pay14 (F := Ideal) x0 x1 ms ms' (ix2 n u)
      = Ideal.exp (ms' (ix2 n u)
          - max (ms (ix2 n u)) (Finset.univ.sup fun k : Fin 1000 => tileCos x0 x1 n k * lit 0x42800000#32)) := by
  unfold k0_pay14
  show Ideal.exp (ms' (ix2 n u) - k0_pay13 (F := Ideal) x0 x1 ms (ix2 n u)) = _
  rw [pay13_apply]

/-- The tile's exponentials against the new maximum. -/
theorem pay15_apply (x0 : Vec Ideal S1024x512 .bf16) (x1 : Vec Ideal S1000x512 .f32) (ms : Vec Ideal S1024x1 .f32)
    (n : Fin 1024) (k : Fin 1000) :
    k0_pay15 (F := Ideal) x0 x1 ms (ix2 n k)
      = Ideal.exp (tileCos x0 x1 n k * lit 0x42800000#32
          - max (ms (ix2 n (0 : Fin 1))) (Finset.univ.sup fun k : Fin 1000 => tileCos x0 x1 n k * lit 0x42800000#32)) := by
  unfold k0_pay15
  show Ideal.exp (k0_pay11 (F := Ideal) x0 x1 (ix2 n k)
    - broadcastTo S1024x1000 (k0_pay13 (F := Ideal) x0 x1 ms) broadcasts_S1024x1_S1024x1000 (ix2 n k)) = _
  rw [broadcastTo_a1_ab_apply, pay11_apply, pay13_apply]

/-- The stored maximum is the value itself. -/
theorem pay2_apply (v : FVec Ideal S1024x1 .f32) (j : S1024x1.Idx) : k0_pay2 (F := Ideal) v j = v j := by
  unfold k0_pay2
  rw [shapeCast_self]

/-- The stored exponential sum: factor times old sum plus the lane sum. -/
theorem pay1_apply (v34 : FVec Ideal S1024x1 .f32) (v37 : FVec Ideal S1024x1000 .f32) (v38 : Vec Ideal S1024x1 .f32)
    (n : Fin 1024) (u : Fin 1) :
    k0_pay1 (F := Ideal) v34 v37 v38 (ix2 n u) = v34 (ix2 n u) * v38 (ix2 n u) + ∑ k : Fin 1000, v37 (ix2 n k) := by
  unfold k0_pay1
  rw [shapeCast_self]
  show v34 (ix2 n u) * v38 (ix2 n u) + shapeCast S1024x1 _ shapeCasts_S1024_S1024x1 (ix2 n u) = _
  rw [shapeCast_a_a1_apply, laneSum_apply]

/-- The class word of lane k at grid point i. -/
theorem pay12_apply (i : grid0.Coords) (n : Fin 1024) (k : Fin 1000) :
    k0_pay12 i (ix2 n k) = BitVec.ofNat 32 (50000 * (i 0).val + 1000 * (i 1).val + k.val) := by
  unfold k0_pay12
  show (BitVec.ofNat 32 (i 0).val * 50000#32 + BitVec.ofNat 32 (i 1).val * 1000#32) + BitVec.ofNat 32 (0 * 1000 + k.val) = _
  apply BitVec.eq_of_toNat_eq
  simp only [BitVec.toNat_add, BitVec.toNat_mul, BitVec.toNat_ofNat]
  omega

/-- A select on an equality test of two words is an if on their equality. -/
theorem select_cmpi_eq {α : Type} (a b : BitVec 32) (x y : α) :
    Scalar.select (IntOp.cmpi .eq a b) x y = if a = b then x else y := by
  unfold Scalar.select IntOp.cmpi
  by_cases h : a = b
  · subst h; simp
  · have hb : (a == b) = false := beq_eq_false_iff_ne.2 h
    simp [h, hb]

/-- The stored label sum: old sum plus the cosines at the lanes whose class word is the row's label word. -/
theorem pay3_apply (i : grid0.Coords) (x0 : Vec Ideal S1024x512 .bf16) (x1 : Vec Ideal S1000x512 .f32)
    (x2 : Vec Ideal S1024x1 .i32) (ts : Vec Ideal S1024x1 .f32) (n : Fin 1024) (u : Fin 1) :
    k0_pay3 (F := Ideal) (k0_pay10 x0 x1) (k0_pay12 i) x2 ts (ix2 n u)
      = ts (ix2 n u) + ∑ k : Fin 1000,
          if BitVec.ofNat 32 (50000 * (i 0).val + 1000 * (i 1).val + k.val) = x2 (ix2 n (0 : Fin 1))
          then tileCos x0 x1 n k else lit 0x00000000#32 := by
  unfold k0_pay3
  rw [shapeCast_self, shapeCast_self]
  show ts (ix2 n u) + shapeCast S1024x1 _ shapeCasts_S1024_S1024x1 (ix2 n u) = _
  rw [shapeCast_a_a1_apply, laneSum_apply]
  refine congrArg (ts (ix2 n u) + ·) (Finset.sum_congr rfl fun k _ => ?_)
  show Scalar.select (IntOp.cmpi .eq (k0_pay12 i (ix2 n k))
      (broadcastTo S1024x1000 x2 broadcasts_S1024x1_S1024x1000 (ix2 n k)))
    (k0_pay10 (F := Ideal) x0 x1 (ix2 n k)) (lit 0x00000000#32) = _
  rw [broadcastTo_a1_ab_apply, pay12_apply, pay10_apply, select_cmpi_eq]

/-! ## The step -/

theorem step_apply (i : grid0.Coords) (x0 : Vec Ideal S1024x512 .bf16) (x1 : Vec Ideal S1000x512 .f32)
    (x2 : Vec Ideal S1024x1 .i32) (ms ls ts : Vec Ideal S1024x1 .f32) (n : Fin 1024) :
    (k0_pay2 (F := Ideal) (k0_pay13 x0 x1 ms) (ix2 n (0 : Fin 1)),
     k0_pay1 (F := Ideal) (k0_pay14 x0 x1 ms ms) (k0_pay15 x0 x1 ms) ls (ix2 n (0 : Fin 1)),
     k0_pay3 (F := Ideal) (k0_pay10 x0 x1) (k0_pay12 i) x2 ts (ix2 n (0 : Fin 1)))
      = tileStep (tileCos x0 x1 n)
          (fun k : Fin 1000 => BitVec.ofNat 32 (50000 * (i 0).val + 1000 * (i 1).val + k.val) = x2 (ix2 n (0 : Fin 1)))
          (ms (ix2 n (0 : Fin 1)), ls (ix2 n (0 : Fin 1)), ts (ix2 n (0 : Fin 1))) := by
  rw [pay2_apply, pay13_apply, pay1_apply, pay14_apply, pay3_apply]
  simp only [pay15_apply]
  rfl

/-! ## The reset and copy-out payloads -/

theorem pay7_apply (j : S1024x1.Idx) : k0_pay7 (F := Ideal) j = lit 0xFF800000#32 := by
  unfold k0_pay7
  rw [shapeCast_self]
  rfl
theorem pay8_apply (j : S1024x1.Idx) : k0_pay8 (F := Ideal) j = lit 0x00000000#32 := by
  unfold k0_pay8
  rw [shapeCast_self]
  rfl
theorem pay9_apply (j : S1024x1.Idx) : k0_pay9 (F := Ideal) j = lit 0x00000000#32 := by
  unfold k0_pay9
  rw [shapeCast_self]
  rfl

theorem pay4_apply (v : Vec Ideal S1024x1 .f32) (u : Fin 1) (n : Fin 1024) (w : Fin 1) :
    k0_pay4 (F := Ideal) v (ix3 u n w) = v (ix2 n w) := by
  unfold k0_pay4
  exact shapeCast_ab_1ab_apply v _ u n w
theorem pay5_apply (v : Vec Ideal S1024x1 .f32) (u : Fin 1) (n : Fin 1024) (w : Fin 1) :
    k0_pay5 (F := Ideal) v (ix3 u n w) = v (ix2 n w) := by
  unfold k0_pay5
  exact shapeCast_ab_1ab_apply v _ u n w
theorem pay6_apply (v : Vec Ideal S1024x1 .f32) (u : Fin 1) (n : Fin 1024) (w : Fin 1) :
    k0_pay6 (F := Ideal) v (ix3 u n w) = v (ix2 n w) := by
  unfold k0_pay6
  exact shapeCast_ab_1ab_apply v _ u n w

end Cert.KernelIdeal.Val

end
-- ==== Proof.Args.lean ====
/-
  From the programs' argument arrays to the formulas' inputs: the features [8, 128, 512] read as 1024 rows
  (row n is sample (n / 128, n % 128), the row-major reshape), the weights [100000, 512] as they are, and each
  label word, when it is below 100000 as an unsigned number (equivalently: between 0 and 99999 as a signed one), as
  a class index.
-/
import proofs.«431442_j45981919871044_3_alg».proof.Proof.Spec
import Idealize.ShloMosaic.Lib.ValueIdx

noncomputable section

namespace Cert.ArcSpec

open Idealize.ShloMosaic Idealize.ShloMosaic.ValueIdx

/-- The features as 1024 rows of 512. -/
def Xof (a0 : (⟨3, ![8, 128, 512]⟩ : Shape).Idx → EReal) : Fin 1024 → Fin 512 → EReal :=
  fun n d => a0 (ix3 (⟨n.val / 128, by have := n.isLt; omega⟩ : Fin 8) (⟨n.val % 128, Nat.mod_lt _ (by norm_num)⟩ : Fin 128) d)

/-- The weights as 100000 rows of 512. -/
def Wof (a1 : (⟨2, ![100000, 512]⟩ : Shape).Idx → EReal) : Fin 100000 → Fin 512 → EReal :=
  fun c d => a1 (ix2 c d)

/-- Every label word is a class: below 100000 read unsigned. -/
def InRange (a2 : (⟨1, ![1024]⟩ : Shape).Idx → BitVec 32) : Prop :=
  ∀ n : Fin 1024, (a2 (ix1 n)).toNat < 100000

/-- The labels as class indices (reduced mod 100000 so that the function is total; under `InRange` nothing is reduced). -/
def yof (a2 : (⟨1, ![1024]⟩ : Shape).Idx → BitVec 32) : Fin 1024 → Fin 100000 :=
  fun n => ⟨(a2 (ix1 n)).toNat % 100000, Nat.mod_lt _ (by norm_num)⟩

theorem yof_val (a2 : (⟨1, ![1024]⟩ : Shape).Idx → BitVec 32) (h : InRange a2) (n : Fin 1024) :
    (yof a2 n).val = (a2 (ix1 n)).toNat := Nat.mod_eq_of_lt (h n)

/-- Under `InRange` a label word is its class index as a 32-bit word. -/
theorem label_eq (a2 : (⟨1, ![1024]⟩ : Shape).Idx → BitVec 32) (h : InRange a2) (n : Fin 1024) :
    a2 (ix1 n) = BitVec.ofNat 32 (yof a2 n).val := by
  rw [yof_val a2 h n]
  apply BitVec.eq_of_toNat_eq
  rw [BitVec.toNat_ofNat, Nat.mod_eq_of_lt (a2 (ix1 n)).isLt]

end Cert.ArcSpec

end
-- ==== Proof.KI.HostVal.lean ====
/-
  The host operations of the kernel's program read at an index.

  Before the region: the features [8, 128, 512] are reshaped to 1024 rows of 512, each row is divided by the larger of
  its Euclidean norm and a small constant, and the quotient is converted to bf16 (the identity on extended reals); the
  labels [1024] are reshaped to a column [1024, 1]. After the region: the three result arrays [2, 1024, 1] (running
  maximum, running exponential sum, label cosine, one slab per half of the columns) are cut into their two slabs, the
  slabs are merged row by row by the epilogue formula, and the rows' values are averaged.
-/
import proofs.«431442_j45981919871044_3_alg».proof.Proof.KI.Base
import proofs.«431442_j45981919871044_3_alg».proof.Proof.Args
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run
import Mathlib.Algebra.BigOperators.Group.Finset.Defs

set_option maxRecDepth 16384

noncomputable section

namespace Cert.KernelIdeal.Val

open Cert.KernelIdeal Cert.KernelIdeal.Gen Cert.ArcSpec
open Idealize.ShloMosaic Idealize.ShloMosaic.TcCoe Idealize.ShloMosaic.ValueIdx Idealize.ShloMosaic.StableHlo
open Idealize.SL.Sem
open scoped BigOperators

/-! ## Before the region -/

/-- Row n of the features reshaped to [1024, 512] is sample (n / 128, n % 128). -/
theorem rows_apply (x0 : S8x128x512.Idx → EReal) (h : S8x128x512.ShapeCasts S1024x512) (n : Fin 1024) (d : Fin 512) :
    shapeCast S1024x512 x0 h (ix2 n d) = Xof x0 n d := by
  unfold Xof
  refine shapeCast_apply x0 h (ix2 n d) _ ?_
  rw [Shape.rowMajor_val_three, Shape.rowMajor_val_two]
  show ((n.val / 128) * 128 + n.val % 128) * 512 + d.val = n.val * 512 + d.val
  omega

/-- The operations before the region, applied to the features. -/
def head (x0 : FVec Ideal S8x128x512 .f32) : FVec Ideal S1024x512 .bf16 :=
  truncf .bf16
    (Host.divf (shapeCast S1024x512 x0 shapeCasts_S8x128x512_S1024x512)
      (broadcastInDim S1024x512 ![0, 1] bcast_S1024x1_S1024x512_0_1
        (maximumf
          (Host.sqrt (broadcastInDim S1024x1 ![0] bcast_S1024_S1024x1_0
            (Host.reduceAdd (F := Ideal)
              (mulf (shapeCast S1024x512 x0 shapeCasts_S8x128x512_S1024x512) (shapeCast S1024x512 x0 shapeCasts_S8x128x512_S1024x512))
              (constant (F := Ideal) S_ .f32 0x00000000#32) reducesTo_S1024x512_S1024_d1 h_S_)))
          (broadcastInDim S1024x1 ![] bcast_S_S1024x1 (constant (F := Ideal) S_ .f32 0x2B8CBCCC#32)))))
    bitsLt_bf16_f32

/-- The sum of squares of row n, as the host's float sum gives it. -/
theorem sumsq_apply (y : FVec Ideal S1024x512 .f32) (n : Fin 1024) :
    (Host.reduceAdd (F := Ideal) (mulf y y) (constant (F := Ideal) S_ .f32 0x00000000#32) reducesTo_S1024x512_S1024_d1 h_S_) (ix1 n)
      = ∑ k : Fin 512, y (ix2 n k) * y (ix2 n k) := by
  simp only [Host.reduceAdd, Ideal.hostReduceAdd_def]
  rw [Ideal.hostReduceAdd_single reducesTo_S1024x512_S1024_d1 (by decide)]
  rw [constant_apply, Ideal.ofBits_zero_f32, zero_add]
  refine Finset.sum_congr rfl fun k _ => ?_
  have e : (Shape.Reduces.lift (by decide : S1024x512.Reduces [1] S1024) (ix1 n) k) = ix2 n k :=
    funext fun a => Fin.ext (by match a with | ⟨0, _⟩ => rfl | ⟨1, _⟩ => rfl)
  rw [e]; rfl

/-- A column [1024, 1] broadcast along the rows reads its row's entry. -/
theorem bcol_apply (v : S1024x1.Idx → EReal) (h : S1024x1.BroadcastsInDim S1024x512 (![0, 1] : Fin 2 → Fin S1024x512.rank))
    (n : Fin 1024) (d : Fin 512) : broadcastInDim S1024x512 ![0, 1] h v (ix2 n d) = v (ix2 n 0) :=
  broadcastInDim_apply _ h v (ix2 n d) (ix2 n 0) (fun a => match a with
    | ⟨0, _⟩ => by show n.val = if (1024 : Nat) = 1 then 0 else n.val; rw [if_neg (by decide)]
    | ⟨1, _⟩ => by show 0 = if (1 : Nat) = 1 then 0 else d.val; rw [if_pos rfl])

/-- A vector [1024] viewed as a column reads the same entry. -/
theorem bkeep_apply (v : S1024.Idx → EReal) (h : S1024.BroadcastsInDim S1024x1 (![0] : Fin 1 → Fin S1024x1.rank))
    (n : Fin 1024) : broadcastInDim S1024x1 ![0] h v (ix2 n 0) = v (ix1 n) :=
  broadcastInDim_apply _ h v (ix2 n 0) (ix1 n) (fun a => match a with
    | ⟨0, _⟩ => by show n.val = if (1024 : Nat) = 1 then 0 else n.val; rw [if_neg (by decide)])

/-- A scalar broadcast to a column reads the scalar. -/
theorem bscal_apply (v : S_.Idx → EReal) (h : S_.BroadcastsInDim S1024x1 (![] : Fin 0 → Fin S1024x1.rank))
    (n : Fin 1024) : broadcastInDim S1024x1 ![] h v (ix2 n 0) = v ix0 :=
  broadcastInDim_apply _ h v (ix2 n 0) ix0 (fun a => a.elim0)

/-- Read at (n, d): the feature row n divided by the larger of its norm and the constant, at d. -/
theorem head_apply (x0 : FVec Ideal S8x128x512 .f32) (n : Fin 1024) (d : Fin 512) :
    head x0 (ix2 n d) = unit (Xof x0) n d := by
  unfold head unit
  rw [truncf_apply]
  simp only [Host.divf, Ideal.hostDivf_def]
  rw [rows_apply, bcol_apply, maximumf_apply]
  simp only [Host.sqrt, Ideal.hostUnary_sqrt_def]
  rw [bkeep_apply, sumsq_apply, bscal_apply, constant_apply]
  simp only [rows_apply]

variable (m : (ℓ : Loc nD τ sig) → Buf (Elt Ideal) ℓ)

/-- The first window's array when the region is entered: the operations before the region applied to the features. -/
theorem V_main_v9_eq (c : Dev nD) :
    (Fr.V m c main_v9 : S1024x512.Idx → EReal) = head (m ((c : Thread nD τ).loc main_arg0)) := by
  dsimp only [Fr.V, Fr.V0]
  simp only [hostOps0, List.flatten_cons, List.flatten_nil, List.append_nil]
  after_results
  rfl

/-- Read at (n, d): the feature row n, normalised, at d. -/
theorem V_main_v9_apply (c : Dev nD) (n : Fin 1024) (d : Fin 512) :
    (Fr.V m c main_v9) (ix2 n d) = unit (Xof (m ((c : Thread nD τ).loc main_arg0))) n d := by
  rw [V_main_v9_eq]; exact head_apply _ n d

/-- A vector [1024] reshaped to a column [1024, 1] reads the same entry. -/
theorem col_apply {α : Type} (v : S1024.Idx → α) (h : S1024.ShapeCasts S1024x1) (n : Fin 1024) :
    shapeCast S1024x1 v h (ix2 n 0) = v (ix1 n) := by
  refine shapeCast_apply v h (ix2 n 0) (ix1 n) ?_
  rw [Shape.rowMajor_val_one, Shape.rowMajor_val_two]
  show n.val = n.val * 1 + 0
  omega

/-- The third window's array when the region is entered: the labels as a column. -/
theorem V_main_v10_apply (c : Dev nD) (n : Fin 1024) :
    (Fr.V m c main_v10) (ix2 n 0) = (m ((c : Thread nD τ).loc main_arg2)) (ix1 n) := by
  have e : (Fr.V m c main_v10 : S1024x1.Idx → BitVec 32)
      = shapeCast S1024x1 (m ((c : Thread nD τ).loc main_arg2)) shapeCasts_S1024_S1024x1 := by
    dsimp only [Fr.V, Fr.V0]
    simp only [hostOps0, List.flatten_cons, List.flatten_nil, List.append_nil]
    after_results
    rfl
  rw [e]; exact col_apply _ _ n

/-! ## After the region -/

/-- Row n's three results (running maximum, running sum, label cosine) in half h of the columns. -/
def st (W : Valuation τ sig (Elt Ideal)) (h : Fin 2) (n : Fin 1024) : EReal × EReal × EReal :=
  ((W (Proc.devRef .tc main_v11_0)) (ix3 h n 0), (W (Proc.devRef .tc main_v11_1)) (ix3 h n 0),
    (W (Proc.devRef .tc main_v11_2)) (ix3 h n 0))

/-- Slab h of a result array [2, 1024, 1], flattened to [1024], reads the array at (h, n, 0). -/
theorem slab_apply (A : S2x1024x1.Idx → EReal) (off : Fin S2x1024x1.rank → Nat) (hs : S2x1024x1.Slices off S1x1024x1)
    (hc : S1x1024x1.ShapeCasts S1024) (h : Fin 2) (h0 : off 0 = h.val) (h1 : off 1 = 0) (h2 : off 2 = 0) (n : Fin 1024) :
    shapeCast S1024 (extractStridedSlice S1x1024x1 off A hs) hc (ix1 n) = A (ix3 h n 0) := by
  refine (shapeCast_apply _ hc (ix1 n) (ix3 0 n 0) ?_).trans ?_
  · rw [Shape.rowMajor_val_three, Shape.rowMajor_val_one]
    show (0 * 1024 + n.val) * 1 + 0 = n.val
    omega
  · refine extractStridedSlice_apply off A hs (ix3 0 n 0) (ix3 h n 0) fun a => ?_
    match a with
    | ⟨0, _⟩ => show h.val = off 0 + 0; omega
    | ⟨1, _⟩ => show n.val = off 1 + n.val; omega
    | ⟨2, _⟩ => show 0 = off 2 + 0; omega

/-- The first half's slab. -/
theorem slab0_apply (A : S2x1024x1.Idx → EReal) (hs : S2x1024x1.Slices ![0, 0, 0] S1x1024x1)
    (hc : S1x1024x1.ShapeCasts S1024) (n : Fin 1024) :
    shapeCast S1024 (extractStridedSlice S1x1024x1 ![0, 0, 0] A hs) hc (ix1 n) = A (ix3 0 n 0) :=
  slab_apply A _ hs hc 0 rfl rfl rfl n

/-- The second half's slab. -/
theorem slab1_apply (A : S2x1024x1.Idx → EReal) (hs : S2x1024x1.Slices ![1, 0, 0] S1x1024x1)
    (hc : S1x1024x1.ShapeCasts S1024) (n : Fin 1024) :
    shapeCast S1024 (extractStridedSlice S1x1024x1 ![1, 0, 0] A hs) hc (ix1 n) = A (ix3 1 n 0) :=
  slab_apply A _ hs hc 1 rfl rfl rfl n

/-- A scalar broadcast to [1024] reads the scalar. -/
theorem bvec_apply {α : Type} (v : S_.Idx → α) (h : S_.BroadcastsInDim S1024 (![] : Fin 0 → Fin S1024.rank)) (n : Fin 1024) :
    (broadcastInDim S1024 ![] h v) (ix1 n) = v ix0 :=
  broadcastInDim_apply _ h v (ix1 n) ix0 (fun a => a.elim0)

/-- A sum over the indices of a vector [1024] is the sum over its entries' numbers. -/
theorem sum_idx1 (f : S1024.Idx → EReal) : ∑ j : S1024.Idx, f j = ∑ n : Fin 1024, f (ix1 n) :=
  (Fintype.sum_equiv (⟨ix1, fun j => j 0, fun n => rfl, fun j => (eq_ix1 j).symm⟩ : Fin 1024 ≃ S1024.Idx)
    (fun n => f (ix1 n)) f (fun n => rfl)).symm

set_option maxHeartbeats 1600000 in
/-- The operations after the region, as a function of the three result arrays: the mean over the rows of the epilogue
    formula at the two halves' results. -/
theorem tail_apply (W : Valuation τ sig (Elt Ideal)) :
    StableHlo.after (List.flatten [hostOps1, hostOps1_1, hostOps1_2]) W (Proc.devRef .tc main_v67)
      = fun _ => Ideal.div (∑ n : Fin 1024, epi (st W 0 n) (st W 1 n)) (lit 0x44800000#32) := by
  simp only [hostOps1, hostOps1_1, hostOps1_2, List.flatten_cons, List.flatten_nil, List.append_nil, List.cons_append, List.nil_append]
  after_results_simp
  -- the six slabs (two halves of three arrays), named as vectors over the rows
  generalize hm0 : ((fun i => shapeCast main_v13.ty.shape (extractStridedSlice S1x1024x1 ![0, 0, 0] (W (Proc.devRef .tc main_v11_0)) slices_S2x1024x1_S1x1024x1_0_0_0) shapeCasts_S1x1024x1_S1024 i) : S1024.Idx → EReal) = M0
  generalize hm1 : ((fun i => shapeCast main_v15.ty.shape (extractStridedSlice S1x1024x1 ![1, 0, 0] (W (Proc.devRef .tc main_v11_0)) slices_S2x1024x1_S1x1024x1_1_0_0) shapeCasts_S1x1024x1_S1024 i) : S1024.Idx → EReal) = M1
  generalize hl0 : ((fun i => shapeCast main_v17.ty.shape (extractStridedSlice S1x1024x1 ![0, 0, 0] (W (Proc.devRef .tc main_v11_1)) slices_S2x1024x1_S1x1024x1_0_0_0) shapeCasts_S1x1024x1_S1024 i) : S1024.Idx → EReal) = L0
  generalize hl1 : ((fun i => shapeCast main_v19.ty.shape (extractStridedSlice S1x1024x1 ![1, 0, 0] (W (Proc.devRef .tc main_v11_1)) slices_S2x1024x1_S1x1024x1_1_0_0) shapeCasts_S1x1024x1_S1024 i) : S1024.Idx → EReal) = L1
  generalize ht0 : ((fun i => shapeCast main_v21.ty.shape (extractStridedSlice S1x1024x1 ![0, 0, 0] (W (Proc.devRef .tc main_v11_2)) slices_S2x1024x1_S1x1024x1_0_0_0) shapeCasts_S1x1024x1_S1024 i) : S1024.Idx → EReal) = T0
  generalize ht1 : ((fun i => shapeCast main_v23.ty.shape (extractStridedSlice S1x1024x1 ![1, 0, 0] (W (Proc.devRef .tc main_v11_2)) slices_S2x1024x1_S1x1024x1_1_0_0) shapeCasts_S1x1024x1_S1024 i) : S1024.Idx → EReal) = T1
  -- the quotient's numerator is the sum, from zero, of the rows' values; each row's value is read entry by entry
  funext i
  simp only [Host.divf, Ideal.hostDivf_def, constant_apply]
  congr 1
  simp only [Host.reduceAdd, Ideal.hostReduceAdd_def]
  rw [Ideal.hostReduceAdd_total reducesTo_S1024_S_d0 (fun b => b.elim0)]
  rw [constant_apply, Ideal.ofBits_zero_f32, zero_add, sum_idx1]
  refine Finset.sum_congr rfl fun n _ => ?_
  have e0 : M0 (ix1 n) = (W (Proc.devRef .tc main_v11_0)) (ix3 0 n 0) := by rw [← hm0]; exact slab0_apply _ _ _ n
  have e1 : M1 (ix1 n) = (W (Proc.devRef .tc main_v11_0)) (ix3 1 n 0) := by rw [← hm1]; exact slab1_apply _ _ _ n
  have e2 : L0 (ix1 n) = (W (Proc.devRef .tc main_v11_1)) (ix3 0 n 0) := by rw [← hl0]; exact slab0_apply _ _ _ n
  have e3 : L1 (ix1 n) = (W (Proc.devRef .tc main_v11_1)) (ix3 1 n 0) := by rw [← hl1]; exact slab1_apply _ _ _ n
  have e4 : T0 (ix1 n) = (W (Proc.devRef .tc main_v11_2)) (ix3 0 n 0) := by rw [← ht0]; exact slab0_apply _ _ _ n
  have e5 : T1 (ix1 n) = (W (Proc.devRef .tc main_v11_2)) (ix3 1 n 0) := by rw [← ht1]; exact slab1_apply _ _ _ n
  clear hm0 hm1 hl0 hl1 ht0 ht1
  -- elementwise operations read at n act on the entries; the select is the formula's case distinction
  unfold epi marg sinK st
  simp only [Host.negf, Host.log, Host.exp, Host.sqrt, Ideal.hostNegf_def, Ideal.negf_def, Ideal.hostUnary_log_def,
    Ideal.hostUnary_exp_def, Ideal.hostUnary_sqrt_def, subf_apply, addf_apply, mulf_apply, maximumf_apply,
    TRef.ofBuf, TRef.toBuf, cast_eq, select_apply, cmpf_apply, Ideal.cmpf_def, Scalar.select,
    e0, e1, e2, e3, e4, e5]
  -- the eight broadcast constants read their words
  rw [bvec_apply (constant (F := Ideal) S_ .f32 0xBF60A940#32) bcast_S_S1024 n,
    bvec_apply (constant (F := Ideal) S_ .f32 0x3F60A940#32) bcast_S_S1024 n,
    bvec_apply (constant (F := Ideal) S_ .f32 0x3F800000#32) bcast_S_S1024 n,
    bvec_apply (constant (F := Ideal) S_ .f32 0x00000000#32) bcast_S_S1024 n,
    bvec_apply (constant (F := Ideal) S_ .f32 0x3727C5AC#32) bcast_S_S1024 n,
    bvec_apply (constant (F := Ideal) S_ .f32 0x3EF57744#32) bcast_S_S1024 n,
    bvec_apply (constant (F := Ideal) S_ .f32 0x3F000000#32) bcast_S_S1024 n,
    bvec_apply (constant (F := Ideal) S_ .f32 0x42800000#32) bcast_S_S1024 n]
  simp only [constant_apply]
  rfl

end Cert.KernelIdeal.Val

end
-- ==== Proof.KI.Blocks.lean ====
/-
  Each input window's block at a grid point, element by element. Windows 0 and 2 (the features as bf16 rows, the
  labels as a column) have one block, the whole array, at every point; window 1's block at point t is rows
  1000·t … 1000·t + 999 of the weights: a block's coordinate on an axis is its index there times the block's
  size plus the coordinate inside the block.
-/
import proofs.«431442_j45981919871044_3_alg».proof.Proof.KI.Base
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The index maps, decided over the 100 grid points -/

/-- Window 0's block index is (0, 0) at every point. -/
theorem idx0_facts : ∀ t : Fin cfg0.N, win0_0.index t (0 : Fin 2) = 0 ∧ win0_0.index t (1 : Fin 2) = 0 :=
  (by decide +kernel : ∀ t : Fin grid0.N, _)

/-- Window 1's block index at point t = 50·i₀ + i₁ is (t, 0). -/
theorem idx1_facts : ∀ t : Fin cfg0.N, win0_1.index t (0 : Fin 2) = t.val ∧ win0_1.index t (1 : Fin 2) = 0 :=
  (by decide +kernel : ∀ t : Fin grid0.N, _)

/-- Window 2's block index is (0, 0) at every point. -/
theorem idx2_facts : ∀ t : Fin cfg0.N, win0_2.index t (0 : Fin 2) = 0 ∧ win0_2.index t (1 : Fin 2) = 0 :=
  (by decide +kernel : ∀ t : Fin grid0.N, _)

/-! ## The blocks, read -/

/-- Window 0's block is the whole bf16 feature array at every point. -/
theorem iblk0_apply (c : Dev nD) (t : Fin cfg0.N) (n : Fin 1024) (d : Fin 512) :
    iblk m c 0 t (ix2 n d) = V m c main_v9 (ix2 n d) := by
  obtain ⟨e0, e1⟩ := idx0_facts t
  unfold iblk
  show V m c main_v9 (((cfg0.win 0).blk t).view.emb (ix2 n d)) = V m c main_v9 (ix2 n d)
  refine congrArg _ ?_
  funext a; apply Fin.ext
  match a with
  | ⟨0, _⟩ => show win0_0.index t (0 : Fin 2) * 1024 + 1 * n.val = n.val; omega
  | ⟨1, _⟩ => show win0_0.index t (1 : Fin 2) * 512 + 1 * d.val = d.val; omega

/-- Window 1's block at point t is rows 1000·t … 1000·t + 999 of the weights. -/
theorem iblk1_apply (c : Dev nD) (t : Fin cfg0.N) (k : Fin 1000) (d : Fin 512) :
    iblk m c 1 t (ix2 k d) = V m c main_arg1 (ix2 (⟨1000 * t.val + k.val, by have := t.isLt; have := k.isLt; have hN : cfg0.N = 100 := N_0; omega⟩ : Fin 100000) d) := by
  obtain ⟨e0, e1⟩ := idx1_facts t
  unfold iblk
  show V m c main_arg1 (((cfg0.win 1).blk t).view.emb (ix2 k d)) = V m c main_arg1 _
  refine congrArg _ ?_
  funext a; apply Fin.ext
  match a with
  | ⟨0, _⟩ => show win0_1.index t (0 : Fin 2) * 1000 + 1 * k.val = 1000 * t.val + k.val; omega
  | ⟨1, _⟩ => show win0_1.index t (1 : Fin 2) * 512 + 1 * d.val = d.val; omega

/-- Window 2's block is the whole label column at every point. -/
theorem iblk2_apply (c : Dev nD) (t : Fin cfg0.N) (n : Fin 1024) :
    iblk m c 2 t (ix2 n 0) = V m c main_v10 (ix2 n 0) := by
  obtain ⟨e0, e1⟩ := idx2_facts t
  unfold iblk
  show V m c main_v10 (((cfg0.win 2).blk t).view.emb (ix2 n 0)) = V m c main_v10 (ix2 n 0)
  refine congrArg _ ?_
  funext a; apply Fin.ext
  match a with
  | ⟨0, _⟩ => show win0_2.index t (0 : Fin 2) * 1024 + 1 * n.val = n.val; omega
  | ⟨1, _⟩ => show win0_2.index t (1 : Fin 2) * 1 + 1 * (0 : Fin 1).val = (0 : Fin 1).val; omega

end Cert.KernelIdeal.Fr

end
-- ==== Proof.MathHalf.lean ====
/-
  A half's running state after its 50 tiles, in closed form. With the row's cosines real numbers cr c, the state
  (m, l, t) that `halfState` reaches after all 50 tiles of half h is: m the largest scaled cosine 64 * cr c over the
  half's classes, l the sum over the half of exp (64 * cr c - m), and t the cosine at the label if the label lies in
  the half and 0 otherwise. (Each tile's update multiplies the old sum by exp (m_old - m_new), which turns every
  earlier term exp (x - m_old) into exp (x - m_new); from the start value -inf that factor is exp (-inf) = 0 against a
  sum that is still 0.)
-/
import proofs.«431442_j45981919871044_3_alg».proof.Proof.Spec

noncomputable section

open scoped BigOperators

namespace Cert.ArcSpec

open Idealize.ShloMosaic

/-! ## The programs' constants as extended reals -/

/-- The word 0x3F800000 is 1. -/
theorem lit_one : lit 0x3F800000#32 = 1 := by
  simp [lit, Ideal.ofBits, Ideal.ieee, -EReal.coe_mul]; norm_num

/-- The word 0xBF800000 is -1. -/
theorem lit_neg_one : lit 0xBF800000#32 = -1 := by
  simp [lit, Ideal.ofBits, Ideal.ieee, -EReal.coe_mul]; norm_num

/-- The word 0x42800000 is 64. -/
theorem lit_64 : lit 0x42800000#32 = ((64 : ℝ) : EReal) := by
  simp [lit, Ideal.ofBits, Ideal.ieee, -EReal.coe_mul]; norm_num

/-- The word 0x00000000 is 0. -/
theorem lit_zero : lit 0x00000000#32 = 0 := by
  simp [lit, Ideal.ofBits, Ideal.ieee]

/-- The word 0xFF800000 is -inf. -/
theorem lit_neg_inf : lit 0xFF800000#32 = ⊥ := by
  simp [lit, Ideal.ofBits, Ideal.ieee]

/-- Clipping any extended real to [-1, 1] gives a real number in that interval. -/
theorem clip_real (s : EReal) : ∃ r : ℝ, min (1 : EReal) (max (-1) s) = ((r : ℝ) : EReal) ∧ -1 ≤ r ∧ r ≤ 1 := by
  induction s using EReal.rec with
  | bot =>
    have h : (-1 : EReal) ≤ 1 := by
      have : ((-1 : ℝ) : EReal) ≤ ((1 : ℝ) : EReal) := EReal.coe_le_coe_iff.2 (by norm_num)
      simpa using this
    exact ⟨-1, by simp [h], le_refl _, by norm_num⟩
  | top => exact ⟨1, by simp, by norm_num, le_refl _⟩
  | coe x =>
    refine ⟨min 1 (max (-1) x), ?_, ?_, ?_⟩
    · push_cast; rfl
    · exact le_min (by norm_num) (le_max_left _ _)
    · exact min_le_left _ _

/-- The coercion of a finite real sum is the sum of the coercions. -/
theorem coe_sum_fin {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The coercion of the larger of two reals is the larger of the coercions. -/
theorem coe_max_real (a b : ℝ) : ((max a b : ℝ) : EReal) = max (a : EReal) (b : EReal) :=
  EReal.coe_strictMono.monotone.map_max

/-- The supremum of a tile's 1000 scaled cosines is a real number, an upper bound attained at some lane. -/
theorem tile_sup (c : Fin 1000 → ℝ) :
    ∃ mx : ℝ, (∀ k, 64 * c k ≤ mx) ∧ (∃ k, mx = 64 * c k) ∧
      (Finset.univ.sup fun k : Fin 1000 => ((c k : ℝ) : EReal) * lit 0x42800000#32) = ((mx : ℝ) : EReal) := by
  have hf : ∀ k : Fin 1000, ((c k : ℝ) : EReal) * lit 0x42800000#32 = ((64 * c k : ℝ) : EReal) := by
    intro k; rw [lit_64, ← EReal.coe_mul, mul_comm]
  simp only [hf]
  obtain ⟨k0, _, hk0⟩ := Finset.exists_mem_eq_sup (Finset.univ : Finset (Fin 1000)) Finset.univ_nonempty
    (fun k => ((64 * c k : ℝ) : EReal))
  refine ⟨64 * c k0, ?_, ⟨k0, rfl⟩, hk0⟩
  intro k
  have := Finset.le_sup (f := fun k => ((64 * c k : ℝ) : EReal)) (Finset.mem_univ k)
  rw [hk0] at this
  exact EReal.coe_le_coe_iff.1 this

/-- One tile's update from a real state (M, L, T): the maximum becomes max M mx, the old sum is rescaled by
    exp (M - max M mx) and the tile's exponentials are added, and the label sum gains the tile's hits. -/
theorem tileStep_real (c : Fin 1000 → ℝ) (hit : Fin 1000 → Prop) [DecidablePred hit] (mx M L T : ℝ)
    (hsup : (Finset.univ.sup fun k : Fin 1000 => ((c k : ℝ) : EReal) * lit 0x42800000#32) = ((mx : ℝ) : EReal)) :
    tileStep (fun k => ((c k : ℝ) : EReal)) hit (((M : ℝ) : EReal), ((L : ℝ) : EReal), ((T : ℝ) : EReal))
      = (((max M mx : ℝ) : EReal),
         ((Real.exp (M - max M mx) * L + ∑ k : Fin 1000, Real.exp (64 * c k - max M mx) : ℝ) : EReal),
         ((T + ∑ k : Fin 1000, (if hit k then c k else 0) : ℝ) : EReal)) := by
  have hf : ∀ k : Fin 1000, ((c k : ℝ) : EReal) * lit 0x42800000#32 = ((64 * c k : ℝ) : EReal) := by
    intro k; rw [lit_64, ← EReal.coe_mul, mul_comm]
  have hi : ∀ k : Fin 1000, (if hit k then ((c k : ℝ) : EReal) else lit 0x00000000#32)
      = (((if hit k then c k else 0 : ℝ)) : EReal) := by
    intro k; rw [lit_zero]; split_ifs <;> simp
  have hsup' : (Finset.univ.sup fun k : Fin 1000 => ((64 * c k : ℝ) : EReal)) = ((mx : ℝ) : EReal) := by
    simpa only [hf] using hsup
  unfold tileStep
  simp only [hf, hi]
  simp only [hsup', ← coe_max_real, ← EReal.coe_sub, Ideal.exp_coe, ← EReal.coe_mul, ← coe_sum_fin,
    ← EReal.coe_add]

/-- One tile's update from the start state (-inf, 0, 0): the rescaling factor exp (-inf - mx) = 0 meets the sum 0, so the
    state is the tile's own maximum, exponential sum and label sum. -/
theorem tileStep_init (c : Fin 1000 → ℝ) (hit : Fin 1000 → Prop) [DecidablePred hit] (mx : ℝ)
    (hsup : (Finset.univ.sup fun k : Fin 1000 => ((c k : ℝ) : EReal) * lit 0x42800000#32) = ((mx : ℝ) : EReal)) :
    tileStep (fun k => ((c k : ℝ) : EReal)) hit (lit 0xFF800000#32, lit 0x00000000#32, lit 0x00000000#32)
      = (((mx : ℝ) : EReal),
         ((∑ k : Fin 1000, Real.exp (64 * c k - mx) : ℝ) : EReal),
         ((∑ k : Fin 1000, (if hit k then c k else 0) : ℝ) : EReal)) := by
  have hf : ∀ k : Fin 1000, ((c k : ℝ) : EReal) * lit 0x42800000#32 = ((64 * c k : ℝ) : EReal) := by
    intro k; rw [lit_64, ← EReal.coe_mul, mul_comm]
  have hi : ∀ k : Fin 1000, (if hit k then ((c k : ℝ) : EReal) else lit 0x00000000#32)
      = (((if hit k then c k else 0 : ℝ)) : EReal) := by
    intro k; rw [lit_zero]; split_ifs <;> simp
  have hsup' : (Finset.univ.sup fun k : Fin 1000 => ((64 * c k : ℝ) : EReal)) = ((mx : ℝ) : EReal) := by
    simpa only [hf] using hsup
  unfold tileStep
  simp only [hf, hi]
  simp only [hsup', lit_neg_inf, lit_zero, bot_le, max_eq_right, EReal.bot_sub, Ideal.exp_bot, zero_mul,
    mul_zero, zero_add, ← EReal.coe_sub, Ideal.exp_coe, ← coe_sum_fin]

/-- The classes of half h: 50000 h ≤ c < 50000 (h + 1). -/
def half (h : Fin 2) : Finset (Fin 100000) :=
  Finset.univ.filter fun c : Fin 100000 => 50000 * h.val ≤ c.val ∧ c.val < 50000 * (h.val + 1)

/-- A clipped cosine is a real number in [-1, 1], whatever the inputs. -/
theorem cosv_real (X : Fin 1024 → Fin 512 → EReal) (W : Fin 100000 → Fin 512 → EReal) (n : Fin 1024) (c : Fin 100000) :
    ∃ r : ℝ, cosv X W n c = ((r : ℝ) : EReal) ∧ -1 ≤ r ∧ r ≤ 1 := by
  unfold cosv
  rw [lit_one, lit_neg_one]
  exact clip_real _

/-- The classes of the first j tiles of half h. -/
def seg (h : Fin 2) (j : ℕ) : Finset (Fin 100000) :=
  Finset.univ.filter fun c : Fin 100000 => 50000 * h.val ≤ c.val ∧ c.val < 50000 * h.val + 1000 * j

/-- Fifty tiles make up the half. -/
theorem seg_50 (h : Fin 2) : seg h 50 = half h := by
  ext c; simp only [seg, half, Finset.mem_filter, Finset.mem_univ, true_and]; omega

/-- No tiles, no classes. -/
theorem seg_zero (h : Fin 2) : seg h 0 = ∅ := by
  ext c; simp only [seg, Finset.mem_filter, Finset.mem_univ, true_and, Finset.notMem_empty, iff_false]; omega

/-- Lane k of tile j of half h looks at class 50000 h + 1000 j + k. -/
theorem col_val (h : Fin 2) (j : Fin 50) (k : Fin 1000) :
    (col h j k).val = 50000 * h.val + 1000 * j.val + k.val := rfl

/-- Distinct lanes of a tile look at distinct classes. -/
theorem col_inj (h : Fin 2) (j : Fin 50) : Function.Injective (col h j) := by
  intro a b hab
  have := congrArg Fin.val hab
  rw [col_val, col_val] at this
  exact Fin.ext (by omega)

/-- The first j + 1 tiles are the first j tiles and the lanes of tile j. -/
theorem mem_seg_succ (h : Fin 2) (j : ℕ) (hj : j < 50) (c : Fin 100000) :
    c ∈ seg h (j + 1) ↔ c ∈ seg h j ∨ ∃ k, col h ⟨j, hj⟩ k = c := by
  simp only [seg, Finset.mem_filter, Finset.mem_univ, true_and]
  constructor
  · intro hc
    by_cases hlt : c.val < 50000 * h.val + 1000 * j
    · exact Or.inl ⟨hc.1, hlt⟩
    · refine Or.inr ⟨⟨c.val - (50000 * h.val + 1000 * j), by omega⟩, ?_⟩
      apply Fin.ext; rw [col_val]; simp only []; omega
  · rintro (hc | ⟨k, rfl⟩)
    · exact ⟨hc.1, by omega⟩
    · have := k.isLt; rw [col_val]; simp only []; omega

/-- The same, as a union of finite sets. -/
theorem seg_succ (h : Fin 2) (j : ℕ) (hj : j < 50) :
    seg h (j + 1) = seg h j ∪ Finset.univ.image (col h ⟨j, hj⟩) := by
  ext c
  rw [mem_seg_succ h j hj, Finset.mem_union, Finset.mem_image]
  simp only [Finset.mem_univ, true_and]

/-- Tile j is disjoint from the tiles before it. -/
theorem seg_disj (h : Fin 2) (j : ℕ) (hj : j < 50) :
    Disjoint (seg h j) (Finset.univ.image (col h ⟨j, hj⟩)) := by
  rw [Finset.disjoint_left]
  intro c hc himg
  simp only [seg, Finset.mem_filter, Finset.mem_univ, true_and] at hc
  simp only [Finset.mem_image, Finset.mem_univ, true_and] at himg
  obtain ⟨k, rfl⟩ := himg
  rw [col_val] at hc; simp only [] at hc; omega

/-- A sum over the first j + 1 tiles is the sum over the first j tiles plus the sum over the lanes of tile j. -/
theorem sum_seg_succ (h : Fin 2) (j : ℕ) (hj : j < 50) (f : Fin 100000 → ℝ) :
    ∑ c ∈ seg h (j + 1), f c = ∑ c ∈ seg h j, f c + ∑ k : Fin 1000, f (col h ⟨j, hj⟩ k) := by
  rw [seg_succ h j hj, Finset.sum_union (seg_disj h j hj),
    Finset.sum_image (fun a _ b _ hab => col_inj h ⟨j, hj⟩ hab)]

section
variable (X : Fin 1024 → Fin 512 → EReal) (W : Fin 100000 → Fin 512 → EReal) (y : Fin 1024 → Fin 100000)

/-- The state after j + 1 ≤ 50 tiles is one tile's update of the state after j tiles. -/
theorem halfState_step (h : Fin 2) (n : Fin 1024) (j : ℕ) (hj : j < 50) :
    halfState X W y h n (j + 1)
      = tileStep (fun k => cosv X W n (col h ⟨j, hj⟩ k)) (fun k => col h ⟨j, hj⟩ k = y n) (halfState X W y h n j) := by
  rw [halfState, dif_pos hj]

/-- The state after j + 1 ≤ 50 tiles, in closed form over the classes of those tiles: m is their largest scaled cosine
    (attained), l the sum of exp (64 * cr c - m) over them, t the sum of the cosines at classes equal to the label.
    By induction on j: the first tile starts from (-inf, 0, 0); each later tile rescales the earlier sum, since
    exp (M - M') * exp (x - M) = exp (x - M'). -/
theorem halfState_succ (h : Fin 2) (n : Fin 1024) (cr : Fin 100000 → ℝ)
    (hc : ∀ c, cosv X W n c = ((cr c : ℝ) : EReal)) (j : ℕ) (hj : j < 50) :
    ∃ M : ℝ, (∀ c ∈ seg h (j + 1), 64 * cr c ≤ M) ∧ (∃ c ∈ seg h (j + 1), M = 64 * cr c) ∧
      halfState X W y h n (j + 1)
        = (((M : ℝ) : EReal), (((∑ c ∈ seg h (j + 1), Real.exp (64 * cr c - M)) : ℝ) : EReal),
           (((∑ c ∈ seg h (j + 1), (if c = y n then cr c else 0)) : ℝ) : EReal)) := by
  induction j with
  | zero =>
    obtain ⟨mx, hle, ⟨k0, hk0⟩, hsup⟩ := tile_sup (fun k => cr (col h ⟨0, hj⟩ k))
    refine ⟨mx, ?_, ?_, ?_⟩
    · intro c hcs
      rcases (mem_seg_succ h 0 hj c).1 hcs with h1 | ⟨k, rfl⟩
      · rw [seg_zero] at h1; exact absurd h1 (Finset.notMem_empty c)
      · exact hle k
    · exact ⟨col h ⟨0, hj⟩ k0, (mem_seg_succ h 0 hj _).2 (Or.inr ⟨k0, rfl⟩), hk0⟩
    · have hs : halfState X W y h n (0 + 1)
          = tileStep (fun k => ((cr (col h ⟨0, hj⟩ k) : ℝ) : EReal)) (fun k => col h ⟨0, hj⟩ k = y n)
              (lit 0xFF800000#32, lit 0x00000000#32, lit 0x00000000#32) := by
        rw [halfState_step X W y h n 0 hj]; simp only [hc]; rfl
      rw [hs, tileStep_init (fun k => cr (col h ⟨0, hj⟩ k)) (fun k => col h ⟨0, hj⟩ k = y n) mx hsup,
        sum_seg_succ h 0 hj, sum_seg_succ h 0 hj, seg_zero, Finset.sum_empty, Finset.sum_empty, zero_add, zero_add]
  | succ j ih =>
    obtain ⟨M, hM, ⟨c0, hc0, hMc0⟩, hst⟩ := ih (by omega)
    obtain ⟨mx, hle, ⟨k0, hk0⟩, hsup⟩ := tile_sup (fun k => cr (col h ⟨j + 1, hj⟩ k))
    refine ⟨max M mx, ?_, ?_, ?_⟩
    · intro c hcs
      rcases (mem_seg_succ h (j + 1) hj c).1 hcs with h1 | ⟨k, rfl⟩
      · exact le_trans (hM c h1) (le_max_left _ _)
      · exact le_trans (hle k) (le_max_right _ _)
    · rcases le_total M mx with hmm | hmm
      · refine ⟨col h ⟨j + 1, hj⟩ k0, (mem_seg_succ h (j + 1) hj _).2 (Or.inr ⟨k0, rfl⟩), ?_⟩
        rw [max_eq_right hmm, hk0]
      · refine ⟨c0, (mem_seg_succ h (j + 1) hj _).2 (Or.inl hc0), ?_⟩
        rw [max_eq_left hmm, hMc0]
    · have hs : halfState X W y h n (j + 1 + 1)
          = tileStep (fun k => ((cr (col h ⟨j + 1, hj⟩ k) : ℝ) : EReal)) (fun k => col h ⟨j + 1, hj⟩ k = y n)
              (((M : ℝ) : EReal), (((∑ c ∈ seg h (j + 1), Real.exp (64 * cr c - M)) : ℝ) : EReal),
               (((∑ c ∈ seg h (j + 1), (if c = y n then cr c else 0)) : ℝ) : EReal)) := by
        rw [halfState_step X W y h n (j + 1) hj, hst]; simp only [hc]
      have hL : Real.exp (M - max M mx) * ∑ c ∈ seg h (j + 1), Real.exp (64 * cr c - M)
          = ∑ c ∈ seg h (j + 1), Real.exp (64 * cr c - max M mx) := by
        rw [Finset.mul_sum]
        refine Finset.sum_congr rfl fun c _ => ?_
        rw [← Real.exp_add]; congr 1; ring
      rw [hs, tileStep_real (fun k => cr (col h ⟨j + 1, hj⟩ k)) (fun k => col h ⟨j + 1, hj⟩ k = y n) mx M _ _ hsup,
        hL, sum_seg_succ h (j + 1) hj, sum_seg_succ h (j + 1) hj]

end

/-- The state of half h after its 50 tiles. -/
theorem halfState_final (X : Fin 1024 → Fin 512 → EReal) (W : Fin 100000 → Fin 512 → EReal) (y : Fin 1024 → Fin 100000)
    (h : Fin 2) (n : Fin 1024) (cr : Fin 100000 → ℝ) (hc : ∀ c, cosv X W n c = ((cr c : ℝ) : EReal)) :
    ∃ M : ℝ, (∀ c ∈ half h, 64 * cr c ≤ M) ∧ (∃ c ∈ half h, M = 64 * cr c) ∧
      halfState X W y h n 50
        = (((M : ℝ) : EReal), (((∑ c ∈ half h, Real.exp (64 * cr c - M)) : ℝ) : EReal),
           (((if y n ∈ half h then cr (y n) else 0) : ℝ) : EReal)) := by
  obtain ⟨M, h1, h2, h3⟩ := halfState_succ X W y h n cr hc 49 (by norm_num)
  rw [seg_50] at h1 h2 h3
  refine ⟨M, h1, h2, ?_⟩
  rw [h3, Finset.sum_ite_eq']

end Cert.ArcSpec

end
-- ==== Proof.KI.ScratchVal.lean ====
/-
  The kernel's three running vectors are the formula's running state. Along the 100 grid points (half t / 50, column
  tile t % 50) the body leaves in row n of its three per-row vectors — the running maximum of the scaled cosines,
  the running sum of exponentials, the sum of the cosines at the label's class — exactly `halfState` of that half
  after t % 50 + 1 tiles; and after a half's last tile the three output blocks hold the half's final state.

  A tile's update depends on the tile's 1000 cosines and on which lanes look at the label's class only. The feature
  block holds the normalised feature rows; row k of the weight block at point t is the weight row of class
  1000 t + k, which is class `col (t / 50) (t % 50) k`; a lane's class word equals the label word exactly when its
  class is the label, both numbers being below 2^32. The first tile of a half starts from the reset triple
  (-inf, 0, 0); every other tile starts from what the tile before left; so the state follows the recursion that
  defines `halfState`, by induction on the tile.
-/
import proofs.«431442_j45981919871044_3_alg».proof.Proof.KI.Frame
import proofs.«431442_j45981919871044_3_alg».proof.Proof.KI.Pieces
import proofs.«431442_j45981919871044_3_alg».proof.Proof.KI.TileVal
import proofs.«431442_j45981919871044_3_alg».proof.Proof.KI.HostVal
import proofs.«431442_j45981919871044_3_alg».proof.Proof.KI.Blocks
import proofs.«431442_j45981919871044_3_alg».proof.Proof.Spec
import proofs.«431442_j45981919871044_3_alg».proof.Proof.MathHalf
import proofs.«431442_j45981919871044_3_alg».proof.Proof.Args
import Idealize.ShloMosaic.Lib.ValueIdx

set_option maxRecDepth 16384

noncomputable section

open scoped BigOperators

namespace Cert.KernelIdeal.Val

open Cert.KernelIdeal Cert.KernelIdeal.Gen Cert.ArcSpec
open Idealize.ShloMosaic Idealize.ShloMosaic.TcCoe Idealize.ShloMosaic.ValueIdx
open Idealize.SL.Sem

/-! ## One tile's update depends on its cosines and on which lanes hit only -/

theorem tileStep_congr (cs cs' : Fin 1000 → EReal) (hit hit' : Fin 1000 → Prop) [DecidablePred hit] [DecidablePred hit']
    (hcs : ∀ k, cs k = cs' k) (hh : ∀ k, hit k ↔ hit' k) (s : EReal × EReal × EReal) :
    tileStep cs hit s = tileStep cs' hit' s := by
  obtain rfl : cs = cs' := funext hcs
  have e : ∀ k, (if hit k then cs k else lit 0x00000000#32) = (if hit' k then cs k else lit 0x00000000#32) := fun k => by
    by_cases h : hit k
    · rw [if_pos h, if_pos ((hh k).1 h)]
    · rw [if_neg h, if_neg (fun h' => h ((hh k).2 h'))]
  unfold tileStep
  rw [Finset.sum_congr rfl (fun k _ => e k)]

/-- Two numbers below 2^32 are equal exactly when their 32-bit words are. -/
theorem ofNat32_inj {a b : ℕ} (ha : a < 2 ^ 32) (hb : b < 2 ^ 32) : BitVec.ofNat 32 a = BitVec.ofNat 32 b ↔ a = b := by
  constructor
  · intro h
    have := congrArg BitVec.toNat h
    rw [BitVec.toNat_ofNat, BitVec.toNat_ofNat, Nat.mod_eq_of_lt ha, Nat.mod_eq_of_lt hb] at this
    exact this
  · intro h; rw [h]

/-- Lane k of tile j of half h looks at the label's class exactly when its class word is the label's word. -/
theorem hit_iff (y : Fin 1024 → Fin 100000) (n : Fin 1024) (h : Fin 2) (j : Fin 50) (k : Fin 1000) (a b : ℕ) (ha : a = h.val) (hb : b = j.val) :
    BitVec.ofNat 32 (50000 * a + 1000 * b + k.val) = BitVec.ofNat 32 (y n).val ↔ col h j k = y n := by
  subst ha; subst hb
  have := h.isLt; have := j.isLt; have := k.isLt; have := (y n).isLt
  rw [ofNat32_inj (by omega) (by omega)]
  constructor
  · intro e; exact Fin.ext e
  · intro e; exact congrArg Fin.val e

/-- A tile's clipped cosines, when the feature block holds the normalised feature rows and the weight block's row k is
    class cl's weight row: the cosine of sample n and class cl. -/
theorem tileCos_eq (X : Fin 1024 → Fin 512 → EReal) (W : Fin 100000 → Fin 512 → EReal)
    (x0 : Vec Ideal S1024x512 .bf16) (x1 : Vec Ideal S1000x512 .f32) (n : Fin 1024) (k : Fin 1000) (cl : Fin 100000)
    (h0 : ∀ d : Fin 512, x0 (ix2 n d) = unit X n d) (h1 : ∀ e : Fin 512, x1 (ix2 k e) = W cl e) :
    tileCos x0 x1 n k = cosv X W n cl := by
  have hu : ∀ d : Fin 512, unit (fun (r : Fin 1000) (e : Fin 512) => x1 (ix2 r e)) k d = unit W cl d := fun d => by
    unfold unit; simp only [h1]
  unfold tileCos cosv
  simp only [h0, hu]

/-- The body's three payloads at row n, with the blocks' contents named: one tile's update of the row's state. -/
theorem step_match (X : Fin 1024 → Fin 512 → EReal) (W : Fin 100000 → Fin 512 → EReal) (y : Fin 1024 → Fin 100000)
    (i : grid0.Coords) (h : Fin 2) (j : Fin 50) (hi0 : (i 0).val = h.val) (hi1 : (i 1).val = j.val)
    (x0 : Vec Ideal S1024x512 .bf16) (x1 : Vec Ideal S1000x512 .f32) (x2 : Vec Ideal S1024x1 .i32)
    (ms ls ts : Vec Ideal S1024x1 .f32) (n : Fin 1024)
    (h0 : ∀ d : Fin 512, x0 (ix2 n d) = unit X n d) (h1 : ∀ (k : Fin 1000) (e : Fin 512), x1 (ix2 k e) = W (col h j k) e)
    (h2 : x2 (ix2 n (0 : Fin 1)) = BitVec.ofNat 32 (y n).val) :
    (k0_pay2 (F := Ideal) (k0_pay13 x0 x1 ms) (ix2 n (0 : Fin 1)),
     k0_pay1 (F := Ideal) (k0_pay14 x0 x1 ms ms) (k0_pay15 x0 x1 ms) ls (ix2 n (0 : Fin 1)),
     k0_pay3 (F := Ideal) (k0_pay10 x0 x1) (k0_pay12 i) x2 ts (ix2 n (0 : Fin 1)))
      = tileStep (fun k => cosv X W n (col h j k)) (fun k => col h j k = y n)
          (ms (ix2 n (0 : Fin 1)), ls (ix2 n (0 : Fin 1)), ts (ix2 n (0 : Fin 1))) := by
  rw [step_apply]
  exact tileStep_congr _ _ _ _ (fun k => tileCos_eq X W x0 x1 n k _ h0 (h1 k))
    (fun k => by rw [h2]; exact hit_iff y n h j k _ _ hi0 hi1) _

/-! ## The recursion along a half's tiles -/

section Core
variable (X : Fin 1024 → Fin 512 → EReal) (W : Fin 100000 → Fin 512 → EReal) (y : Fin 1024 → Fin 100000)

/-- A family of row states over the grid points that, at a half's first point, is the update of the reset triple and,
    at every other point, the update of the state at the point before, is the half's state point by point. -/
theorem run_eq_halfState (N : ℕ) (S : (t : ℕ) → t < N → Fin 1024 → EReal × EReal × EReal)
    (hA : ∀ (h : Fin 2) (n : Fin 1024) (ht : 50 * h.val < N), S (50 * h.val) ht n
      = tileStep (fun k => cosv X W n (col h ⟨0, by norm_num⟩ k)) (fun k => col h ⟨0, by norm_num⟩ k = y n)
          (lit 0xFF800000#32, lit 0x00000000#32, lit 0x00000000#32))
    (hB : ∀ (h : Fin 2) (j : ℕ) (hj : j + 1 < 50) (n : Fin 1024) (ht : 50 * h.val + j + 1 < N) (ht' : 50 * h.val + j < N),
      S (50 * h.val + j + 1) ht n
        = tileStep (fun k => cosv X W n (col h ⟨j + 1, hj⟩ k)) (fun k => col h ⟨j + 1, hj⟩ k = y n) (S (50 * h.val + j) ht' n))
    (h : Fin 2) (n : Fin 1024) :
    ∀ (j : ℕ) (hj : j < 50) (ht : 50 * h.val + j < N), S (50 * h.val + j) ht n = halfState X W y h n (j + 1) := by
  intro j
  induction j with
  | zero =>
    intro hj ht
    rw [halfState_step X W y h n 0 hj]
    exact hA h n ht
  | succ j ih =>
    intro hj ht
    rw [halfState_step X W y h n (j + 1) hj, ← ih (by omega) (by omega)]
    exact hB h j hj n ht (by omega)

end Core

/-! ## The grid's coordinates -/

/-- Point t of the grid is tile t % 50 of half t / 50. -/
theorem coords_facts : ∀ t : Fin cfg0.N, (grid0.coords t 0).val = t.val / 50 ∧ (grid0.coords t 1).val = t.val % 50 :=
  (by decide +kernel : ∀ t : Fin grid0.N, (grid0.coords t 0).val = t.val / 50 ∧ (grid0.coords t 1).val = t.val % 50)

/-! ## The blocks at a point -/

section Glue
variable (m : (ℓ : Loc nD τ sig) → Buf (Elt Ideal) ℓ) (c : Dev nD)

/-- The feature block holds the normalised feature rows. -/
theorem in0 (t : Fin cfg0.N) (n : Fin 1024) (d : Fin 512) :
    Fr.iblk m c 0 t (ix2 n d) = unit (Xof (m ((c : Thread nD τ).loc main_arg0))) n d := by
  rw [Fr.iblk0_apply, V_main_v9_apply]

/-- Row k of the weight block at point 50 h + j is the weight row of class col h j k. -/
theorem in1 (t : Fin cfg0.N) (h : Fin 2) (j : Fin 50) (htj : t.val = 50 * h.val + j.val) (k : Fin 1000) (e : Fin 512) :
    Fr.iblk m c 1 t (ix2 k e) = Wof (m ((c : Thread nD τ).loc main_arg1)) (col h j k) e := by
  have hc : ∀ p, (⟨1000 * t.val + k.val, p⟩ : Fin 100000) = col h j k := fun p =>
    Fin.ext (by show 1000 * t.val + k.val = 50000 * h.val + 1000 * j.val + k.val; omega)
  rw [Fr.iblk1_apply, Fr.V_main_arg1, hc]
  rfl

/-- The label block at row n is the label's class as a word. -/
theorem in2 (hr : InRange (m ((c : Thread nD τ).loc main_arg2))) (t : Fin cfg0.N) (n : Fin 1024) :
    Fr.iblk m c 2 t (ix2 n (0 : Fin 1)) = BitVec.ofNat 32 (yof (m ((c : Thread nD τ).loc main_arg2)) n).val := by
  rw [Fr.iblk2_apply, V_main_v10_apply]
  exact label_eq _ hr n

/-! ## What a point leaves, as payloads -/

/-- At a half's first point the three running vectors are the body's payloads from the reset values. -/
theorem scrA (t : ℕ) (ht : t < cfg0.N) (h0 : t % 50 = 0) :
    (Fr.outsAt0 (F := Ideal) m c t ht).2.2.2.1
        = k0_pay2 (k0_pay13 (Fr.iblk m c 0 ⟨t, ht⟩) (Fr.iblk m c 1 ⟨t, ht⟩) (k0_pay7 (F := Ideal)))
    ∧ (Fr.outsAt0 (F := Ideal) m c t ht).2.2.2.2.1
        = k0_pay1 (k0_pay14 (Fr.iblk m c 0 ⟨t, ht⟩) (Fr.iblk m c 1 ⟨t, ht⟩) (k0_pay7 (F := Ideal)) (k0_pay7 (F := Ideal))) (k0_pay15 (Fr.iblk m c 0 ⟨t, ht⟩) (Fr.iblk m c 1 ⟨t, ht⟩) (k0_pay7 (F := Ideal))) (k0_pay8 (F := Ideal))
    ∧ (Fr.outsAt0 (F := Ideal) m c t ht).2.2.2.2.2
        = k0_pay3 (k0_pay10 (Fr.iblk m c 0 ⟨t, ht⟩) (Fr.iblk m c 1 ⟨t, ht⟩)) (k0_pay12 (grid0.coords ⟨t, ht⟩)) (Fr.iblk m c 2 ⟨t, ht⟩) (k0_pay9 (F := Ideal)) := by
  have h1 : ¬t % 50 = 49 := by omega
  rw [show Fr.outsAt0 (F := Ideal) m c t ht = _ from Fr.outsAt0_A m c ⟨t, ht⟩ h0 h1]
  unfold Fr.ptA
  dsimp only
  exact ⟨Fr.sread0_A_0 (F := Ideal) .., Fr.sread0_A_1 (F := Ideal) .., Fr.sread0_A_2 (F := Ideal) ..⟩

/-- At any other point they are the body's payloads from what the point before left. -/
theorem scrBC (t : ℕ) (ht : t + 1 < cfg0.N) (h0 : ¬(t + 1) % 50 = 0) :
    (Fr.outsAt0 (F := Ideal) m c (t + 1) ht).2.2.2.1
        = k0_pay2 (k0_pay13 (Fr.iblk m c 0 ⟨t + 1, ht⟩) (Fr.iblk m c 1 ⟨t + 1, ht⟩) (Fr.outsAt0 (F := Ideal) m c t (Nat.lt_of_succ_lt ht)).2.2.2.1)
    ∧ (Fr.outsAt0 (F := Ideal) m c (t + 1) ht).2.2.2.2.1
        = k0_pay1 (k0_pay14 (Fr.iblk m c 0 ⟨t + 1, ht⟩) (Fr.iblk m c 1 ⟨t + 1, ht⟩) (Fr.outsAt0 (F := Ideal) m c t (Nat.lt_of_succ_lt ht)).2.2.2.1 (Fr.outsAt0 (F := Ideal) m c t (Nat.lt_of_succ_lt ht)).2.2.2.1)
            (k0_pay15 (Fr.iblk m c 0 ⟨t + 1, ht⟩) (Fr.iblk m c 1 ⟨t + 1, ht⟩) (Fr.outsAt0 (F := Ideal) m c t (Nat.lt_of_succ_lt ht)).2.2.2.1)
            (Fr.outsAt0 (F := Ideal) m c t (Nat.lt_of_succ_lt ht)).2.2.2.2.1
    ∧ (Fr.outsAt0 (F := Ideal) m c (t + 1) ht).2.2.2.2.2
        = k0_pay3 (k0_pay10 (Fr.iblk m c 0 ⟨t + 1, ht⟩) (Fr.iblk m c 1 ⟨t + 1, ht⟩)) (k0_pay12 (grid0.coords ⟨t + 1, ht⟩)) (Fr.iblk m c 2 ⟨t + 1, ht⟩)
            (Fr.outsAt0 (F := Ideal) m c t (Nat.lt_of_succ_lt ht)).2.2.2.2.2 := by
  by_cases h1 : (t + 1) % 50 = 49
  · rw [show Fr.outsAt0 (F := Ideal) m c (t + 1) ht = _ from Fr.outsAt0_C m c ⟨t + 1, ht⟩ h0 h1]
    unfold Fr.ptC
    dsimp only
    exact ⟨Fr.sread0_C_0 (F := Ideal) .., Fr.sread0_C_1 (F := Ideal) .., Fr.sread0_C_2 (F := Ideal) ..⟩
  · rw [show Fr.outsAt0 (F := Ideal) m c (t + 1) ht = _ from Fr.outsAt0_B m c ⟨t + 1, ht⟩ h0 h1]
    unfold Fr.ptB
    dsimp only
    exact ⟨Fr.sread0_B_0 (F := Ideal) .., Fr.sread0_B_1 (F := Ideal) .., Fr.sread0_B_2 (F := Ideal) ..⟩

/-- At a half's last point each output block is the copy of the running vector the point leaves. -/
theorem outC (t : ℕ) (ht : t + 1 < cfg0.N) (h1 : (t + 1) % 50 = 49) :
    (Fr.outsAt0 (F := Ideal) m c (t + 1) ht).1 = k0_pay4 (Fr.outsAt0 (F := Ideal) m c (t + 1) ht).2.2.2.1
    ∧ (Fr.outsAt0 (F := Ideal) m c (t + 1) ht).2.1 = k0_pay5 (Fr.outsAt0 (F := Ideal) m c (t + 1) ht).2.2.2.2.1
    ∧ (Fr.outsAt0 (F := Ideal) m c (t + 1) ht).2.2.1 = k0_pay6 (Fr.outsAt0 (F := Ideal) m c (t + 1) ht).2.2.2.2.2 := by
  have h0 : ¬(t + 1) % 50 = 0 := by omega
  rw [show Fr.outsAt0 (F := Ideal) m c (t + 1) ht = _ from Fr.outsAt0_C m c ⟨t + 1, ht⟩ h0 h1]
  unfold Fr.ptC
  dsimp only
  rw [Fr.sread0_C_0 (F := Ideal), Fr.sread0_C_1 (F := Ideal), Fr.sread0_C_2 (F := Ideal)]
  exact ⟨Fr.oread0_C_3 (F := Ideal) .., Fr.oread0_C_4 (F := Ideal) .., Fr.oread0_C_5 (F := Ideal) ..⟩

/-! ## The running vectors point by point -/

/-- Row n of the three running vectors (maximum, exponential sum, label cosine) after point t. -/
def trip (t : ℕ) (ht : t < cfg0.N) (n : Fin 1024) : EReal × EReal × EReal :=
  ((Fr.outsAt0 (F := Ideal) m c t ht).2.2.2.1 (ix2 n (0 : Fin 1)),
   (Fr.outsAt0 (F := Ideal) m c t ht).2.2.2.2.1 (ix2 n (0 : Fin 1)),
   (Fr.outsAt0 (F := Ideal) m c t ht).2.2.2.2.2 (ix2 n (0 : Fin 1)))

theorem trip_congr (t t' : ℕ) (e : t = t') (ht : t < cfg0.N) (ht' : t' < cfg0.N) (n : Fin 1024) :
    trip m c t ht n = trip m c t' ht' n := by
  subst e; rfl

/-- At a half's first point the row's state is one update of the reset triple. -/
theorem tripA (hr : InRange (m ((c : Thread nD τ).loc main_arg2))) (h : Fin 2) (n : Fin 1024) (ht : 50 * h.val < cfg0.N) :
    trip m c (50 * h.val) ht n
      = tileStep (fun k => cosv (Xof (m ((c : Thread nD τ).loc main_arg0))) (Wof (m ((c : Thread nD τ).loc main_arg1))) n (col h ⟨0, by norm_num⟩ k))
          (fun k => col h ⟨0, by norm_num⟩ k = yof (m ((c : Thread nD τ).loc main_arg2)) n)
          (lit 0xFF800000#32, lit 0x00000000#32, lit 0x00000000#32) := by
  obtain ⟨e0, e1, e2⟩ := scrA m c (50 * h.val) ht (by omega)
  obtain ⟨c0, c1⟩ := coords_facts ⟨50 * h.val, ht⟩
  have hs := step_match (Xof (m ((c : Thread nD τ).loc main_arg0))) (Wof (m ((c : Thread nD τ).loc main_arg1)))
    (yof (m ((c : Thread nD τ).loc main_arg2))) (grid0.coords ⟨50 * h.val, ht⟩) h ⟨0, by norm_num⟩
    (c0.trans (by show 50 * h.val / 50 = h.val; omega)) (c1.trans (by show 50 * h.val % 50 = 0; omega))
    (Fr.iblk m c 0 ⟨50 * h.val, ht⟩) (Fr.iblk m c 1 ⟨50 * h.val, ht⟩) (Fr.iblk m c 2 ⟨50 * h.val, ht⟩)
    (k0_pay7 (F := Ideal)) (k0_pay8 (F := Ideal)) (k0_pay9 (F := Ideal)) n (in0 m c _ n) (in1 m c _ h ⟨0, by norm_num⟩ (by show 50 * h.val = 50 * h.val + 0; omega)) (in2 m c hr _ n)
  rw [pay7_apply, pay8_apply, pay9_apply] at hs
  unfold trip
  rw [e0, e1, e2]
  exact hs

/-- At any other point of a half it is one update of the state at the point before. -/
theorem tripB (hr : InRange (m ((c : Thread nD τ).loc main_arg2))) (h : Fin 2) (j : ℕ) (hj : j + 1 < 50) (n : Fin 1024)
    (ht : 50 * h.val + j + 1 < cfg0.N) (ht' : 50 * h.val + j < cfg0.N) :
    trip m c (50 * h.val + j + 1) ht n
      = tileStep (fun k => cosv (Xof (m ((c : Thread nD τ).loc main_arg0))) (Wof (m ((c : Thread nD τ).loc main_arg1))) n (col h ⟨j + 1, hj⟩ k))
          (fun k => col h ⟨j + 1, hj⟩ k = yof (m ((c : Thread nD τ).loc main_arg2)) n)
          (trip m c (50 * h.val + j) ht' n) := by
  obtain ⟨e0, e1, e2⟩ := scrBC m c (50 * h.val + j) ht (by omega)
  obtain ⟨c0, c1⟩ := coords_facts ⟨50 * h.val + j + 1, ht⟩
  have hs := step_match (Xof (m ((c : Thread nD τ).loc main_arg0))) (Wof (m ((c : Thread nD τ).loc main_arg1)))
    (yof (m ((c : Thread nD τ).loc main_arg2))) (grid0.coords ⟨50 * h.val + j + 1, ht⟩) h ⟨j + 1, hj⟩
    (c0.trans (by show (50 * h.val + j + 1) / 50 = h.val; omega)) (c1.trans (by show (50 * h.val + j + 1) % 50 = j + 1; omega))
    (Fr.iblk m c 0 ⟨50 * h.val + j + 1, ht⟩) (Fr.iblk m c 1 ⟨50 * h.val + j + 1, ht⟩) (Fr.iblk m c 2 ⟨50 * h.val + j + 1, ht⟩)
    (Fr.outsAt0 (F := Ideal) m c (50 * h.val + j) (Nat.lt_of_succ_lt ht)).2.2.2.1
    (Fr.outsAt0 (F := Ideal) m c (50 * h.val + j) (Nat.lt_of_succ_lt ht)).2.2.2.2.1
    (Fr.outsAt0 (F := Ideal) m c (50 * h.val + j) (Nat.lt_of_succ_lt ht)).2.2.2.2.2
    n (in0 m c _ n) (in1 m c _ h ⟨j + 1, hj⟩ (by show 50 * h.val + j + 1 = 50 * h.val + (j + 1); omega)) (in2 m c hr _ n)
  unfold trip
  rw [e0, e1, e2]
  exact hs

/-- THE RUNNING VECTORS ARE THE HALF'S STATE: after tile j of half h, row n of the three running vectors holds the
    state of row n in half h after j + 1 tiles. -/
theorem scratch_run (hr : InRange (m ((c : Thread nD τ).loc main_arg2))) (h : Fin 2) (n : Fin 1024) (j : ℕ) (hj : j < 50)
    (ht : 50 * h.val + j < cfg0.N) :
    trip m c (50 * h.val + j) ht n
      = halfState (Xof (m ((c : Thread nD τ).loc main_arg0))) (Wof (m ((c : Thread nD τ).loc main_arg1)))
          (yof (m ((c : Thread nD τ).loc main_arg2))) h n (j + 1) :=
  run_eq_halfState _ _ _ cfg0.N (trip m c) (fun h n ht => tripA m c hr h n ht)
    (fun h j hj n ht ht' => tripB m c hr h j hj n ht ht') h n j hj ht

/-- The same at a grid point t: half t / 50, tile t % 50. -/
theorem scratch_eq (hr : InRange (m ((c : Thread nD τ).loc main_arg2))) (t : Fin cfg0.N) (n : Fin 1024) :
    ((Fr.outsAt0 (F := Ideal) m c t.val t.isLt).2.2.2.1 (ix2 n (0 : Fin 1)),
     (Fr.outsAt0 (F := Ideal) m c t.val t.isLt).2.2.2.2.1 (ix2 n (0 : Fin 1)),
     (Fr.outsAt0 (F := Ideal) m c t.val t.isLt).2.2.2.2.2 (ix2 n (0 : Fin 1)))
      = halfState (Xof (m ((c : Thread nD τ).loc main_arg0))) (Wof (m ((c : Thread nD τ).loc main_arg1)))
          (yof (m ((c : Thread nD τ).loc main_arg2)))
          (⟨t.val / 50, by have := t.isLt; have hN : cfg0.N = 100 := N_0; omega⟩ : Fin 2) n (t.val % 50 + 1) := by
  have e : 50 * (t.val / 50) + t.val % 50 = t.val := Nat.div_add_mod _ _
  have key := scratch_run m c hr (⟨t.val / 50, by have := t.isLt; have hN : cfg0.N = 100 := N_0; omega⟩ : Fin 2) n (t.val % 50)
    (Nat.mod_lt _ (by norm_num)) (by show 50 * (t.val / 50) + t.val % 50 < cfg0.N; rw [e]; exact t.isLt)
  exact (trip_congr m c _ _ e.symm t.isLt _ n).trans key

/-- THE OUTPUTS: after the last tile of half h the three output blocks hold, at row n, the half's final state. -/
theorem outs_eq (hr : InRange (m ((c : Thread nD τ).loc main_arg2))) (h : Fin 2) (n : Fin 1024) (ht : 50 * h.val + 49 < cfg0.N) :
    ((Fr.outsAt0 (F := Ideal) m c (50 * h.val + 49) ht).1 (ix3 (0 : Fin 1) n (0 : Fin 1)),
     (Fr.outsAt0 (F := Ideal) m c (50 * h.val + 49) ht).2.1 (ix3 (0 : Fin 1) n (0 : Fin 1)),
     (Fr.outsAt0 (F := Ideal) m c (50 * h.val + 49) ht).2.2.1 (ix3 (0 : Fin 1) n (0 : Fin 1)))
      = halfState (Xof (m ((c : Thread nD τ).loc main_arg0))) (Wof (m ((c : Thread nD τ).loc main_arg1)))
          (yof (m ((c : Thread nD τ).loc main_arg2))) h n 50 := by
  obtain ⟨o0, o1, o2⟩ := outC m c (50 * h.val + 48) ht (by omega)
  have key := scratch_run m c hr h n 49 (by norm_num) ht
  show ((Fr.outsAt0 (F := Ideal) m c (50 * h.val + 48 + 1) ht).1 (ix3 (0 : Fin 1) n (0 : Fin 1)),
     (Fr.outsAt0 (F := Ideal) m c (50 * h.val + 48 + 1) ht).2.1 (ix3 (0 : Fin 1) n (0 : Fin 1)),
     (Fr.outsAt0 (F := Ideal) m c (50 * h.val + 48 + 1) ht).2.2.1 (ix3 (0 : Fin 1) n (0 : Fin 1))) = _
  rw [o0, o1, o2, pay4_apply, pay5_apply, pay6_apply]
  exact key

end Glue

end Cert.KernelIdeal.Val

end
-- ==== Proof.KI.Value.lean ====
/-
  The kernel's result, read: the three result arrays [2, 1024, 1] end holding, per half of the columns and per row,
  the running maximum, the running exponential sum and the label cosine after the half's fifty tiles; the host
  operations after the region merge the two halves row by row and average, which is `Cert.ArcSpec.Kform` of the
  arguments.

  Each result array is written back once per half, at the half's last tile (the points ≡ 49 mod 50), and the block
  written there is the half's slab {h} × [0, 1024) × {0}: the two slabs cover the array.
-/
import proofs.«431442_j45981919871044_3_alg».proof.Proof.KI.Frame
import proofs.«431442_j45981919871044_3_alg».proof.Proof.KI.ScratchVal
import proofs.«431442_j45981919871044_3_alg».proof.Proof.KI.HostVal
import proofs.«431442_j45981919871044_3_alg».proof.Proof.Args
import Idealize.ShloMosaic.Lib.ValueIdx
import Idealize.ShloMosaic.Lib.Pipeline.Value

set_option maxRecDepth 16384

noncomputable section

namespace Cert.KernelIdeal.Val

open Cert.KernelIdeal Cert.KernelIdeal.Gen Cert.ArcSpec
open Idealize.ShloMosaic Idealize.ShloMosaic.TcCoe Idealize.ShloMosaic.ValueIdx Idealize.ShloMosaic.StableHlo
open Idealize.SL.Sem
open Idealize.ShloMosaic.Pipeline (Dat)
open scoped BigOperators

namespace Res

/-! ## The result windows' blocks -/

/-- A result window's block index at a point is (the point's half, 0, 0). -/
theorem idx3_facts : ∀ t : Fin cfg0.N, win0_3.index t (0 : Fin 3) = t.val / 50 ∧ win0_3.index t (1 : Fin 3) = 0 ∧ win0_3.index t (2 : Fin 3) = 0 :=
  (by decide +kernel : ∀ t : Fin grid0.N, _)
theorem idx4_facts : ∀ t : Fin cfg0.N, win0_4.index t (0 : Fin 3) = t.val / 50 ∧ win0_4.index t (1 : Fin 3) = 0 ∧ win0_4.index t (2 : Fin 3) = 0 :=
  (by decide +kernel : ∀ t : Fin grid0.N, _)
theorem idx5_facts : ∀ t : Fin cfg0.N, win0_5.index t (0 : Fin 3) = t.val / 50 ∧ win0_5.index t (1 : Fin 3) = 0 ∧ win0_5.index t (2 : Fin 3) = 0 :=
  (by decide +kernel : ∀ t : Fin grid0.N, _)

/-- An index is in a point's block of result window 3 iff each coordinate is in the block's range on its axis. -/
theorem mem_blk3 (t : Fin cfg0.N) (i : S2x1024x1.Idx) :
    i ∈ ((cfg0.win 3).blk t).view.set ↔ ∀ a : Fin 3, win0_3.index t a * S1x1024x1.size a ≤ (i a).val ∧ (i a).val < win0_3.index t a * S1x1024x1.size a + S1x1024x1.size a := by
  show i ∈ ((View.whole main_v11_0).slice (win0_3.rect t)).set ↔ _
  rw [View.set_slice_whole, Rect.mem_set_unit]
  exact Iff.rfl

/-- Every index of result array 0 lies in the block its half's last point writes back. -/
theorem cover3 (i : S2x1024x1.Idx) : ∃ t : Fin cfg0.N, (cfg0.win 3).flush t = true ∧ i ∈ ((cfg0.win 3).blk t).view.set := by
  have hN : cfg0.N = 100 := N_0
  have h0 : (i 0).val < 2 := (i 0).isLt
  have h1 : (i 1).val < 1024 := (i 1).isLt
  have h2 : (i 2).val < 1 := (i 2).isLt
  refine ⟨⟨50 * (i 0).val + 49, by omega⟩, (flush0_3 _).mpr (by show (50 * (i 0).val + 49) % 50 = 49; omega), ?_⟩
  rw [mem_blk3]
  obtain ⟨e0, e1, e2⟩ := idx3_facts ⟨50 * (i 0).val + 49, by omega⟩
  intro a
  match a with
  | ⟨0, _⟩ =>
    show win0_3.index _ (0 : Fin 3) * 1 ≤ (i 0).val ∧ (i 0).val < win0_3.index _ (0 : Fin 3) * 1 + 1
    rw [e0]; show (50 * (i 0).val + 49) / 50 * 1 ≤ (i 0).val ∧ (i 0).val < (50 * (i 0).val + 49) / 50 * 1 + 1; omega
  | ⟨1, _⟩ =>
    show win0_3.index _ (1 : Fin 3) * 1024 ≤ (i 1).val ∧ (i 1).val < win0_3.index _ (1 : Fin 3) * 1024 + 1024
    rw [e1]; omega
  | ⟨2, _⟩ =>
    show win0_3.index _ (2 : Fin 3) * 1 ≤ (i 2).val ∧ (i 2).val < win0_3.index _ (2 : Fin 3) * 1 + 1
    rw [e2]; omega

/-- An index is in a point's block of result window 4 iff each coordinate is in the block's range on its axis. -/
theorem mem_blk4 (t : Fin cfg0.N) (i : S2x1024x1.Idx) :
    i ∈ ((cfg0.win 4).blk t).view.set ↔ ∀ a : Fin 3, win0_4.index t a * S1x1024x1.size a ≤ (i a).val ∧ (i a).val < win0_4.index t a * S1x1024x1.size a + S1x1024x1.size a := by
  show i ∈ ((View.whole main_v11_1).slice (win0_4.rect t)).set ↔ _
  rw [View.set_slice_whole, Rect.mem_set_unit]
  exact Iff.rfl

/-- Every index of result array 1 lies in the block its half's last point writes back. -/
theorem cover4 (i : S2x1024x1.Idx) : ∃ t : Fin cfg0.N, (cfg0.win 4).flush t = true ∧ i ∈ ((cfg0.win 4).blk t).view.set := by
  have hN : cfg0.N = 100 := N_0
  have h0 : (i 0).val < 2 := (i 0).isLt
  have h1 : (i 1).val < 1024 := (i 1).isLt
  have h2 : (i 2).val < 1 := (i 2).isLt
  refine ⟨⟨50 * (i 0).val + 49, by omega⟩, (flush0_4 _).mpr (by show (50 * (i 0).val + 49) % 50 = 49; omega), ?_⟩
  rw [mem_blk4]
  obtain ⟨e0, e1, e2⟩ := idx4_facts ⟨50 * (i 0).val + 49, by omega⟩
  intro a
  match a with
  | ⟨0, _⟩ =>
    show win0_4.index _ (0 : Fin 3) * 1 ≤ (i 0).val ∧ (i 0).val < win0_4.index _ (0 : Fin 3) * 1 + 1
    rw [e0]; show (50 * (i 0).val + 49) / 50 * 1 ≤ (i 0).val ∧ (i 0).val < (50 * (i 0).val + 49) / 50 * 1 + 1; omega
  | ⟨1, _⟩ =>
    show win0_4.index _ (1 : Fin 3) * 1024 ≤ (i 1).val ∧ (i 1).val < win0_4.index _ (1 : Fin 3) * 1024 + 1024
    rw [e1]; omega
  | ⟨2, _⟩ =>
    show win0_4.index _ (2 : Fin 3) * 1 ≤ (i 2).val ∧ (i 2).val < win0_4.index _ (2 : Fin 3) * 1 + 1
    rw [e2]; omega

/-- An index is in a point's block of result window 5 iff each coordinate is in the block's range on its axis. -/
theorem mem_blk5 (t : Fin cfg0.N) (i : S2x1024x1.Idx) :
    i ∈ ((cfg0.win 5).blk t).view.set ↔ ∀ a : Fin 3, win0_5.index t a * S1x1024x1.size a ≤ (i a).val ∧ (i a).val < win0_5.index t a * S1x1024x1.size a + S1x1024x1.size a := by
  show i ∈ ((View.whole main_v11_2).slice (win0_5.rect t)).set ↔ _
  rw [View.set_slice_whole, Rect.mem_set_unit]
  exact Iff.rfl

/-- Every index of result array 2 lies in the block its half's last point writes back. -/
theorem cover5 (i : S2x1024x1.Idx) : ∃ t : Fin cfg0.N, (cfg0.win 5).flush t = true ∧ i ∈ ((cfg0.win 5).blk t).view.set := by
  have hN : cfg0.N = 100 := N_0
  have h0 : (i 0).val < 2 := (i 0).isLt
  have h1 : (i 1).val < 1024 := (i 1).isLt
  have h2 : (i 2).val < 1 := (i 2).isLt
  refine ⟨⟨50 * (i 0).val + 49, by omega⟩, (flush0_5 _).mpr (by show (50 * (i 0).val + 49) % 50 = 49; omega), ?_⟩
  rw [mem_blk5]
  obtain ⟨e0, e1, e2⟩ := idx5_facts ⟨50 * (i 0).val + 49, by omega⟩
  intro a
  match a with
  | ⟨0, _⟩ =>
    show win0_5.index _ (0 : Fin 3) * 1 ≤ (i 0).val ∧ (i 0).val < win0_5.index _ (0 : Fin 3) * 1 + 1
    rw [e0]; show (50 * (i 0).val + 49) / 50 * 1 ≤ (i 0).val ∧ (i 0).val < (50 * (i 0).val + 49) / 50 * 1 + 1; omega
  | ⟨1, _⟩ =>
    show win0_5.index _ (1 : Fin 3) * 1024 ≤ (i 1).val ∧ (i 1).val < win0_5.index _ (1 : Fin 3) * 1024 + 1024
    rw [e1]; omega
  | ⟨2, _⟩ =>
    show win0_5.index _ (2 : Fin 3) * 1 ≤ (i 2).val ∧ (i 2).val < win0_5.index _ (2 : Fin 3) * 1 + 1
    rw [e2]; omega

/-! ## What the result arrays end holding -/

section
variable (X : Fin 1024 → Fin 512 → EReal) (W : Fin 100000 → Fin 512 → EReal) (y : Fin 1024 → Fin 100000)

/-- Per half and row: the running maximum after the half's fifty tiles, -/
def G3 : S2x1024x1.Idx → EReal := fun i => (halfState X W y ⟨(i 0).val, (i 0).isLt⟩ ⟨(i 1).val, (i 1).isLt⟩ 50).1
/-- the running exponential sum, -/
def G4 : S2x1024x1.Idx → EReal := fun i => (halfState X W y ⟨(i 0).val, (i 0).isLt⟩ ⟨(i 1).val, (i 1).isLt⟩ 50).2.1
/-- and the label cosine. -/
def G5 : S2x1024x1.Idx → EReal := fun i => (halfState X W y ⟨(i 0).val, (i 0).isLt⟩ ⟨(i 1).val, (i 1).isLt⟩ 50).2.2

end

section
variable (m : (ℓ : Loc nD τ sig) → Buf (Elt Ideal) ℓ)

/-- At the last point of a half, a block index of a result window names a row of that half's slab: the point, the
    array index the block's element sits at, and the element's own index, by coordinates. -/
theorem slab_point (t : Fin cfg0.N) (h49 : t.val % 50 = 49) (j : S1x1024x1.Idx) :
    ∃ (h : Fin 2) (n : Fin 1024) (hlt : 50 * h.val + 49 < cfg0.N), 50 * h.val + 49 = t.val
      ∧ j = ix3 (0 : Fin 1) n (0 : Fin 1) ∧ h.val = t.val / 50 ∧ n.val = (j 1).val := by
  have hN : cfg0.N = 100 := N_0
  have htl := t.isLt
  have hj0 : (j 0).val < 1 := (j 0).isLt
  have hj1 : (j 1).val < 1024 := (j 1).isLt
  have hj2 : (j 2).val < 1 := (j 2).isLt
  refine ⟨⟨t.val / 50, by omega⟩, ⟨(j 1).val, hj1⟩, by show 50 * (t.val / 50) + 49 < cfg0.N; omega,
    by show 50 * (t.val / 50) + 49 = t.val; omega, ?_, rfl, rfl⟩
  funext a; apply Fin.ext
  match a with
  | ⟨0, _⟩ => show (j 0).val = 0; omega
  | ⟨1, _⟩ => rfl
  | ⟨2, _⟩ => show (j 2).val = 0; omega

/-- The accumulation at a point does not depend on how the point's number is written. -/
theorem outsAt0_congr (c : Dev nD) (k : ℕ) (hk : k < cfg0.N) (t : Fin cfg0.N) (e : k = t.val) :
    Fr.outsAt0 (F := Ideal) m c k hk = Fr.outsAt0 (F := Ideal) m c t.val t.isLt := by
  subst e; rfl

/-- What a half's last point writes back to result array 0 is the half's slab of `G3`. -/
theorem flushed3_eq (c : Dev nD) (hr : InRange (m ((c.tc : Thread nD τ).loc main_arg2))) (t : Fin cfg0.N)
    (hf : (cfg0.win 3).flush t = true) :
    (Fr.dats (F := Ideal) m 0 c).flushed 3 t = ((cfg0.win 3).blk t).view.read (Elt Ideal) (G3 (Xof (m ((c.tc : Thread nD τ).loc main_arg0))) (Wof (m ((c.tc : Thread nD τ).loc main_arg1))) (yof (m ((c.tc : Thread nD τ).loc main_arg2)))) := by
  have h49 := (flush0_3 t).mp hf
  obtain ⟨e0, e1, e2⟩ := idx3_facts t
  show (cfg0.win 3).cut (grid0.coords t) ((Fr.dats (F := Ideal) m 0 c).after 3 t) = _
  rw [Fr.after0_3]
  funext j
  show (Fr.outsAt0 (F := Ideal) m c t.val t.isLt).1 j = G3 (Xof (m ((c.tc : Thread nD τ).loc main_arg0))) (Wof (m ((c.tc : Thread nD τ).loc main_arg1))) (yof (m ((c.tc : Thread nD τ).loc main_arg2))) (((cfg0.win 3).blk t).view.emb j)
  obtain ⟨h, n, hlt, hpt, hj, hh, hn⟩ := slab_point t h49 j
  have hemb : ((cfg0.win 3).blk t).view.emb j = ix3 h n (0 : Fin 1) := by
    have hj0 : (j 0).val < 1 := (j 0).isLt
    have hj2 : (j 2).val < 1 := (j 2).isLt
    funext a; apply Fin.ext
    match a with
    | ⟨0, _⟩ => show win0_3.index t (0 : Fin 3) * 1 + 1 * (j 0).val = h.val; omega
    | ⟨1, _⟩ => show win0_3.index t (1 : Fin 3) * 1024 + 1 * (j 1).val = n.val; omega
    | ⟨2, _⟩ => show win0_3.index t (2 : Fin 3) * 1 + 1 * (j 2).val = 0; omega
  have key := outs_eq m c hr h n hlt
  rw [outsAt0_congr m c _ hlt t hpt] at key
  rw [hemb]
  conv_lhs => rw [hj]
  exact congrArg (fun p : EReal × EReal × EReal => p.1) key

/-- So result array 0 ends holding `G3`. -/
theorem final3 (c : Dev nD) (hr : InRange (m ((c.tc : Thread nD τ).loc main_arg2))) :
    (Fr.dats (F := Ideal) m 0 c).arrAt 3 cfg0.N = G3 (Xof (m ((c.tc : Thread nD τ).loc main_arg0))) (Wof (m ((c.tc : Thread nD τ).loc main_arg1))) (yof (m ((c.tc : Thread nD τ).loc main_arg2))) :=
  (Fr.dats (F := Ideal) m 0 c).arrAt_eq_of_cover 3 (G3 (Xof (m ((c.tc : Thread nD τ).loc main_arg0))) (Wof (m ((c.tc : Thread nD τ).loc main_arg1))) (yof (m ((c.tc : Thread nD τ).loc main_arg2)))) (fun t hf => flushed3_eq m c hr t hf) cover3

/-- What a half's last point writes back to result array 1 is the half's slab of `G4`. -/
theorem flushed4_eq (c : Dev nD) (hr : InRange (m ((c.tc : Thread nD τ).loc main_arg2))) (t : Fin cfg0.N)
    (hf : (cfg0.win 4).flush t = true) :
    (Fr.dats (F := Ideal) m 0 c).flushed 4 t = ((cfg0.win 4).blk t).view.read (Elt Ideal) (G4 (Xof (m ((c.tc : Thread nD τ).loc main_arg0))) (Wof (m ((c.tc : Thread nD τ).loc main_arg1))) (yof (m ((c.tc : Thread nD τ).loc main_arg2)))) := by
  have h49 := (flush0_4 t).mp hf
  obtain ⟨e0, e1, e2⟩ := idx4_facts t
  show (cfg0.win 4).cut (grid0.coords t) ((Fr.dats (F := Ideal) m 0 c).after 4 t) = _
  rw [Fr.after0_4]
  funext j
  show (Fr.outsAt0 (F := Ideal) m c t.val t.isLt).2.1 j = G4 (Xof (m ((c.tc : Thread nD τ).loc main_arg0))) (Wof (m ((c.tc : Thread nD τ).loc main_arg1))) (yof (m ((c.tc : Thread nD τ).loc main_arg2))) (((cfg0.win 4).blk t).view.emb j)
  obtain ⟨h, n, hlt, hpt, hj, hh, hn⟩ := slab_point t h49 j
  have hemb : ((cfg0.win 4).blk t).view.emb j = ix3 h n (0 : Fin 1) := by
    have hj0 : (j 0).val < 1 := (j 0).isLt
    have hj2 : (j 2).val < 1 := (j 2).isLt
    funext a; apply Fin.ext
    match a with
    | ⟨0, _⟩ => show win0_4.index t (0 : Fin 3) * 1 + 1 * (j 0).val = h.val; omega
    | ⟨1, _⟩ => show win0_4.index t (1 : Fin 3) * 1024 + 1 * (j 1).val = n.val; omega
    | ⟨2, _⟩ => show win0_4.index t (2 : Fin 3) * 1 + 1 * (j 2).val = 0; omega
  have key := outs_eq m c hr h n hlt
  rw [outsAt0_congr m c _ hlt t hpt] at key
  rw [hemb]
  conv_lhs => rw [hj]
  exact congrArg (fun p : EReal × EReal × EReal => p.2.1) key

/-- So result array 1 ends holding `G4`. -/
theorem final4 (c : Dev nD) (hr : InRange (m ((c.tc : Thread nD τ).loc main_arg2))) :
    (Fr.dats (F := Ideal) m 0 c).arrAt 4 cfg0.N = G4 (Xof (m ((c.tc : Thread nD τ).loc main_arg0))) (Wof (m ((c.tc : Thread nD τ).loc main_arg1))) (yof (m ((c.tc : Thread nD τ).loc main_arg2))) :=
  (Fr.dats (F := Ideal) m 0 c).arrAt_eq_of_cover 4 (G4 (Xof (m ((c.tc : Thread nD τ).loc main_arg0))) (Wof (m ((c.tc : Thread nD τ).loc main_arg1))) (yof (m ((c.tc : Thread nD τ).loc main_arg2)))) (fun t hf => flushed4_eq m c hr t hf) cover4

/-- What a half's last point writes back to result array 2 is the half's slab of `G5`. -/
theorem flushed5_eq (c : Dev nD) (hr : InRange (m ((c.tc : Thread nD τ).loc main_arg2))) (t : Fin cfg0.N)
    (hf : (cfg0.win 5).flush t = true) :
    (Fr.dats (F := Ideal) m 0 c).flushed 5 t = ((cfg0.win 5).blk t).view.read (Elt Ideal) (G5 (Xof (m ((c.tc : Thread nD τ).loc main_arg0))) (Wof (m ((c.tc : Thread nD τ).loc main_arg1))) (yof (m ((c.tc : Thread nD τ).loc main_arg2)))) := by
  have h49 := (flush0_5 t).mp hf
  obtain ⟨e0, e1, e2⟩ := idx5_facts t
  show (cfg0.win 5).cut (grid0.coords t) ((Fr.dats (F := Ideal) m 0 c).after 5 t) = _
  rw [Fr.after0_5]
  funext j
  show (Fr.outsAt0 (F := Ideal) m c t.val t.isLt).2.2.1 j = G5 (Xof (m ((c.tc : Thread nD τ).loc main_arg0))) (Wof (m ((c.tc : Thread nD τ).loc main_arg1))) (yof (m ((c.tc : Thread nD τ).loc main_arg2))) (((cfg0.win 5).blk t).view.emb j)
  obtain ⟨h, n, hlt, hpt, hj, hh, hn⟩ := slab_point t h49 j
  have hemb : ((cfg0.win 5).blk t).view.emb j = ix3 h n (0 : Fin 1) := by
    have hj0 : (j 0).val < 1 := (j 0).isLt
    have hj2 : (j 2).val < 1 := (j 2).isLt
    funext a; apply Fin.ext
    match a with
    | ⟨0, _⟩ => show win0_5.index t (0 : Fin 3) * 1 + 1 * (j 0).val = h.val; omega
    | ⟨1, _⟩ => show win0_5.index t (1 : Fin 3) * 1024 + 1 * (j 1).val = n.val; omega
    | ⟨2, _⟩ => show win0_5.index t (2 : Fin 3) * 1 + 1 * (j 2).val = 0; omega
  have key := outs_eq m c hr h n hlt
  rw [outsAt0_congr m c _ hlt t hpt] at key
  rw [hemb]
  conv_lhs => rw [hj]
  exact congrArg (fun p : EReal × EReal × EReal => p.2.2) key

/-- So result array 2 ends holding `G5`. -/
theorem final5 (c : Dev nD) (hr : InRange (m ((c.tc : Thread nD τ).loc main_arg2))) :
    (Fr.dats (F := Ideal) m 0 c).arrAt 5 cfg0.N = G5 (Xof (m ((c.tc : Thread nD τ).loc main_arg0))) (Wof (m ((c.tc : Thread nD τ).loc main_arg1))) (yof (m ((c.tc : Thread nD τ).loc main_arg2))) :=
  (Fr.dats (F := Ideal) m 0 c).arrAt_eq_of_cover 5 (G5 (Xof (m ((c.tc : Thread nD τ).loc main_arg0))) (Wof (m ((c.tc : Thread nD τ).loc main_arg1))) (yof (m ((c.tc : Thread nD τ).loc main_arg2)))) (fun t hf => flushed5_eq m c hr t hf) cover5

/-! ## The host operations after the region -/

/-- Row n's three results in half h, read off the arrays the region leaves: the half's state after its fifty tiles. -/
theorem st_final (c : Dev nD) (hr : InRange (m ((c.tc : Thread nD τ).loc main_arg2))) (h : Fin 2) (n : Fin 1024) :
    st (Pipeline.withArrays spec0 c (Fr.V0 (F := Ideal) m c) fun w => (Fr.dats (F := Ideal) m 0 c).arrAt w cfg0.N) h n
      = halfState (Xof (m ((c.tc : Thread nD τ).loc main_arg0))) (Wof (m ((c.tc : Thread nD τ).loc main_arg1))) (yof (m ((c.tc : Thread nD τ).loc main_arg2))) h n 50 := by
  have e3 : Pipeline.withArrays spec0 c (Fr.V0 (F := Ideal) m c) (fun w => (Fr.dats (F := Ideal) m 0 c).arrAt w cfg0.N) (Proc.devRef .tc main_v11_0)
      = (Fr.dats (F := Ideal) m 0 c).arrAt 3 cfg0.N := Pipeline.withArrays_arr spec0 launch0.win.arr_inj c _ _ 3
  have e4 : Pipeline.withArrays spec0 c (Fr.V0 (F := Ideal) m c) (fun w => (Fr.dats (F := Ideal) m 0 c).arrAt w cfg0.N) (Proc.devRef .tc main_v11_1)
      = (Fr.dats (F := Ideal) m 0 c).arrAt 4 cfg0.N := Pipeline.withArrays_arr spec0 launch0.win.arr_inj c _ _ 4
  have e5 : Pipeline.withArrays spec0 c (Fr.V0 (F := Ideal) m c) (fun w => (Fr.dats (F := Ideal) m 0 c).arrAt w cfg0.N) (Proc.devRef .tc main_v11_2)
      = (Fr.dats (F := Ideal) m 0 c).arrAt 5 cfg0.N := Pipeline.withArrays_arr spec0 launch0.win.arr_inj c _ _ 5
  unfold st
  rw [e3, e4, e5, final3 m c hr, final4 m c hr, final5 m c hr]
  rfl

/-- The result buffer after the later host operations: the mean over the rows of the merged halves. -/
theorem tail_value (c : Dev nD) (hr : InRange (m ((c.tc : Thread nD τ).loc main_arg2))) :
    Pipeline.afterTail₀ cfgs (Fr.dats (F := Ideal) m) 0 (Fr.V0 (F := Ideal) m) [hostOps1, hostOps1_1, hostOps1_2] c main_v67
      = fun _ => Kform (Xof (m ((c.tc : Thread nD τ).loc main_arg0))) (Wof (m ((c.tc : Thread nD τ).loc main_arg1))) (yof (m ((c.tc : Thread nD τ).loc main_arg2))) := by
  unfold Pipeline.afterTail₀
  refine (tail_apply _).trans ?_
  funext _
  unfold Kform
  refine congrArg (fun s => Ideal.div s _) (Finset.sum_congr rfl fun n _ => ?_)
  exact congrArg₂ epi (st_final m c hr 0 n) (st_final m c hr 1 n)

end

end Res

/-! ## The run -/

/-- From any memory with zero counters whose label words are classes: every weakly fair execution of the kernel's
    program terminates with the result buffer at `Kform` of the arguments, the arguments unchanged. -/
theorem kernel_value (m : (ℓ : Loc nD τ sig) → Buf (Elt Ideal) ℓ) (ρ : Dev nD → PrngReg)
    (hr : ∀ c : Dev nD, InRange (m ((c.tc : Thread nD τ).loc main_arg2))) :
    θ_run (defs (F := Ideal)) (onTc (τ := τ) (main (F := Ideal))) ⟨m, fun _ => 0, ρ⟩ (fun r => ∀ c : Dev nD,
      r.2.mem ((c.tc : Thread nD τ).loc main_v67) = (fun _ => Kform (Xof (m ((c.tc : Thread nD τ).loc main_arg0))) (Wof (m ((c.tc : Thread nD τ).loc main_arg1))) (yof (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun r h c =>
    ⟨((h c).2 main_v67 (Pipeline.mem_restRefs_of main_v67 (by decide) (by decide))).trans (Res.tail_value m c (hr c)),
      ((h c).2 main_arg0 (Pipeline.mem_restRefs_of main_arg0 (by decide) (by decide))).trans (Fr.W_main_arg0 m (Fr.dats m) c),
      ((h c).1 1).trans (((Fr.dats m 0 c).arrAt_in 1 rfl _).trans ((Fr.A_eq m c 1).trans (Fr.V_main_arg1 m c))),
      ((h c).2 main_arg2 (Pipeline.mem_restRefs_of main_arg2 (by decide) (by decide))).trans (Fr.W_main_arg2 m (Fr.dats m) c)⟩)
    (Fr.run_main (F := Ideal) m ρ)

end Cert.KernelIdeal.Val

end
-- ==== Proof.LibIndexWrap.lean ====
/-
  Signed index words wrapped the NumPy way, and masks that are all ones.

  An index word `s` into an axis of extent `n` is wrapped as `if s < 0 then s + n else s` (signed compare, wrapping
  add). If `-n ≤ s < n` as a signed integer, the wrapped word lies in `[0, n)`, so a range test
  `0 ≤ s' ∧ s' ≤ n - 1` of it is the bit 1 (`wrap_inRange`, `rangeTest_wrap`). A reduce by `and` from the initial
  bit 1 over bits that are all 1 is 1 at every result index (`reduce_andi_of_all`, the converse of the library's
  `Host.reduce_andi_eq_one`), and a select under a mask that is 1 everywhere is its first branch (`select_of_ones`).
-/
import Idealize.ShloMosaic.Lib.ReduceAll
import Idealize.ShloMosaic.Lib.StableHlo.Predicate

namespace Idealize.ShloMosaic.IndexWrap

open Idealize.ShloMosaic

/-- NumPy's wrap of a signed index word into an axis of extent `n`: a negative index counts from the end. -/
def wrapWord (n s : BitVec 32) : BitVec 32 := Scalar.select (IntOp.cmpi .slt s 0#32) (IntOp.addi s n) s

/-- A signed index in `[-n, n)` wraps into `[0, n)`. -/
theorem wrap_inRange (n : Nat) (hn : n < 2 ^ 30) (s : BitVec 32) (h1 : -(n : Int) ≤ s.toInt) (h2 : s.toInt < n) :
    0 ≤ (wrapWord (BitVec.ofNat 32 n) s).toInt ∧ (wrapWord (BitVec.ofNat 32 n) s).toInt < n := by
  have hz : (0#32 : BitVec 32).toInt = 0 := by decide
  have hnI : (BitVec.ofNat 32 n).toInt = n := StableHlo.Predicate.toInt_ofNat_small n (by omega)
  unfold wrapWord Scalar.select
  by_cases hs : IntOp.cmpi .slt s 0#32 = 1
  · rw [if_pos hs]
    have hneg : s.toInt < 0 := by have := IntOp.cmpi_slt.1 hs; rwa [hz] at this
    have hsum : (IntOp.addi s (BitVec.ofNat 32 n)).toInt = s.toInt + n := by
      rw [IntOp.addi, BitVec.toInt_add, hnI]
      exact Int.bmod_eq_of_le (by omega) (by omega)
    rw [hsum]; omega
  · rw [if_neg hs]
    have hnn : ¬ s.toInt < 0 := fun h => hs (IntOp.cmpi_slt.2 (by rw [hz]; exact h))
    omega

/-- The range test `0 ≤ s' ∧ s' ≤ hi` (signed) of a wrapped index, `hi` the word of `n - 1`, is the bit 1. -/
theorem rangeTest_wrap (n : Nat) (hn0 : 0 < n) (hn : n < 2 ^ 30) (hi : BitVec 32) (hhi : hi.toInt = (n : Int) - 1)
    (s : BitVec 32) (h1 : -(n : Int) ≤ s.toInt) (h2 : s.toInt < n) :
    IntOp.andi (IntOp.cmpi .sge (wrapWord (BitVec.ofNat 32 n) s) 0#32) (IntOp.cmpi .sle (wrapWord (BitVec.ofNat 32 n) s) hi) = 1#1 := by
  have hz : (0#32 : BitVec 32).toInt = 0 := by decide
  obtain ⟨h0, hlt⟩ := wrap_inRange n hn s h1 h2
  exact IntOp.andi_eq_one.2 ⟨IntOp.cmpi_sge.2 (by rw [hz]; exact h0), IntOp.cmpi_sle.2 (by rw [hhi]; omega)⟩

/-- A left fold by `and` from 1 over bits that are all 1 is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_ones f l _ (IntOp.andi_eq_one.2 ⟨h, hl a (List.mem_cons_self ..)⟩) (fun n hn => hl n (List.mem_cons_of_mem _ hn))

/-- A reduce by `and` from the initial bit 1 over an operand that is 1 everywhere is 1 at every result index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_ones x _ _ (hinit _) (fun i _ => hx i)

/-- Under a mask that is 1 everywhere a select is its first branch. -/
theorem select_of_ones {α : Type} {s : Shape} (c : IVec s 1) (a b : s.Idx → α) (hc : ∀ i, c i = 1#1) : select c a b = a :=
  funext fun i => by
    show Scalar.select (c i) (a i) (b i) = a i
    rw [hc i]; exact if_pos rfl

end Idealize.ShloMosaic.IndexWrap
-- ==== Proof.RefValue.lean ====
/-
  What the reference computes, as the formula `Cert.ArcSpec.Rform` of its three arguments: the rows of the features
  and of the weights divided by their clamped norms, the inner products clipped to [-1, 1], the margin form at the
  label column, the scale by 64, the row's shifted log-softmax read at the label column, negated and averaged. The
  label column is read by a gather whose index is the label word itself when that word is a class (below 100000):
  then the wrap of negative indices does nothing, the range test passes on every row, and the fill value is never
  selected.
-/
import proofs.«431442_j45981919871044_3_alg».proof.Proof.RefRunP
import proofs.«431442_j45981919871044_3_alg».proof.Proof.RefReadP
import proofs.«431442_j45981919871044_3_alg».proof.Proof.Args
import proofs.«431442_j45981919871044_3_alg».proof.Proof.LibIndexWrap
import Idealize.ShloMosaic.Lib.ValueIdxRank1
import Mathlib.Data.Finset.Fold

noncomputable section

open scoped BigOperators

namespace Cert.ReferenceIdeal.RefValue

open Cert.ReferenceIdeal Cert.ReferenceIdeal.Gen Cert.ReferenceIdeal.ReadP Cert.ArcSpec
open Idealize.ShloMosaic Idealize.ShloMosaic.TcCoe Idealize.ShloMosaic.ValueIdx Idealize.SL.Sem

/-! ## Words and folds -/

/-- A fold by an operation that is the maximum, from `b`, is the maximum of `b` and the supremum. -/
theorem fold_eq_max_sup {ι α : Type} [LinearOrder α] [OrderBot α] (op : α → α → α) [Std.Commutative op] [Std.Associative op]
    (hop : ∀ a b, op a b = max a b) (s : Finset ι) (b : α) (f : ι → α) :
    s.fold op b f = max b (s.sup f) := by
  classical
  induction s using Finset.induction_on with
  | empty => simp
  | insert a s ha ih =>
    rw [Finset.fold_insert ha, ih, Finset.sup_insert, hop]
    exact max_left_comm _ _ _

/-- A one-bit word read as an unsigned number is one or zero. -/
theorem uitofp_bit (b : BitVec 1) : FloatOps.uitofp (F := Ideal) .f32 b = if b = 1#1 then (1 : EReal) else 0 := by
  rcases BitVec.eq_zero_or_eq_one b with h | h
  · subst h; show (((0#1 : BitVec 1).toNat : ℝ) : EReal) = _; simp
  · subst h; show (((1#1 : BitVec 1).toNat : ℝ) : EReal) = _; simp

/-- Two numbers below 2^32 with the same 32-bit word are equal. -/
theorem ofNat_inj_small (a b : Nat) (ha : a < 2 ^ 32) (hb : b < 2 ^ 32) (h : BitVec.ofNat 32 a = BitVec.ofNat 32 b) : a = b := by
  have := congrArg BitVec.toNat h
  simp only [BitVec.toNat_ofNat] at this
  omega

/-- A label word below 100000 is not negative, so the wrap of negative indices leaves it. -/
theorem wrap_id (s : BitVec 32) (hs : s.toNat < 100000) :
    Scalar.select (IntOp.cmpi .slt s 0#32) (IntOp.addi s 100000#32) s = s := by
  have hI : s.toInt = s.toNat := StableHlo.Predicate.toInt_eq_toNat_of_lt (by omega)
  have hz : (0#32 : BitVec 32).toInt = 0 := by decide
  have : ¬ IntOp.cmpi .slt s 0#32 = 1#1 := fun h => by
    have := IntOp.cmpi_slt.1 h; rw [hz, hI] at this; omega
  exact if_neg this

/-- A label word below 100000 passes the test 0 ≤ s ≤ 99999. -/
theorem range_ok (s : BitVec 32) (hs : s.toNat < 100000) :
    IntOp.andi (IntOp.cmpi .sge s 0#32) (IntOp.cmpi .sle s 99999#32) = 1#1 := by
  have hI : s.toInt = s.toNat := StableHlo.Predicate.toInt_eq_toNat_of_lt (by omega)
  have hz : (0#32 : BitVec 32).toInt = 0 := by decide
  have h9 : (99999#32 : BitVec 32).toInt = 99999 := by decide
  exact IntOp.andi_eq_one.2 ⟨IntOp.cmpi_sge.2 (by rw [hz, hI]; omega), IntOp.cmpi_sle.2 (by rw [h9, hI]; omega)⟩

/-! ## The two reads the stages do not give: the row maximum and the gather -/

/-- A row's index with the column put back. -/
theorem lift_eq (h : S1024x100000.Reduces [1] S1024) (n : Fin 1024) (k : Fin 100000) :
    h.lift (ix1 n) k = ix2 n k := by
  funext a
  refine Fin.ext ?_
  match a with
  | ⟨0, _⟩ => rfl
  | ⟨1, _⟩ => rfl

/-- The maximum over a row from an initial value: the larger of that value and the row's supremum. -/
theorem rowmax_apply (x : S1024x100000.Idx → EReal) (init : S_.Idx → EReal) (n : Fin 1024) :
    Host.reduce (FloatOps.maximumf (F := Ideal) (φ := .f32)) x init reducesTo_S1024x100000_S1024_d1 h_S_ (ix1 n)
      = max (init (Shape.Idx.first h_S_)) (Finset.univ.sup fun c : Fin 100000 => x (ix2 n c)) := by
  have h : S1024x100000.Reduces [1] S1024 := by decide
  refine (Host.reduce_eq_fold_single (FloatOps.maximumf (F := Ideal) (φ := .f32)) x init reducesTo_S1024x100000_S1024_d1 h h_S_ (ix1 n)).trans ?_
  refine (fold_eq_max_sup _ (fun _ _ => rfl) _ _ _).trans ?_
  refine congrArg (max _) ?_
  exact Finset.sup_congr rfl (fun k _ => congrArg x (lift_eq h n k))

/-- The gather reads, in row n, the column its start index names (read signed, clamped into the row). -/
theorem gather_apply {α : Type} (x : S1024x100000.Idx → α) (idx : IVec S1024x1x1 32) (n : Fin 1024) :
    Host.gather gather_S1024x100000_S1024x1x1_S1024x1_n_1_0_0_1_2_11 x idx (ix2 n (0 : Fin 1))
      = x (ix2 n (⟨min (idx (ix3 n (0 : Fin 1) (0 : Fin 1))).toInt.toNat 99999, by omega⟩ : Fin 100000)) := by
  unfold Host.gather
  congr 1
  funext a
  refine Fin.ext ?_
  match a with
  | ⟨0, _⟩ =>
    show gather_S1024x100000_S1024x1x1_S1024x1_n_1_0_0_1_2_11.start (ix2 n (0 : Fin 1)) idx 0 + gather_S1024x100000_S1024x1x1_S1024x1_n_1_0_0_1_2_11.batchCoord (ix2 n (0 : Fin 1)) 0 + gather_S1024x100000_S1024x1x1_S1024x1_n_1_0_0_1_2_11.offCoord (ix2 n (0 : Fin 1)) 0 = n.val
    rw [GatherDims.offCoord_eq_zero _ _ _ (fun h => ((GatherDims.mem_sKept _ _).mp h).2 (by decide))]
    unfold GatherDims.start
    rw [dif_neg (by decide)]
    unfold GatherDims.batchCoord
    rw [dif_pos (by decide), Nat.zero_add, Nat.add_zero]
    rfl
  | ⟨1, _⟩ =>
    show gather_S1024x100000_S1024x1x1_S1024x1_n_1_0_0_1_2_11.start (ix2 n (0 : Fin 1)) idx 1 + gather_S1024x100000_S1024x1x1_S1024x1_n_1_0_0_1_2_11.batchCoord (ix2 n (0 : Fin 1)) 1 + gather_S1024x100000_S1024x1x1_S1024x1_n_1_0_0_1_2_11.offCoord (ix2 n (0 : Fin 1)) 1 = _
    rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (show (1 : Fin S1024x100000.rank) ∈ gather_S1024x100000_S1024x1x1_S1024x1_n_1_0_0_1_2_11.startIndexMap by decide)]
    have hsi : gather_S1024x100000_S1024x1x1_S1024x1_n_1_0_0_1_2_11.siIdx (ix2 n (0 : Fin 1)) ⟨List.idxOf (1 : Fin S1024x100000.rank) gather_S1024x100000_S1024x1x1_S1024x1_n_1_0_0_1_2_11.startIndexMap,
        List.idxOf_lt_length_iff.2 (by decide)⟩ = ix3 n (0 : Fin 1) (0 : Fin 1) := by
      funext b; refine Fin.ext ?_
      match b with
      | ⟨0, _⟩ => rfl
      | ⟨1, _⟩ => rfl
      | ⟨2, _⟩ => rfl
    rw [hsi]
    rfl

/-! ## The stages, bottom up -/

section Stages
variable (x0 : (⟨S8x128x512, .f32⟩ : BufTy).Contents (Elt Ideal)) (x1 : (⟨S100000x512, .f32⟩ : BufTy).Contents (Elt Ideal)) (x2 : (⟨S1024, .i32⟩ : BufTy).Contents (Elt Ideal))

/-- The clamped norm of a row of the features. -/
theorem v5_at (a : Fin 8) (b : Fin 128) :
    val_main_v5 (F := Ideal) x0 (ix3 a b (0 : Fin 1))
      = max (Ideal.sqrt (∑ k : Fin 512, x0 (ix3 a b k) * x0 (ix3 a b k))) (lit 0x2B8CBCCC#32) := by
  rw [val_main_v5_apply, val_main_v3_apply, val_main_v2_apply, val_main_v1_apply, val_main_v4_apply,
    val_main_cst_0_apply, val_main_cst_apply]
  simp only [Ideal.maximumf_def, Ideal.hostUnary_sqrt_def, Ideal.ofBits_def, Ideal.ofBits_zero_f32, zero_add]
  refine congrArg (fun s => max (Ideal.sqrt s) _) (Finset.sum_congr rfl fun k _ => ?_)
  rw [val_main_v0_apply]
  have hi : idx_main_v1 (idx_main_v2 (ix3 a b (0 : Fin 1))) k = ix3 a b k := by
    funext c; match c with | ⟨0, _⟩ => rfl | ⟨1, _⟩ => rfl | ⟨2, _⟩ => rfl
  rw [hi]; rfl

/-- The normalised features, read as rows. -/
theorem v8_at (n : Fin 1024) (d : Fin 512) :
    val_main_v8 (F := Ideal) x0 (ix2 n d) = unit (Xof x0) n d := by
  have hidx : idx_main_v8 (ix2 n d)
      = ix3 (⟨n.val / 128, by have := n.isLt; omega⟩ : Fin 8) (⟨n.val % 128, Nat.mod_lt _ (by norm_num)⟩ : Fin 128) d := by
    funext c; refine Fin.ext ?_
    have hn := n.isLt; have hd := d.isLt
    match c with
    | ⟨0, _⟩ => show (n.val * 512 + d.val) / 65536 = n.val / 128; omega
    | ⟨1, _⟩ => show (n.val * 512 + d.val) / 512 % 128 = n.val % 128; omega
    | ⟨2, _⟩ => show (n.val * 512 + d.val) % 512 = d.val; omega
  rw [val_main_v8_apply, hidx, val_main_v7_apply, val_main_v6_apply]
  have h6 : idx_main_v6 (ix3 (⟨n.val / 128, by have := n.isLt; omega⟩ : Fin 8) (⟨n.val % 128, Nat.mod_lt _ (by norm_num)⟩ : Fin 128) d)
      = ix3 (⟨n.val / 128, by have := n.isLt; omega⟩ : Fin 8) (⟨n.val % 128, Nat.mod_lt _ (by norm_num)⟩ : Fin 128) (0 : Fin 1) := by
    funext c; match c with | ⟨0, _⟩ => rfl | ⟨1, _⟩ => rfl | ⟨2, _⟩ => rfl
  rw [h6, v5_at]
  rfl

/-- The clamped norm of a row of the weights. -/
theorem v14_at (c : Fin 100000) :
    val_main_v14 (F := Ideal) x1 (ix2 c (0 : Fin 1))
      = max (Ideal.sqrt (∑ k : Fin 512, x1 (ix2 c k) * x1 (ix2 c k))) (lit 0x2B8CBCCC#32) := by
  rw [val_main_v14_apply, val_main_v12_apply, val_main_v11_apply, val_main_v10_apply, val_main_v13_apply,
    val_main_cst_2_apply, val_main_cst_1_apply]
  simp only [Ideal.maximumf_def, Ideal.hostUnary_sqrt_def, Ideal.ofBits_def, Ideal.ofBits_zero_f32, zero_add]
  refine congrArg (fun s => max (Ideal.sqrt s) _) (Finset.sum_congr rfl fun k _ => ?_)
  rw [val_main_v9_apply]
  have hi : idx_main_v10 (idx_main_v11 (ix2 c (0 : Fin 1))) k = ix2 c k := by
    funext a; match a with | ⟨0, _⟩ => rfl | ⟨1, _⟩ => rfl
  rw [hi]; rfl

/-- The normalised weights. -/
theorem v16_at (c : Fin 100000) (d : Fin 512) :
    val_main_v16 (F := Ideal) x1 (ix2 c d) = unit (Wof x1) c d := by
  rw [val_main_v16_apply, val_main_v15_apply]
  have h15 : idx_main_v15 (ix2 c d) = ix2 c (0 : Fin 1) := by
    funext a; match a with | ⟨0, _⟩ => rfl | ⟨1, _⟩ => rfl
  rw [h15, v14_at]
  rfl

/-- The inner product of a normalised sample and a normalised class. -/
theorem v17_at (n : Fin 1024) (c : Fin 100000) :
    val_main_v17 (F := Ideal) x0 x1 (ix2 n c) = ∑ d : Fin 512, unit (Xof x0) n d * unit (Wof x1) c d := by
  rw [val_main_v17_apply]
  refine Finset.sum_congr rfl fun k _ => ?_
  have hl : lidx_main_v17 (ix2 n c) k = ix2 n k := by
    funext a; match a with | ⟨0, _⟩ => rfl | ⟨1, _⟩ => rfl
  have hr : ridx_main_v17 (ix2 n c) k = ix2 c k := by
    funext a; match a with | ⟨0, _⟩ => rfl | ⟨1, _⟩ => rfl
  rw [hl, hr, v8_at, v16_at]

/-- The clipped cosine. -/
theorem v18_at (n : Fin 1024) (c : Fin 100000) :
    val_main_v18 (F := Ideal) x0 x1 (ix2 n c) = cosv (Xof x0) (Wof x1) n c := by
  rw [val_main_v18_apply, val_main_call0_v4_apply, val_main_call0_v3_apply, val_main_cst_4_apply,
    val_main_call0_v2_apply, val_main_call0_v1_apply, val_main_call0_v0_apply, val_main_cst_3_apply, v17_at]
  rfl

/-- The reference's sine of the clipped cosine. -/
theorem v24_at (n : Fin 1024) (c : Fin 100000) :
    val_main_v24 (F := Ideal) x0 x1 (ix2 n c) = sinR (cosv (Xof x0) (Wof x1) n c) := by
  rw [val_main_v24_apply, val_main_v23_apply, val_main_v21_apply, val_main_v20_apply, val_main_cst_5_apply,
    val_main_v19_apply, val_main_v22_apply, val_main_cst_6_apply, v18_at]
  rfl

/-- The margin form of the clipped cosine. -/
theorem v35_at (n : Fin 1024) (c : Fin 100000) :
    val_main_v35 (F := Ideal) x0 x1 (ix2 n c)
      = marg (sinR (cosv (Xof x0) (Wof x1) n c)) (cosv (Xof x0) (Wof x1) n c) := by
  rw [val_main_v35_apply, val_main_v31_apply, val_main_v30_apply, val_main_cst_9_apply, val_main_v29_apply,
    val_main_v26_apply, val_main_v25_apply, val_main_cst_7_apply, val_main_v28_apply, val_main_v27_apply,
    val_main_cst_8_apply, val_main_v34_apply, val_main_v33_apply, val_main_v32_apply, val_main_cst_10_apply,
    v24_at, v18_at]
  rfl

/-- One at the label's column, zero elsewhere. -/
theorem v36_at (hr : InRange x2) (n : Fin 1024) (c : Fin 100000) :
    val_main_v36 (F := Ideal) x2 (ix2 n c) = onehot (yof x2) n c := by
  rw [val_main_v36_apply, val_main_call2_v4_apply, val_main_call2_v2_apply, val_main_call2_v0_apply,
    val_main_call2_v3_apply, val_main_call2_v1_apply]
  have h1 : idx_main_call2_v0 (idx_main_call2_v2 (ix2 n c)) = ix1 n := by
    funext a; match a with | ⟨0, _⟩ => rfl
  rw [h1, label_eq x2 hr n, uitofp_bit]
  show (if IntOp.cmpi .eq (BitVec.ofNat 32 (yof x2 n).val) (BitVec.ofNat 32 c.val) = 1#1 then (1 : EReal) else 0)
    = if c = yof x2 n then 1 else 0
  by_cases h : c = yof x2 n
  · rw [if_pos h, if_pos (IntOp.cmpi_eq.2 (by rw [h]))]
  · rw [if_neg h, if_neg]
    intro h'
    have hc := c.isLt; have hy := (yof x2 n).isLt
    exact h (Fin.ext (ofNat_inj_small _ _ (by omega) (by omega) (IntOp.cmpi_eq.1 h')).symm)

/-- The scaled logits. -/
theorem v43_at (hr : InRange x2) (n : Fin 1024) (c : Fin 100000) :
    val_main_v43 (F := Ideal) x0 x1 x2 (ix2 n c) = logitsR (Xof x0) (Wof x1) (yof x2) n c := by
  rw [val_main_v43_apply, val_main_v42_apply, val_main_cst_12_apply, val_main_v41_apply, val_main_v37_apply,
    val_main_v40_apply, val_main_v39_apply, val_main_v38_apply, val_main_cst_11_apply, v36_at x2 hr, v35_at, v18_at]
  rfl

/-- The row maximum the log-softmax shifts by. -/
theorem call3_v2_at (hr : InRange x2) (n : Fin 1024) :
    val_main_call3_v2 (F := Ideal) x0 x1 x2 (ix1 n) = rowMaxR (Xof x0) (Wof x1) (yof x2) n := by
  rw [val_main_call3_v2_apply, val_main_call3_v1_apply, val_main_call3_cst_0_apply]
  unfold val_main_call3_v0
  rw [rowmax_apply, val_main_call3_cst_apply]
  simp only [Ideal.maximumf_def, Ideal.ofBits_def]
  rw [← max_assoc, max_self]
  unfold rowMaxR
  exact congrArg (max _) (Finset.sup_congr rfl fun c _ => v43_at x0 x1 x2 hr n c)

/-- The shifted logits. -/
theorem call3_v5_at (hr : InRange x2) (n : Fin 1024) (c : Fin 100000) :
    val_main_call3_v5 (F := Ideal) x0 x1 x2 (ix2 n c) = shiftedR (Xof x0) (Wof x1) (yof x2) n c := by
  rw [val_main_call3_v5_apply, val_main_call3_v4_apply, val_main_call3_v3_apply]
  have h1 : idx_main_call3_v3 (idx_main_call3_v4 (ix2 n c)) = ix1 n := by
    funext a; match a with | ⟨0, _⟩ => rfl
  rw [h1, call3_v2_at x0 x1 x2 hr, v43_at x0 x1 x2 hr]
  rfl

/-- The log-softmax. -/
theorem v44_at (hr : InRange x2) (n : Fin 1024) (c : Fin 100000) :
    val_main_v44 (F := Ideal) x0 x1 x2 (ix2 n c)
      = shiftedR (Xof x0) (Wof x1) (yof x2) n c
        - Ideal.log (∑ c' : Fin 100000, Ideal.exp (shiftedR (Xof x0) (Wof x1) (yof x2) n c')) := by
  rw [val_main_v44_apply, call3_v5_at x0 x1 x2 hr, val_main_call3_v10_apply, val_main_call3_v9_apply,
    val_main_call3_v8_apply]
  have h1 : idx_main_call3_v8 (idx_main_call3_v10 (ix2 n c)) = ix1 n := by
    funext a; match a with | ⟨0, _⟩ => rfl
  have hsum : (∑ k : Fin 100000, val_main_call3_v6 (F := Ideal) x0 x1 x2 (idx_main_call3_v7 (ix1 n) k))
      = ∑ c' : Fin 100000, Ideal.exp (shiftedR (Xof x0) (Wof x1) (yof x2) n c') := by
    refine Finset.sum_congr rfl fun k _ => ?_
    rw [val_main_call3_v6_apply]
    have h2 : idx_main_call3_v7 (ix1 n) k = ix2 n k := by
      funext a; match a with | ⟨0, _⟩ => rfl | ⟨1, _⟩ => rfl
    rw [h2, call3_v5_at x0 x1 x2 hr]
    rfl
  rw [h1, val_main_call3_v7_apply, val_main_call3_cst_1_apply, hsum]
  simp only [Ideal.subf_def, Ideal.hostUnary_log_def, Ideal.ofBits_def, Ideal.ofBits_zero_f32, zero_add]

/-- The wrapped start index of row n is the label word. -/
theorem call4_v5_at (hr : InRange x2) (n : Fin 1024) (a b : Fin 1) :
    val_main_call4_v5 (F := Ideal) x2 (ix3 n a b) = x2 (ix1 n) := by
  have hidx : idx_main_call4_v5 (ix3 n a b) = ix2 n (0 : Fin 1) := by
    funext c
    have ha := a.isLt; have hb := b.isLt
    match c with
    | ⟨0, _⟩ => exact Fin.ext (by show ((n.val * 1 + a.val) * 1 + b.val) / 1 = n.val; omega)
    | ⟨1, _⟩ => rfl
  rw [val_main_call4_v5_apply, hidx, val_main_call4_v4_apply, val_main_call4_v1_apply, val_main_call4_v3_apply,
    val_main_call4_v0_apply, val_main_call4_c_apply, val_main_call4_v2_apply, val_main_call4_c_0_apply,
    val_main_v45_apply]
  have h45 : idx_main_v45 (ix2 n (0 : Fin 1)) = ix1 n := by
    funext c; match c with | ⟨0, _⟩ => rfl
  rw [h45]
  exact wrap_id _ (hr n)

/-- The range test passes at every index. -/
theorem call4_v11_at (hr : InRange x2) (n : Fin 1024) (a b : Fin 1) :
    val_main_call4_v11 (F := Ideal) x2 (ix3 n a b) = 1#1 := by
  rw [val_main_call4_v11_apply, val_main_call4_v7_apply, val_main_call4_v10_apply, call4_v5_at x2 hr,
    val_main_call4_v6_apply, val_main_call4_c_2_apply, val_main_call4_v9_apply, val_main_call4_v8_apply,
    val_main_call4_c_1_apply]
  exact range_ok _ (hr n)

/-- So its reduction by and is 1 on every row. -/
theorem call4_v12_at (hr : InRange x2) (i : S1024x1.Idx) : val_main_call4_v12 (F := Ideal) x2 i = 1#1 := by
  unfold val_main_call4_v12
  refine IndexWrap.reduce_andi_of_all _ _ _ _ (fun _ => rfl) (fun j => ?_) i
  rw [eq_ix3 j]
  exact call4_v11_at x2 hr _ _ _

/-- The take along the columns reads the log-softmax at the label's column. -/
theorem v46_at (hr : InRange x2) (n : Fin 1024) :
    val_main_v46 (F := Ideal) x0 x1 x2 (ix2 n (0 : Fin 1)) = val_main_v44 (F := Ideal) x0 x1 x2 (ix2 n (yof x2 n)) := by
  rw [val_main_v46_apply, call4_v12_at x2 hr, select_one]
  unfold val_main_call4_v13
  rw [gather_apply]
  refine congrArg _ ?_
  funext a
  match a with
  | ⟨0, _⟩ => rfl
  | ⟨1, _⟩ =>
    refine Fin.ext ?_
    show min (val_main_call4_v5 (F := Ideal) x2 (ix3 n (0 : Fin 1) (0 : Fin 1))).toInt.toNat 99999 = (yof x2 n).val
    have hs := hr n
    rw [call4_v5_at x2 hr, yof_val x2 hr n, StableHlo.Predicate.toInt_eq_toNat_of_lt (by omega)]
    omega

/-- Minus the log-probability of row n's label. -/
theorem v48_at (hr : InRange x2) (n : Fin 1024) :
    val_main_v48 (F := Ideal) x0 x1 x2 (ix1 n) = nllR (Xof x0) (Wof x1) (yof x2) n := by
  rw [val_main_v48_apply, val_main_v47_apply]
  have h47 : idx_main_v47 (ix1 n) = ix2 n (0 : Fin 1) := by
    funext a
    match a with
    | ⟨0, _⟩ => exact Fin.ext (Nat.div_one _)
    | ⟨1, _⟩ => rfl
  rw [h47, v46_at x0 x1 x2 hr, v44_at x0 x1 x2 hr]
  rfl

end Stages

/-- The reference's last stage is the constant array at `Rform` of the arguments. -/
theorem ref_value (x0 : (⟨S8x128x512, .f32⟩ : BufTy).Contents (Elt Ideal)) (x1 : (⟨S100000x512, .f32⟩ : BufTy).Contents (Elt Ideal))
    (x2 : (⟨S1024, .i32⟩ : BufTy).Contents (Elt Ideal)) (hr : InRange x2) :
    val_main_v50 (F := Ideal) x0 x1 x2 = fun _ => Rform (Xof x0) (Wof x1) (yof x2) := by
  funext i
  rw [val_main_v50_apply, val_main_v49_apply, val_main_cst_13_apply, val_main_cst_14_apply]
  simp only [Ideal.hostDivf_def, Ideal.ofBits_def, Ideal.ofBits_zero_f32, zero_add]
  unfold Rform
  refine congrArg (fun s => Ideal.div s _) ?_
  refine (Equiv.sum_comp (idxEquiv1 (n := 1024)).symm _).symm.trans (Finset.sum_congr rfl fun n _ => ?_)
  exact v48_at x0 x1 x2 hr n

/-- The same for the run's result term. -/
theorem ref_result (m : (ℓ : Loc nD τ sig) → Buf (Elt Ideal) ℓ) (c : Dev nD)
    (hr : InRange (m ((c.tc : Thread nD τ).loc main_arg2))) :
    Cert.ReferenceIdeal.ValueP.res_main_v50 m c
      = fun _ => Rform (Xof (m ((c.tc : Thread nD τ).loc main_arg0))) (Wof (m ((c.tc : Thread nD τ).loc main_arg1)))
          (yof (m ((c.tc : Thread nD τ).loc main_arg2))) := by
  rw [val_main_v50_eq]; exact ref_value _ _ _ hr

end Cert.ReferenceIdeal.RefValue

end
-- ==== Proof.LibTRef.lean ====
/-
  Typed references of a module-local function: moving a value to the buffer's own type and back is the identity.

  An operation of an outlined function is stated over references that carry the type of the tensor they hold; its
  function is moved to the buffer's own contents type along the equation of the two types (`toBuf`) and each operand
  is moved back (`ofBuf`). Reading a line of such operations leaves a pair `ofBuf (toBuf v)` around every
  intermediate value; the pair is the identity, whatever the reference.
-/
import Idealize.ShloMosaic.Lib.StableHlo

namespace Idealize.ShloMosaic.StableHlo.TRef

variable {sig : RefSig} {Val : EltTy → Type} {T : BufTy}

/-- To the buffer's type and back. -/
theorem ofBuf_toBuf (x : TRef sig T) (v : T.Contents Val) : x.ofBuf (x.toBuf v) = v := by
  obtain ⟨r, rfl, h1, h2⟩ := x
  rfl

/-- Back and to the buffer's type. -/
theorem toBuf_ofBuf (x : TRef sig T) (v : x.ref.ty.Contents Val) : x.toBuf (x.ofBuf v) = v := by
  obtain ⟨r, rfl, h1, h2⟩ := x
  rfl

end Idealize.ShloMosaic.StableHlo.TRef
-- ==== Proof.RefRunQ.lean ====
/-
  The reference's run, stated over the stages: every weakly fair execution of the reference's program ends with its
  result buffer at the last stage `val_main_v50` of the three arguments, the arguments unchanged.

  The program is one straight line of 112 operations, and its result is the line's fold read at the result buffer.
  Two values of the line are used several times further down — the scaled logits (by the row maximum and by the
  shifted logits of the log-softmax) and the log-softmax with the labels as a column (by the take along the columns).
  The fold is therefore read in three stretches, cut after those two: the buffer contents at a cut are given a
  name, of them only the values the next stretch reads are kept, each already known to be its stage, and each stretch
  is then a short composition of operations over named values, which is the next stage by definition.
-/
import proofs.«431442_j45981919871044_3_alg».proof.Proof.RefReadP
import proofs.«431442_j45981919871044_3_alg».proof.Proof.LibTRef
import Idealize.ShloMosaic.Lib.StableHlo.Run

noncomputable section

namespace Cert.ReferenceIdeal.RunQ

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

set_option maxRecDepth 65536 in
set_option maxHeartbeats 4000000 in
/-- The operations' fold at the result buffer is the last stage of the arguments' contents. First stretch: up to the
    scaled logits. Second: the log-softmax and the labels as a column, from contents `W` of which only the scaled
    logits and the labels are known; the casts between a value's type and its buffer's type cancel in pairs, and
    the stretch's stages unfold to the very composition the operations leave. Third: the rest, from contents `W3` of
    which only the log-softmax and the label column are known. -/
theorem after_ops_v50 (V : Valuation τ sig (Elt F)) :
    StableHlo.after (ops (F := F)) V (Proc.devRef .tc main_v50)
      = val_main_v50 (F := F) (V (Proc.devRef .tc main_arg0)) (V (Proc.devRef .tc main_arg1)) (V (Proc.devRef .tc main_arg2)) := by
  simp only [ops, after_cons, after_nil]
  generalize hW : HloOp.result (binary main_v41 main_v42 main_v43 _ _ _ _) _ = W
  have e43 : W (Proc.devRef .tc main_v43) = val_main_v43 (F := F) (V (Proc.devRef .tc main_arg0)) (V (Proc.devRef .tc main_arg1)) (V (Proc.devRef .tc main_arg2)) := by
    rw [← hW]
    after_results_simp
    rfl
  have e43' : (TRef.of (T := ⟨S1024x100000, .f32⟩) main_v43).ofBuf (W (Proc.devRef .tc main_v43))
      = val_main_v43 (F := F) (V (Proc.devRef .tc main_arg0)) (V (Proc.devRef .tc main_arg1)) (V (Proc.devRef .tc main_arg2)) := by
    rw [e43]; rfl
  have ea2 : W (Proc.devRef .tc main_arg2) = V (Proc.devRef .tc main_arg2) := by
    rw [← hW]
    after_results_simp
  clear hW e43
  generalize hW3 : HloOp.result (unary main_arg2 main_v45 _ _ _) _ = W3
  have e44' : (TRef.of (T := ⟨S1024x100000, .f32⟩) main_v44).ofBuf (W3 (Proc.devRef .tc main_v44))
      = val_main_v44 (F := F) (V (Proc.devRef .tc main_arg0)) (V (Proc.devRef .tc main_arg1)) (V (Proc.devRef .tc main_arg2)) := by
    rw [← hW3]
    after_results_simp
    simp only [TRef.ofBuf_toBuf]
    rw [e43']
    simp only [val_main_v44, val_main_call3_v10, val_main_call3_v9, val_main_call3_v8, val_main_call3_v7, val_main_call3_cst_1, val_main_call3_v6, val_main_call3_v5, val_main_call3_v4, val_main_call3_v3, val_main_call3_v2, val_main_call3_v1, val_main_call3_cst_0, val_main_call3_v0, val_main_call3_cst]
  have e45 : W3 (Proc.devRef .tc main_v45) = val_main_v45 (F := F) (V (Proc.devRef .tc main_arg2)) := by
    rw [← hW3]
    after_results_simp
    rw [ea2]
    rfl
  clear hW3 e43' ea2
  after_results_simp
  rw [e44', e45]
  rfl

set_option maxRecDepth 65536 in
set_option maxHeartbeats 8000000 in
/-- On every device, for any float values, from any memory with zero counters: every weakly fair execution of
    @main terminates with the result at the last stage of the arguments and the arguments unchanged. -/
theorem run_val (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v50) = val_main_v50 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v50).trans (after_ops_v50 _),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.RunQ

end
-- ==== Proof.MathRow.lean ====
/-
  The kernel's formula is the reference's. Both depend on the inputs only through the clipped cosines, which are real
  numbers in [-1, 1]. In a row with label column y, write x for the cosine there and tl for its margin form (the
  kernel's max (1 - x²) 0 is 1 - x² because |x| ≤ 1, so both programs form the same tl). The reference's shifted
  log-softmax at y is 64 tl - M' - log (sum over c of exp (logit c - M')) with M' the row maximum of its logits; the
  kernel's is 64 tl - (m + log (sum over c ≠ y of exp (64 cr c - m) + exp (64 tl - m))) with m the maximum of the
  margin-free scaled cosines. Both equal 64 tl - log (sum over c of exp (logit c)): a log-sum-exp does not depend on
  the shift, all quantities being real and the sums positive.
-/
import proofs.«431442_j45981919871044_3_alg».proof.Proof.MathHalf
import Mathlib.Data.EReal.Operations
import Mathlib.Data.Finset.Lattice.Fold
import Mathlib.Algebra.BigOperators.Ring.Finset
import Mathlib.Algebra.Order.BigOperators.Group.Finset
import Mathlib.Analysis.Complex.Exponential
import Mathlib.Analysis.SpecialFunctions.Log.Basic

noncomputable section

open scoped BigOperators

namespace Cert.ArcSpec

open Idealize.ShloMosaic

namespace Row

/-! ## The programs' float words

  1, 64, 0 and -inf by value; of cos(1/2), sin(1/2) and 1/2 only that each is a real number, and of 1e-5 that it is
  a positive real number. -/

theorem w_one : lit 0x3F800000#32 = ((1 : ℝ) : EReal) := by
  simp [Ideal.ofBits, Ideal.ieee, -EReal.coe_mul]; norm_num

theorem w_64 : lit 0x42800000#32 = ((64 : ℝ) : EReal) := by
  simp [Ideal.ofBits, Ideal.ieee, -EReal.coe_mul]; norm_num

theorem w_zero : lit 0x00000000#32 = ((0 : ℝ) : EReal) := by
  simp [Ideal.ofBits, Ideal.ieee]

theorem w_ninf : lit 0xFF800000#32 = ⊥ := by
  simp [Ideal.ofBits, Ideal.ieee]

theorem w_cosh : ∃ r : ℝ, lit 0x3F60A940#32 = (r : EReal) := by
  simp [Ideal.ofBits, Ideal.ieee, -EReal.coe_mul]

theorem w_sinh : ∃ r : ℝ, lit 0x3EF57744#32 = (r : EReal) := by
  simp [Ideal.ofBits, Ideal.ieee, -EReal.coe_mul]

theorem w_half : ∃ r : ℝ, lit 0x3F000000#32 = (r : EReal) := by
  simp [Ideal.ofBits, Ideal.ieee, -EReal.coe_mul]

theorem w_eps : ∃ r : ℝ, 0 < r ∧ lit 0x3727C5AC#32 = (r : EReal) := by
  simp [Ideal.ofBits, Ideal.ieee, -EReal.coe_mul]

/-! ## Real numbers inside the extended reals -/

/-- The larger of two real numbers, taken in the extended reals, is their larger as real numbers. -/
theorem coe_max' (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- A finite sum of real numbers, taken in the extended reals, is their sum as real numbers. -/
theorem coe_sum' {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The logarithm of a positive real number is the real logarithm. -/
theorem log_coe_pos {r : ℝ} (h : 0 < r) : Ideal.log (r : EReal) = ((Real.log r : ℝ) : EReal) := by
  rw [Ideal.log_coe, if_neg (not_le.2 h)]

/-! ## Sums of exponentials over the reals -/

/-- A log-sum-exp read against one value does not depend on the shift: since
    sum exp (b c - m') = exp (m - m') * sum exp (b c - m), the logarithms differ by m - m', which the two shifts of
    v make up for. -/
theorem lse_shift {ι : Type} (s : Finset ι) (b : ι → ℝ) (m m' v : ℝ)
    (hpos : 0 < ∑ c ∈ s, Real.exp (b c - m)) :
    (v - m') - Real.log (∑ c ∈ s, Real.exp (b c - m'))
      = v - (m + Real.log (∑ c ∈ s, Real.exp (b c - m))) := by
  have h : ∑ c ∈ s, Real.exp (b c - m') = Real.exp (m - m') * ∑ c ∈ s, Real.exp (b c - m) := by
    rw [Finset.mul_sum]
    refine Finset.sum_congr rfl fun c _ => ?_
    rw [← Real.exp_add]; congr 1; ring
  rw [h, Real.log_mul (Real.exp_pos _).ne' hpos.ne', Real.log_exp]; ring

/-- The first half is the classes below 50000. -/
theorem mem_half0 (c : Fin 100000) : c ∈ half 0 ↔ c.val < 50000 := by
  simp only [half, Finset.mem_filter, Finset.mem_univ, true_and]
  show 50000 * 0 ≤ c.val ∧ c.val < 50000 * (0 + 1) ↔ _
  omega

/-- The second half is the classes from 50000 on. -/
theorem mem_half1 (c : Fin 100000) : c ∈ half 1 ↔ 50000 ≤ c.val := by
  simp only [half, Finset.mem_filter, Finset.mem_univ, true_and]
  show 50000 * 1 ≤ c.val ∧ c.val < 50000 * (1 + 1) ↔ _
  have := c.isLt
  omega

theorem half_disjoint : Disjoint (half 0) (half 1) := by
  rw [Finset.disjoint_left]
  intro c h0 h1
  rw [mem_half0] at h0
  rw [mem_half1] at h1
  omega

theorem half_union : half 0 ∪ half 1 = Finset.univ := by
  ext c
  simp only [Finset.mem_union, mem_half0, mem_half1, Finset.mem_univ, iff_true]
  omega

/-- The two halves partition the classes, so a sum over all classes is the sum of the two halves' sums. -/
theorem sum_halves (f : Fin 100000 → ℝ) : ∑ c ∈ half 0, f c + ∑ c ∈ half 1, f c = ∑ c, f c := by
  rw [← Finset.sum_union half_disjoint, half_union]

/-- Merging the halves: each half's sum of exp (a c - M), rescaled by exp (M - m), is that half's sum of
    exp (a c - m); together they are the sum over all classes. -/
theorem merged_sum (a : Fin 100000 → ℝ) (M0 M1 m : ℝ) :
    (∑ c ∈ half 0, Real.exp (a c - M0)) * Real.exp (M0 - m)
      + (∑ c ∈ half 1, Real.exp (a c - M1)) * Real.exp (M1 - m) = ∑ c, Real.exp (a c - m) := by
  have e : ∀ (M : ℝ) (c : Fin 100000), Real.exp (a c - M) * Real.exp (M - m) = Real.exp (a c - m) := by
    intro M c
    rw [← Real.exp_add]
    congr 1
    ring
  rw [Finset.sum_mul, Finset.sum_mul, ← sum_halves]
  simp only [e]

/-- Exchanging one column's term: taking exp (a y0 - m) out of the sum and putting exp (v - m) in gives the sum for
    the row whose entry at y0 is v. -/
theorem exchange_sum (a : Fin 100000 → ℝ) (y0 : Fin 100000) (v m : ℝ) :
    ∑ c, Real.exp (a c - m) - Real.exp (a y0 - m) + Real.exp (v - m)
      = ∑ c, Real.exp ((if c = y0 then v else a c) - m) := by
  rw [← Finset.add_sum_erase _ (fun c => Real.exp (a c - m)) (Finset.mem_univ y0),
    ← Finset.add_sum_erase _ (fun c => Real.exp ((if c = y0 then v else a c) - m)) (Finset.mem_univ y0)]
  have h : ∑ c ∈ Finset.univ.erase y0, Real.exp ((if c = y0 then v else a c) - m)
      = ∑ c ∈ Finset.univ.erase y0, Real.exp (a c - m) :=
    Finset.sum_congr rfl fun c hc => by rw [if_neg (Finset.ne_of_mem_erase hc)]
  rw [h]
  simp only [if_true]
  ring

/-! ## The margin form is a real number, the same for both sines -/

/-- For a real x in [-1, 1] we have 1 - x² ≥ 0, so the kernel's max (1 - x²) 0 is 1 - x², and both sines are the real
    number sqrt (1 - x² + e) with e the positive constant. -/
theorem sin_real (x : ℝ) (h1 : -1 ≤ x) (h2 : x ≤ 1) :
    ∃ s : ℝ, sinK (x : EReal) = (s : EReal) ∧ sinR (x : EReal) = (s : EReal) := by
  obtain ⟨e, he, hw⟩ := w_eps
  have hxx : x * x ≤ 1 := by nlinarith
  have hm : max (1 - x * x) 0 = 1 - x * x := max_eq_left (by linarith)
  have hn : ¬ (1 - x * x + e < 0) := not_lt.2 (by linarith)
  refine ⟨Real.sqrt (1 - x * x + e), ?_, ?_⟩
  · unfold sinK
    rw [w_one, w_zero, hw, ← EReal.coe_mul, ← EReal.coe_sub, coe_max', hm, ← EReal.coe_add,
      Ideal.sqrt_coe, if_neg hn]
  · unfold sinR
    rw [w_one, hw, ← EReal.coe_mul, ← EReal.coe_sub, ← EReal.coe_add, Ideal.sqrt_coe, if_neg hn]

/-- The margin form of a real x in [-1, 1] is one real number, whichever sine it is given and whichever way the
    comparison goes: both branches are products and differences of real numbers. -/
theorem marg_real (x : ℝ) (h1 : -1 ≤ x) (h2 : x ≤ 1) :
    ∃ t : ℝ, marg (sinK (x : EReal)) (x : EReal) = (t : EReal)
      ∧ marg (sinR (x : EReal)) (x : EReal) = (t : EReal) := by
  obtain ⟨s, hK, hR⟩ := sin_real x h1 h2
  obtain ⟨a, ha⟩ := w_cosh
  obtain ⟨b, hb⟩ := w_sinh
  obtain ⟨c, hc⟩ := w_half
  rw [hK, hR]
  suffices h : ∃ t : ℝ, marg (s : EReal) (x : EReal) = (t : EReal) by
    obtain ⟨t, ht⟩ := h
    exact ⟨t, ht, ht⟩
  unfold marg
  rw [ha, hb, hc]
  split_ifs
  · exact ⟨x * a - s * b, by simp only [EReal.coe_sub, EReal.coe_mul]⟩
  · exact ⟨x - s * c, by simp only [EReal.coe_sub, EReal.coe_mul]⟩

/-! ## One row -/

/-- In row n the kernel's epilogue at the two halves' final states is the reference's negated log-softmax at the
    label. With cr the row's cosines and tl the margin form of the label's cosine, write
    b c = 64 tl at the label and 64 cr c elsewhere. The kernel's merged and exchanged sum is
    sum over c of exp (b c - m) with m the larger of the halves' maxima, and its result is
    -(64 tl - (m + log of that sum)); the reference's logits are the b c, its row maximum is some real M', and its
    result is -((64 tl - M') - log (sum over c of exp (b c - M'))). The two agree because a log-sum-exp does not
    depend on the shift. -/
theorem row_eq (X : Fin 1024 → Fin 512 → EReal) (W : Fin 100000 → Fin 512 → EReal) (y : Fin 1024 → Fin 100000)
    (n : Fin 1024) :
    epi (halfState X W y 0 n 50) (halfState X W y 1 n 50) = nllR X W y n := by
  choose cr hcr hlo hhi using cosv_real X W n
  obtain ⟨M0, -, -, hs0⟩ := halfState_final X W y 0 n cr hcr
  obtain ⟨M1, -, -, hs1⟩ := halfState_final X W y 1 n cr hcr
  obtain ⟨tl, htK, htR⟩ := marg_real (cr (y n)) (hlo _) (hhi _)
  -- the label lies in exactly one half, so the two halves' label sums add up to its cosine
  have hct : (((if y n ∈ half 0 then cr (y n) else 0 : ℝ) : EReal))
      + ((if y n ∈ half 1 then cr (y n) else 0 : ℝ) : EReal) = ((cr (y n) : ℝ) : EReal) := by
    rw [← EReal.coe_add, EReal.coe_eq_coe_iff]
    by_cases h : (y n).val < 50000
    · rw [if_pos ((mem_half0 _).2 h), if_neg (fun h' => by have := (mem_half1 _).1 h'; omega), add_zero]
    · rw [if_neg (fun h' => h ((mem_half0 _).1 h')), if_pos ((mem_half1 _).2 (by omega)), zero_add]
  have hpos : ∀ m : ℝ, 0 < ∑ c, Real.exp ((if c = y n then 64 * tl else 64 * cr c) - m) := fun m =>
    Finset.sum_pos (fun c _ => Real.exp_pos _) Finset.univ_nonempty
  -- the kernel's side
  have hK : epi (halfState X W y 0 n 50) (halfState X W y 1 n 50)
      = ((-(64 * tl - (max M0 M1
          + Real.log (∑ c, Real.exp ((if c = y n then 64 * tl else 64 * cr c) - max M0 M1)))) : ℝ) : EReal) := by
    have hlf : (∑ c ∈ half 0, Real.exp (64 * cr c - M0)) * Real.exp (M0 - max M0 M1)
          + (∑ c ∈ half 1, Real.exp (64 * cr c - M1)) * Real.exp (M1 - max M0 M1)
          - Real.exp (cr (y n) * 64 - max M0 M1) + Real.exp (tl * 64 - max M0 M1)
        = ∑ c, Real.exp ((if c = y n then 64 * tl else 64 * cr c) - max M0 M1) := by
      rw [merged_sum (fun c => 64 * cr c) M0 M1 (max M0 M1), mul_comm (cr (y n)) 64, mul_comm tl 64]
      exact exchange_sum (fun c => 64 * cr c) (y n) (64 * tl) (max M0 M1)
    rw [hs0, hs1]
    simp only [epi]
    rw [hct, htK, w_64]
    simp only [coe_max', ← EReal.coe_sub, ← EReal.coe_mul, Ideal.exp_coe, ← EReal.coe_add]
    rw [hlf, log_coe_pos (hpos _)]
    simp only [← EReal.coe_add, ← EReal.coe_sub, ← EReal.coe_neg]
    rw [mul_comm tl 64]
  -- the reference's logits: the one-hot factor is 1 at the label (leaving the margin form) and 0 elsewhere
  -- (leaving the cosine)
  have hlog : ∀ c, logitsR X W y n c = (((if c = y n then 64 * tl else 64 * cr c) : ℝ) : EReal) := by
    have e1 : ((1 : ℝ) : EReal) - 1 = ((0 : ℝ) : EReal) := by
      rw [← EReal.coe_one, ← EReal.coe_sub, sub_self]
    have e0 : ((1 : ℝ) : EReal) - 0 = ((1 : ℝ) : EReal) := by
      rw [← EReal.coe_zero, ← EReal.coe_sub, sub_zero]
    intro c
    unfold logitsR onehot
    by_cases h : c = y n
    · rw [if_pos h, if_pos h, h, hcr, htR, w_one, w_64, one_mul, e1, ← EReal.coe_mul, ← EReal.coe_add,
        ← EReal.coe_mul, EReal.coe_eq_coe_iff]
      ring
    · rw [if_neg h, if_neg h, hcr, w_one, w_64, zero_mul, zero_add, e0, ← EReal.coe_mul, ← EReal.coe_mul,
        EReal.coe_eq_coe_iff]
      ring
  -- the row maximum is one of the logits, hence a real number
  obtain ⟨M', hM'⟩ : ∃ M' : ℝ, rowMaxR X W y n = (M' : EReal) := by
    unfold rowMaxR
    obtain ⟨i, -, hi⟩ := Finset.exists_mem_eq_sup Finset.univ Finset.univ_nonempty (fun c => logitsR X W y n c)
    rw [hi, hlog, w_ninf]
    exact ⟨_, max_eq_right bot_le⟩
  -- the reference's side
  have hR : nllR X W y n
      = ((-((64 * tl - M')
          - Real.log (∑ c, Real.exp ((if c = y n then 64 * tl else 64 * cr c) - M'))) : ℝ) : EReal) := by
    unfold nllR shiftedR
    simp only [hlog, hM', if_true, ← EReal.coe_sub, Ideal.exp_coe, ← coe_sum']
    rw [log_coe_pos (hpos _), ← EReal.coe_sub, ← EReal.coe_neg]
  rw [hK, hR, EReal.coe_eq_coe_iff, neg_inj]
  exact (lse_shift Finset.univ _ (max M0 M1) M' (64 * tl) (hpos _)).symm

end Row

/-! ## All rows -/

/-- The kernel's result formula equals the reference's, for all inputs and labels. -/
theorem kform_eq_rform (X : Fin 1024 → Fin 512 → EReal) (W : Fin 100000 → Fin 512 → EReal) (y : Fin 1024 → Fin 100000) :
    Kform X W y = Rform X W y := by
  unfold Kform Rform
  simp only [Row.row_eq]

end Cert.ArcSpec

end
-- ==== Proof.PreDecode.lean ====
/-
  From the printed precondition to the one fact the value proof uses of it: every label word is a class. The
  precondition is the conjunction of "every feature is finite", "every weight is finite" and "every label l has
  0 ≤ l and l < 100000 as a signed 32-bit number", each a reduce-by-and over its array; the last conjunct at row n
  gives 0 ≤ l_n < 100000 signed, which for a 32-bit word is l_n < 100000 read unsigned.
-/
import proofs.«431442_j45981919871044_3_alg».proof.Pre_finite_inputs
import proofs.«431442_j45981919871044_3_alg».proof.Proof.Gen.Pre_finite_inputs
import proofs.«431442_j45981919871044_3_alg».proof.Proof.Args
import proofs.«431442_j45981919871044_3_alg».proof.Defs
import Idealize.ShloMosaic.Lib.ReduceAll
import Idealize.ShloMosaic.Lib.StableHlo.Predicate

noncomputable section

namespace Cert.ArcSpec

open Idealize.ShloMosaic Idealize.ShloMosaic.ValueIdx

/-- A 32-bit word that is at least 0 and below 100000 read signed is below 100000 read unsigned: a word with its top
    bit set reads negative. -/
theorem toNat_lt_of_toInt (w : BitVec 32) (h0 : (0#32 : BitVec 32).toInt ≤ w.toInt)
    (h1 : w.toInt < (100000#32 : BitVec 32).toInt) : w.toNat < 100000 := by
  have e0 : (0#32 : BitVec 32).toInt = 0 := by decide
  have e1 : (100000#32 : BitVec 32).toInt = 100000 := by decide
  rw [e0] at h0
  rw [e1] at h1
  have hw := w.isLt
  rw [BitVec.toInt_eq_toNat_cond] at h0 h1
  split at h0 <;> omega

/-- Where the printed precondition is all ones, every label word is below 100000 read unsigned. -/
theorem inRange_of_pre {F : FTy → Type} [FloatOps F] [hP : Cert.Pre_finite_inputs.Facts]
    (a0 : FVec F Cert.Pre_finite_inputs.S8x128x512 .f32) (a1 : FVec F Cert.Pre_finite_inputs.S100000x512 .f32)
    (a2 : IVec Cert.Pre_finite_inputs.S1024 32)
    (h : Cert.Pre_finite_inputs.fn (F := F) a0 a1 a2 = fun _ => 1#1) : InRange a2 := by
  intro n
  -- the predicate at its one index: the conjunction of the three reductions
  have h0 := congrFun h ix0
  dsimp only [Cert.Pre_finite_inputs.fn] at h0
  -- its last conjunct: the reduce-by-and of the labels' mask is 1
  have h14 := (IntOp.andi_eq_one.1 h0).2
  haveI : Subsingleton Cert.Pre_finite_inputs.S_.Idx := ⟨fun a b => funext fun d => d.elim0⟩
  -- so the mask is 1 at row n: both compares hold there
  have h13 := Host.reduce_andi_all _ _ _ _ _ h14 (ix1 n)
  obtain ⟨hge, hlt⟩ := IntOp.andi_eq_one.1 h13
  exact toNat_lt_of_toInt (a2 (ix1 n)) (IntOp.cmpi_sge.1 hge) (IntOp.cmpi_slt.1 hlt)

open Idealize.SL.Sem Idealize.ShloMosaic.TcCoe

/-- The idealized kernel's precondition gives, on every device, that its label argument is in range. -/
theorem inRange_of_Pre_KernelIdeal [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    InRange (m ((c.tc : Thread Cert.KernelIdeal.nD Cert.KernelIdeal.τ).loc Cert.KernelIdeal.main_arg2)) :=
  inRange_of_pre _ _ _ (h c)

/-- The idealized reference's precondition gives, on every device, that its label argument is in range. -/
theorem inRange_of_Pre_ReferenceIdeal [hP : Cert.Pre_finite_inputs.Facts]
    (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    InRange (m ((c.tc : Thread Cert.ReferenceIdeal.nD Cert.ReferenceIdeal.τ).loc Cert.ReferenceIdeal.main_arg2)) :=
  inRange_of_pre _ _ _ (h c)

/-- The kernel as printed: its precondition gives, on every device, that its label argument is in range. -/
theorem inRange_of_Pre_Kernel [hP : Cert.Pre_finite_inputs.Facts]
    (m : (ℓ : Loc Cert.Kernel.nD Cert.Kernel.τ Cert.Kernel.sig) → Buf (Elt Bits) ℓ)
    (h : Cert.Pre_Kernel m) (c : Dev Cert.Kernel.nD) :
    InRange (m ((c.tc : Thread Cert.Kernel.nD Cert.Kernel.τ).loc Cert.Kernel.main_arg2)) :=
  inRange_of_pre _ _ _ (h c)

end Cert.ArcSpec

end
-- ==== Proof.lean ====
/-
  The claim of this certificate: an ArcFace loss computed by one fused kernel — each half of the 100000 classes
  walked in 50 tiles, per row a running maximum, a rescaled running sum of exponentials and the cosine at the label
  column; afterwards the two halves merged, the margin applied once per row and the label's term exchanged in the sum —
  against the plain formulation: cosines, the margin at the label column, a log-softmax over all classes read at the
  label, negated and averaged.

  The three frames: the kernel program (at the word level and at the extended reals) runs its 100 grid points and its
  host operations to the end and leaves its three arguments as they were (Proof/K/Frame.lean, Proof/KI/Frame.lean); the
  reference is host operations only. The idealization rewrote nothing, so `preserves` is trivial. The equivalence: the
  kernel's result buffer holds `Kform` of the arguments (Proof/KI/Value.lean) and the reference's holds `Rform`
  (its run, Proof/RefRunQ.lean, read by Proof/RefValue.lean), whenever every label is a class — which the precondition says (Proof/PreDecode.lean) —, and the
  two formulas are equal for all inputs because a log-sum-exp does not depend on the shift it is computed with
  (Proof/MathRow.lean).
-/
import proofs.«431442_j45981919871044_3_alg».proof.Defs
import proofs.«431442_j45981919871044_3_alg».proof.Proof.Gen.Kernel
import proofs.«431442_j45981919871044_3_alg».proof.Proof.Gen.KernelIdeal
import proofs.«431442_j45981919871044_3_alg».proof.Proof.Gen.ReferenceIdeal
import proofs.«431442_j45981919871044_3_alg».proof.Proof.Gen.Pre_finite_inputs
import proofs.«431442_j45981919871044_3_alg».proof.Proof.K.Frame
import proofs.«431442_j45981919871044_3_alg».proof.Proof.KI.Value
import proofs.«431442_j45981919871044_3_alg».proof.Proof.RefValue
import proofs.«431442_j45981919871044_3_alg».proof.Proof.RefRunQ
import proofs.«431442_j45981919871044_3_alg».proof.Proof.MathRow
import proofs.«431442_j45981919871044_3_alg».proof.Proof.PreDecode
import Idealize.ShloMosaic.Adequacy
import Idealize.ShloMosaic.Init

noncomputable section

namespace Cert.Proof

open Idealize.ShloMosaic Idealize.ShloMosaic.TcCoe Idealize.SL.Sem Cert.ArcSpec

/-- The word-level kernel program runs to the end and leaves its arguments unchanged. -/
theorem frame_k : Cert.frame_Kernel := fun m ρ _ => Cert.Kernel.Fr.frame m ρ

/-- So does its reading over the extended reals. -/
theorem frame_ki : Cert.frame_KernelIdeal := fun m ρ _ => Cert.KernelIdeal.Fr.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.RunQ.run_val (F := Ideal) m ρ)

/-- The idealization rewrote nothing. -/
theorem preserves : Cert.preserves_Kernel_KernelIdeal := trivial

/-- From memories that agree on the arguments both programs end with the same number in their result buffers: the
    kernel's is `Kform`, the reference's `Rform`, of the same features, weights and labels, the labels being classes by
    the precondition; and the two formulas are equal. -/
theorem algebraic : Cert.algebraic_KernelIdeal_ReferenceIdeal := by
  intro m ρ m' ρ' hpre hagree
  have hr : ∀ c : Dev Cert.KernelIdeal.nD, InRange (m ((c.tc : Thread Cert.KernelIdeal.nD Cert.KernelIdeal.τ).loc Cert.KernelIdeal.main_arg2)) :=
    fun c => inRange_of_Pre_KernelIdeal m hpre c
  refine ⟨_, Cert.KernelIdeal.Val.kernel_value m ρ hr, ?_⟩
  refine (θ_run Cert.ReferenceIdeal.defs _ _).mono (fun _ h c => ⟨(h c).1.trans ?_, (h c).2⟩)
    (Cert.ReferenceIdeal.RunQ.run_val (F := Ideal) m' ρ')
  rw [Cert.ReferenceIdeal.RefValue.ref_value _ _ _ (by rw [(hagree c).2.2]; exact hr c),
    (hagree c).1, (hagree c).2.1, (hagree c).2.2, ← kform_eq_rform]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
